-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S100000x5 : Shape := ⟨2, ![100000, 5]⟩
abbrev S100000x1 : Shape := ⟨2, ![100000, 1]⟩
abbrev S2x3200000 : Shape := ⟨2, ![2, 3200000]⟩
abbrev S3200000 : Shape := ⟨1, ![3200000]⟩
abbrev S768x8 : Shape := ⟨2, ![768, 8]⟩
abbrev S8 : Shape := ⟨1, ![8]⟩
abbrev S5x8 : Shape := ⟨2, ![5, 8]⟩
abbrev S1x8 : Shape := ⟨2, ![1, 8]⟩
abbrev S2x32x2 : Shape := ⟨3, ![2, 32, 2]⟩
abbrev S32x2 : Shape := ⟨2, ![32, 2]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S100000x5 : S_.BroadcastsInDim S100000x5 (![] : Fin 0 → Fin S100000x5.rank)
  reducesTo_S100000x5_S_d0_1 : S100000x5.ReducesTo [0, 1] S_
  bcast_S_S100000x1 : S_.BroadcastsInDim S100000x1 (![] : Fin 0 → Fin S100000x1.rank)
  reducesTo_S100000x1_S_d0_1 : S100000x1.ReducesTo [0, 1] S_
  bcast_S_S768x8 : S_.BroadcastsInDim S768x8 (![] : Fin 0 → Fin S768x8.rank)
  reducesTo_S768x8_S_d0_1 : S768x8.ReducesTo [0, 1] S_
  bcast_S_S8 : S_.BroadcastsInDim S8 (![] : Fin 0 → Fin S8.rank)
  reducesTo_S8_S_d0 : S8.ReducesTo [0] S_
  bcast_S_S5x8 : S_.BroadcastsInDim S5x8 (![] : Fin 0 → Fin S5x8.rank)
  reducesTo_S5x8_S_d0_1 : S5x8.ReducesTo [0, 1] S_
  bcast_S_S1x8 : S_.BroadcastsInDim S1x8 (![] : Fin 0 → Fin S1x8.rank)
  reducesTo_S1x8_S_d0_1 : S1x8.ReducesTo [0, 1] S_
  bcast_S_S2x32x2 : S_.BroadcastsInDim S2x32x2 (![] : Fin 0 → Fin S2x32x2.rank)
  reducesTo_S2x32x2_S_d0_1_2 : S2x32x2.ReducesTo [0, 1, 2] S_
  bcast_S_S32x2 : S_.BroadcastsInDim S32x2 (![] : Fin 0 → Fin S32x2.rank)
  reducesTo_S32x2_S_d0_1 : S32x2.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S8 .f32) (main_arg14 : FVec F S2x32x2 .f32) (main_arg15 : FVec F S32x2 .f32) (main_v48 : IVec S_ 1) (main_v49 : FVec F S1x8 .f32) (main_v50 : FVec F S1x8 .f32) : IVec S_ 1 :=
  let main_v51 : IVec S1x8 1 := cmpf .olt main_v49 main_v50
  let main_c_19 : IVec S_ 1 := constantI S_ 1 1#1
  let main_v52 : IVec S_ 1 := (fun x v => Host.reduce IntOp.andi x v reducesTo_S1x8_S_d0_1 h_S_) main_v51 main_c_19
  let main_v53 : IVec S_ 1 := andi main_v48 main_v52
  let main_v54 : FVec F S8 .f32 := Host.absf main_arg13
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S2x32x2 .f32 := Host.absf main_arg14
  let main_cst_22 : FVec F S_ .f32 := constant S_ .f32 0x7F800000#32
  let main_v60 : FVec F S2x32x2 .f32 := broadcastInDim S2x32x2 ![] bcast_S_S2x32x2 main_cst_22
  let main_v61 : IVec S2x32x2 1 := cmpf .olt main_v59 main_v60
  let main_c_23 : IVec S_ 1 := constantI S_ 1 1#1
  let main_v62 : IVec S_ 1 := (fun x v => Host.reduce IntOp.andi x v reducesTo_S2x32x2_S_d0_1_2 h_S_) main_v61 main_c_23
  let main_v63 : IVec S_ 1 := andi main_v58 main_v62
  let main_v64 : FVec F S32x2 .f32 := Host.absf main_arg15
  let main_cst_24 : FVec F S_ .f32 := constant S_ .f32 0x7F800000#32
  let main_v65 : FVec F S32x2 .f32 := broadcastInDim S32x2 ![] bcast_S_S32x2 main_cst_24
  let main_v66 : IVec S32x2 1 := cmpf .olt main_v64 main_v65
  let main_c_25 : IVec S_ 1 := constantI S_ 1 1#1
  let main_v67 : IVec S_ 1 := (fun x v => Host.reduce IntOp.andi x v reducesTo_S32x2_S_d0_1 h_S_) main_v66 main_c_25
  fn_part4 (F := F) main_v63 main_v67

def fn_part2 {F : FTy → Type} [FloatOps F] (main_arg9 : FVec F S8 .f32) (main_arg10 : FVec F S5x8 .f32) (main_arg11 : FVec F S8 .f32) (main_arg12 : FVec F S1x8 .f32) (main_arg13 : FVec F S8 .f32) (main_arg14 : FVec F S2x32x2 .f32) (main_arg15 : FVec F S32x2 .f32) (main_v33 : IVec S_ 1) : IVec S_ 1 :=
  let main_v34 : FVec F S8 .f32 := Host.absf main_arg9
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S5x8 .f32 := Host.absf main_arg10
  let main_cst_14 : FVec F S_ .f32 := constant S_ .f32 0x7F800000#32
  let main_v40 : FVec F S5x8 .f32 := broadcastInDim S5x8 ![] bcast_S_S5x8 main_cst_14
  let main_v41 : IVec S5x8 1 := cmpf .olt main_v39 main_v40
  let main_c_15 : IVec S_ 1 := constantI S_ 1 1#1
  let main_v42 : IVec S_ 1 := (fun x v => Host.reduce IntOp.andi x v reducesTo_S5x8_S_d0_1 h_S_) main_v41 main_c_15
  let main_v43 : IVec S_ 1 := andi main_v38 main_v42
  let main_v44 : FVec F S8 .f32 := Host.absf main_arg11
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S1x8 .f32 := Host.absf main_arg12
  let main_cst_18 : FVec F S_ .f32 := constant S_ .f32 0x7F800000#32
  let main_v50 : FVec F S1x8 .f32 := broadcastInDim S1x8 ![] bcast_S_S1x8 main_cst_18
  fn_part3 (F := F) main_arg13 main_arg14 main_arg15 main_v48 main_v49 main_v50

def fn_part1 {F : FTy → Type} [FloatOps F] (main_arg6 : FVec F S768x8 .f32) (main_arg7 : FVec F S8 .f32) (main_arg8 : FVec F S768x8 .f32) (main_arg9 : FVec F S8 .f32) (main_arg10 : FVec F S5x8 .f32) (main_arg11 : FVec F S8 .f32) (main_arg12 : FVec F S1x8 .f32) (main_arg13 : FVec F S8 .f32) (main_arg14 : FVec F S2x32x2 .f32) (main_arg15 : FVec F S32x2 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S768x8 .f32 := Host.absf main_arg6
  let main_cst_6 : FVec F S_ .f32 := constant S_ .f32 0x7F800000#32
  let main_v20 : FVec F S768x8 .f32 := broadcastInDim S768x8 ![] bcast_S_S768x8 main_cst_6
  let main_v21 : IVec S768x8 1 := cmpf .olt main_v19 main_v20
  let main_c_7 : IVec S_ 1 := constantI S_ 1 1#1
  let main_v22 : IVec S_ 1 := (fun x v => Host.reduce IntOp.andi x v reducesTo_S768x8_S_d0_1 h_S_) main_v21 main_c_7
  let main_v23 : IVec S_ 1 := andi main_v18 main_v22
  let main_v24 : FVec F S8 .f32 := Host.absf main_arg7
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S768x8 .f32 := Host.absf main_arg8
  let main_cst_10 : FVec F S_ .f32 := constant S_ .f32 0x7F800000#32
  let main_v30 : FVec F S768x8 .f32 := broadcastInDim S768x8 ![] bcast_S_S768x8 main_cst_10
  let main_v31 : IVec S768x8 1 := cmpf .olt main_v29 main_v30
  let main_c_11 : IVec S_ 1 := constantI S_ 1 1#1
  let main_v32 : IVec S_ 1 := (fun x v => Host.reduce IntOp.andi x v reducesTo_S768x8_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x768 .f32) (main_arg1 : FVec F S100000x768 .f32) (main_arg2 : FVec F S100000x5 .f32) (main_arg3 : FVec F S100000x1 .f32) (main_arg4 : IVec S2x3200000 32) (main_arg5 : IVec S3200000 32) (main_arg6 : FVec F S768x8 .f32) (main_arg7 : FVec F S8 .f32) (main_arg8 : FVec F S768x8 .f32) (main_arg9 : FVec F S8 .f32) (main_arg10 : FVec F S5x8 .f32) (main_arg11 : FVec F S8 .f32) (main_arg12 : FVec F S1x8 .f32) (main_arg13 : FVec F S8 .f32) (main_arg14 : FVec F S2x32x2 .f32) (main_arg15 : FVec F S32x2 .f32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S100000x768 .f32 := Host.absf main_arg1
  let main_cst_0 : FVec F S_ .f32 := constant S_ .f32 0x7F800000#32
  let main_v5 : FVec F S100000x768 .f32 := broadcastInDim S100000x768 ![] bcast_S_S100000x768 main_cst_0
  let main_v6 : IVec S100000x768 1 := cmpf .olt main_v4 main_v5
  let main_c_1 : IVec S_ 1 := constantI S_ 1 1#1
  let main_v7 : IVec S_ 1 := (fun x v => Host.reduce IntOp.andi x v reducesTo_S100000x768_S_d0_1 h_S_) main_v6 main_c_1
  let main_v8 : IVec S_ 1 := andi main_v3 main_v7
  let main_v9 : FVec F S100000x5 .f32 := Host.absf main_arg2
  let main_cst_2 : FVec F S_ .f32 := constant S_ .f32 0x7F800000#32
  let main_v10 : FVec F S100000x5 .f32 := broadcastInDim S100000x5 ![] bcast_S_S100000x5 main_cst_2
  let main_v11 : IVec S100000x5 1 := cmpf .olt main_v9 main_v10
  let main_c_3 : IVec S_ 1 := constantI S_ 1 1#1
  let main_v12 : IVec S_ 1 := (fun x v => Host.reduce IntOp.andi x v reducesTo_S100000x5_S_d0_1 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x768 : Shape := ⟨2, ![100000, 768]⟩
abbrev S100000x5 : Shape := ⟨2, ![100000, 5]⟩
abbrev S100000x1 : Shape := ⟨2, ![100000, 1]⟩
abbrev S2x3200000 : Shape := ⟨2, ![2, 3200000]⟩
abbrev S3200000 : Shape := ⟨1, ![3200000]⟩
abbrev S768x8 : Shape := ⟨2, ![768, 8]⟩
abbrev S8 : Shape := ⟨1, ![8]⟩
abbrev S5x8 : Shape := ⟨2, ![5, 8]⟩
abbrev S1x8 : Shape := ⟨2, ![1, 8]⟩
abbrev S2x32x2 : Shape := ⟨3, ![2, 32, 2]⟩
abbrev S32x2 : Shape := ⟨2, ![32, 2]⟩
abbrev S1x32x2 : Shape := ⟨3, ![1, 32, 2]⟩
abbrev S32x6 : Shape := ⟨2, ![32, 6]⟩
abbrev S100000x6 : Shape := ⟨2, ![100000, 6]⟩
abbrev S2000x768 : Shape := ⟨2, ![2000, 768]⟩
abbrev S2000x5 : Shape := ⟨2, ![2000, 5]⟩
abbrev S2000x1 : Shape := ⟨2, ![2000, 1]⟩
abbrev S2000x6 : Shape := ⟨2, ![2000, 6]⟩
abbrev S2000x8 : Shape := ⟨2, ![2000, 8]⟩
abbrev S2000x32 : Shape := ⟨2, ![2000, 32]⟩
abbrev S100000x2 : Shape := ⟨2, ![100000, 2]⟩
abbrev S1x3200000 : Shape := ⟨2, ![1, 3200000]⟩
abbrev S_ : Shape := ⟨0, ![]⟩
abbrev S3200000x1 : Shape := ⟨2, ![3200000, 1]⟩
abbrev S3200000x2 : Shape := ⟨2, ![3200000, 2]⟩
abbrev S100000 : Shape := ⟨1, ![100000]⟩

abbrev nBuf : Space → Nat
  | .hbm => 91
  | .vmem => 19
  | .smem => 0
  | _ => 0

abbrev bufTy : (tb : Table) → Fin (tcTables nBuf tb) → BufTy
  | .hbm, ⟨0, _⟩ => ⟨S100000x768, .f32⟩
  | .hbm, ⟨1, _⟩ => ⟨S100000x768, .f32⟩
  | .hbm, ⟨2, _⟩ => ⟨S100000x5, .f32⟩
  | .hbm, ⟨3, _⟩ => ⟨S100000x1, .f32⟩
  | .hbm, ⟨4, _⟩ => ⟨S2x3200000, .i32⟩
  | .hbm, ⟨5, _⟩ => ⟨S3200000, .i32⟩
  | .hbm, ⟨6, _⟩ => ⟨S768x8, .f32⟩
  | .hbm, ⟨7, _⟩ => ⟨S8, .f32⟩
  | .hbm, ⟨8, _⟩ => ⟨S768x8, .f32⟩
  | .hbm, ⟨9, _⟩ => ⟨S8, .f32⟩
  | .hbm, ⟨10, _⟩ => ⟨S5x8, .f32⟩
  | .hbm, ⟨11, _⟩ => ⟨S8, .f32⟩
  | .hbm, ⟨12, _⟩ => ⟨S1x8, .f32⟩
  | .hbm, ⟨13, _⟩ => ⟨S8, .f32⟩
  | .hbm, ⟨14, _⟩ => ⟨S2x32x2, .f32⟩
  | .hbm, ⟨15, _⟩ => ⟨S32x2, .f32⟩
  | .hbm, ⟨16, _⟩ => ⟨S1x32x2, .f32⟩
  | .hbm, ⟨17, _⟩ => ⟨S32x2, .f32⟩
  | .hbm, ⟨18, _⟩ => ⟨S1x32x2, .f32⟩
  | .hbm, ⟨19, _⟩ => ⟨S32x2, .f32⟩
  | .hbm, ⟨20, _⟩ => ⟨S32x6, .f32⟩
  | .hbm, ⟨21, _⟩ => ⟨S100000x6, .f32⟩
  | .hbm, ⟨22, _⟩ => ⟨S100000x2, .f32⟩
  | .hbm, ⟨23, _⟩ => ⟨S100000x2, .f32⟩
  | .hbm, ⟨24, _⟩ => ⟨S100000x2, .f32⟩
  | .hbm, ⟨25, _⟩ => ⟨S1x3200000, .i32⟩
  | .hbm, ⟨26, _⟩ => ⟨S3200000, .i32⟩
  | .hbm, ⟨27, _⟩ => ⟨S1x3200000, .i32⟩
  | .hbm, ⟨28, _⟩ => ⟨S3200000, .i32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S3200000, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x2, .f32⟩
  | .hbm, ⟨42, _⟩ => ⟨S3200000x1, .f32⟩
  | .hbm, ⟨43, _⟩ => ⟨S3200000x2, .f32⟩
  | .hbm, ⟨44, _⟩ => ⟨S3200000x2, .f32⟩
  | .hbm, ⟨45, _⟩ => ⟨S_, .f32⟩
  | .hbm, ⟨46, _⟩ => ⟨S100000x2, .f32⟩
  | .hbm, ⟨47, _⟩ => ⟨S3200000x1, .i32⟩
  | .hbm, ⟨48, _⟩ => ⟨S100000x2, .f32⟩
  | .hbm, ⟨49, _⟩ => ⟨S_, .f32⟩
  | .hbm, ⟨50, _⟩ => ⟨S100000, .f32⟩
  | .hbm, ⟨51, _⟩ => ⟨S3200000x1, .i32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x2, .f32⟩
  | .hbm, ⟨58, _⟩ => ⟨S100000x2, .f32⟩
  | .hbm, ⟨59, _⟩ => ⟨S100000x2, .f32⟩
  | .hbm, ⟨60, _⟩ => ⟨S_, .i32⟩
  | .hbm, ⟨61, _⟩ => ⟨S3200000, .i32⟩
  | .hbm, ⟨62, _⟩ => ⟨S3200000, .i1⟩
  | .hbm, ⟨63, _⟩ => ⟨S3200000, .f32⟩
  | .hbm, ⟨64, _⟩ => ⟨S_, .i32⟩
  | .hbm, ⟨65, _⟩ => ⟨S3200000, .i32⟩
  | .hbm, ⟨66, _⟩ => ⟨S3200000, .i1⟩
  | .hbm, ⟨67, _⟩ => ⟨S_, .i32⟩
  | .hbm, ⟨68, _⟩ => ⟨S3200000, .i32⟩
  | .hbm, ⟨69, _⟩ => ⟨S3200000, .i32⟩
  | .hbm, ⟨70, _⟩ => ⟨S3200000, .i32⟩
  | .hbm, ⟨71, _⟩ => ⟨S3200000x1, .i32⟩
  | .hbm, ⟨72, _⟩ => ⟨S3200000x2, .f32⟩
  | .hbm, ⟨73, _⟩ => ⟨S3200000x1, .f32⟩
  | .hbm, ⟨74, _⟩ => ⟨S3200000x2, .f32⟩
  | .hbm, ⟨75, _⟩ => ⟨S3200000x2, .f32⟩
  | .hbm, ⟨76, _⟩ => ⟨S_, .f32⟩
  | .hbm, ⟨77, _⟩ => ⟨S100000x2, .f32⟩
  | .hbm, ⟨78, _⟩ => ⟨S3200000x1, .i32⟩
  | .hbm, ⟨79, _⟩ => ⟨S100000x2, .f32⟩
  | .hbm, ⟨80, _⟩ => ⟨S_, .f32⟩
  | .hbm, ⟨81, _⟩ => ⟨S100000, .f32⟩
  | .hbm, ⟨82, _⟩ => ⟨S3200000x1, .i32⟩
  | .hbm, ⟨83, _⟩ => ⟨S100000, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S100000x1, .f32⟩
  | .hbm, ⟨88, _⟩ => ⟨S100000x2, .f32⟩
  | .hbm, ⟨89, _⟩ => ⟨S100000x2, .f32⟩
  | .hbm, ⟨90, _⟩ => ⟨S100000x2, .f32⟩
  | .local _ .vmem, ⟨0, _⟩ => ⟨S2000x768, .f32⟩
  | .local _ .vmem, ⟨1, _⟩ => ⟨S2000x768, .f32⟩
  | .local _ .vmem, ⟨2, _⟩ => ⟨S2000x768, .f32⟩
  | .local _ .vmem, ⟨3, _⟩ => ⟨S2000x768, .f32⟩
  | .local _ .vmem, ⟨4, _⟩ => ⟨S2000x5, .f32⟩
  | .local _ .vmem, ⟨5, _⟩ => ⟨S2000x5, .f32⟩
  | .local _ .vmem, ⟨6, _⟩ => ⟨S2000x1, .f32⟩
  | .local _ .vmem, ⟨7, _⟩ => ⟨S2000x1, .f32⟩
  | .local _ .vmem, ⟨8, _⟩ => ⟨S768x8, .f32⟩
  | .local _ .vmem, ⟨9, _⟩ => ⟨S8, .f32⟩
  | .local _ .vmem, ⟨10, _⟩ => ⟨S768x8, .f32⟩
  | .local _ .vmem, ⟨11, _⟩ => ⟨S8, .f32⟩
  | .local _ .vmem, ⟨12, _⟩ => ⟨S5x8, .f32⟩
  | .local _ .vmem, ⟨13, _⟩ => ⟨S8, .f32⟩
  | .local _ .vmem, ⟨14, _⟩ => ⟨S1x8, .f32⟩
  | .local _ .vmem, ⟨15, _⟩ => ⟨S8, .f32⟩
  | .local _ .vmem, ⟨16, _⟩ => ⟨S32x6, .f32⟩
  | .local _ .vmem, ⟨17, _⟩ => ⟨S2000x6, .f32⟩
  | .local _ .vmem, ⟨18, _⟩ => ⟨S2000x6, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_0 : Ref sig .tc := ⟨.hbm, 33, rfl⟩
abbrev main_v16 : Ref sig .tc := ⟨.hbm, 34, rfl⟩
abbrev main_v17 : Ref sig .tc := ⟨.hbm, 35, rfl⟩
abbrev main_c_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_5 : Ref sig .tc := ⟨.hbm, 64, rfl⟩
abbrev main_v41 : Ref sig .tc := ⟨.hbm, 65, rfl⟩
abbrev main_v42 : Ref sig .tc := ⟨.hbm, 66, rfl⟩
abbrev main_c_6 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x6 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x6 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x32x2_S1x32x2_0_0_0 : S2x32x2.Slices ![0, 0, 0] S1x32x2
  shapeCasts_S1x32x2_S32x2 : S1x32x2.ShapeCasts S32x2
  slices_S2x32x2_S1x32x2_1_0_0 : S2x32x2.Slices ![1, 0, 0] S1x32x2
  concatenates_S32x2_S32x2_S32x2_S32x6_d1 : Shape.Concatenates [S32x2, S32x2, S32x2] S32x6 1
  inb_S2000x768_S2000x768_0_0 : ∀ a, (![0, 0] : Fin 2 → Nat) a + S2000x768.size a ≤ S2000x768.size a
  h_S2000x768 : 0 < S2000x768.numel
  inb_S768x8_S768x8_0_0 : ∀ a, (![0, 0] : Fin 2 → Nat) a + S768x8.size a ≤ S768x8.size a
  h_S768x8 : 0 < S768x8.numel
  inb_S8_S8_0 : ∀ a, (![0] : Fin 1 → Nat) a + S8.size a ≤ S8.size a
  h_S8 : 0 < S8.numel
  shapeCasts_S8_S1x8 : S8.ShapeCasts S1x8
  broadcasts_S1x8_S2000x8 : S1x8.Broadcasts S2000x8
  inb_S2000x5_S2000x5_0_0 : ∀ a, (![0, 0] : Fin 2 → Nat) a + S2000x5.size a ≤ S2000x5.size a
  h_S2000x5 : 0 < S2000x5.numel
  inb_S5x8_S5x8_0_0 : ∀ a, (![0, 0] : Fin 2 → Nat) a + S5x8.size a ≤ S5x8.size a
  h_S5x8 : 0 < S5x8.numel
  inb_S2000x1_S2000x1_0_0 : ∀ a, (![0, 0] : Fin 2 → Nat) a + S2000x1.size a ≤ S2000x1.size a
  h_S2000x1 : 0 < S2000x1.numel
  inb_S1x8_S1x8_0_0 : ∀ a, (![0, 0] : Fin 2 → Nat) a + S1x8.size a ≤ S1x8.size a
  h_S1x8 : 0 < S1x8.numel
  concatenates_S2000x8_S2000x8_S2000x8_S2000x8_S2000x32_d1 : Shape.Concatenates [S2000x8, S2000x8, S2000x8, S2000x8] S2000x32 1
  inb_S32x6_S32x6_0_0 : ∀ a, (![0, 0] : Fin 2 → Nat) a + S32x6.size a ≤ S32x6.size a
  h_S32x6 : 0 < S32x6.numel
  shapeCasts_S32x6_S32x6 : S32x6.ShapeCasts S32x6
  inb_S2000x6_S2000x6_0_0 : ∀ a, (![0, 0] : Fin 2 → Nat) a + S2000x6.size a ≤ S2000x6.size a
  h_S2000x6 : 0 < S2000x6.numel
  slices_S100000x6_S100000x2_0_0 : S100000x6.Slices ![0, 0] S100000x2
  slices_S100000x6_S100000x2_0_2 : S100000x6.Slices ![0, 2] S100000x2
  slices_S100000x6_S100000x2_0_4 : S100000x6.Slices ![0, 4] S100000x2
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  dot_S2000x768_S768x8_S2000x8_1_0_0_1_n_n_wf : DotDims.WF S2000x768 S768x8 S2000x8 [1] [0] [0] [1] [] []
  dot_S2000x5_S5x8_S2000x8_1_0_0_1_n_n_wf : DotDims.WF S2000x5 S5x8 S2000x8 [1] [0] [0] [1] [] []
  dot_S2000x1_S1x8_S2000x8_1_0_0_1_n_n_wf : DotDims.WF S2000x1 S1x8 S2000x8 [1] [0] [0] [1] [] []
  dot_S2000x32_S32x6_S2000x6_1_0_0_1_n_n_wf : DotDims.WF S2000x32 S32x6 S2000x6 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  scatter_S100000_S3200000x1_S3200000_n_0_0_1_wf : ScatterDims.WF S100000 S3200000x1 S3200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S100000x768.size a
  hwx0_0 : ∀ i : grid0.Coords, EltTy.bits .f32 = 32 ∨ (Rect.block (s := S100000x768) S2000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x768.size a ≤ S100000x768.size a
  hwx0_1 : ∀ i : grid0.Coords, EltTy.bits .f32 = 32 ∨ (Rect.block (s := S100000x768) S2000x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x5.size a ≤ S100000x5.size a
  hwx0_2 : ∀ i : grid0.Coords, EltTy.bits .f32 = 32 ∨ (Rect.block (s := S100000x5) S2000x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x8.size a ≤ S768x8.size a
  hwx0_4 : ∀ i : grid0.Coords, EltTy.bits .f32 = 32 ∨ (Rect.block (s := S768x8) S768x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8.size a ≤ S8.size a
  hwx0_5 : ∀ i : grid0.Coords, EltTy.bits .f32 = 32 ∨ (Rect.block (s := S8) S8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x8.size a ≤ S768x8.size a
  hwx0_6 : ∀ i : grid0.Coords, EltTy.bits .f32 = 32 ∨ (Rect.block (s := S768x8) S768x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5x8.size a ≤ S5x8.size a
  hwx0_8 : ∀ i : grid0.Coords, EltTy.bits .f32 = 32 ∨ (Rect.block (s := S5x8) S5x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8.size a ≤ S8.size a
  hwx0_9 : ∀ i : grid0.Coords, EltTy.bits .f32 = 32 ∨ (Rect.block (s := S8) S8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x8.size a ≤ S1x8.size a
  hwx0_10 : ∀ i : grid0.Coords, EltTy.bits .f32 = 32 ∨ (Rect.block (s := S1x8) S1x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8.size a ≤ S8.size a
  hwx0_11 : ∀ i : grid0.Coords, EltTy.bits .f32 = 32 ∨ (Rect.block (s := S8) S8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x6.size a ≤ S32x6.size a
  hwx0_12 : ∀ i : grid0.Coords, EltTy.bits .f32 = 32 ∨ (Rect.block (s := S32x6) S32x6.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x6.size a ≤ S100000x6.size a
  hwx0_13 : ∀ i : grid0.Coords, EltTy.bits .f32 = 32 ∨ (Rect.block (s := S100000x6) S2000x6.size (cc0_transform_13 i) (hinb0_13 i)).WholeWords (EltTy.packing .f32)

variable [Facts₀]

def dot_S2000x768_S768x8_S2000x8_1_0_0_1_n_n : DotDims S2000x768 S768x8 S2000x8 where
  lhsContracting := [1]
  rhsContracting := [0]
  lhsNonContracting := [0]
  rhsNonContracting := [1]
  lhsBatch := []
  rhsBatch := []
  wf := dot_S2000x768_S768x8_S2000x8_1_0_0_1_n_n_wf
def dot_S2000x5_S5x8_S2000x8_1_0_0_1_n_n : DotDims S2000x5 S5x8 S2000x8 where
  lhsContracting := [1]
  rhsContracting := [0]
  lhsNonContracting := [0]
  rhsNonContracting := [1]
  lhsBatch := []
  rhsBatch := []
  wf := dot_S2000x5_S5x8_S2000x8_1_0_0_1_n_n_wf
def dot_S2000x1_S1x8_S2000x8_1_0_0_1_n_n : DotDims S2000x1 S1x8 S2000x8 where
  lhsContracting := [1]
  rhsContracting := [0]
  lhsNonContracting := [0]
  rhsNonContracting := [1]
  lhsBatch := []
  rhsBatch := []
  wf := dot_S2000x1_S1x8_S2000x8_1_0_0_1_n_n_wf
def dot_S2000x32_S32x6_S2000x6_1_0_0_1_n_n : DotDims S2000x32 S32x6 S2000x6 where
  lhsContracting := [1]
  rhsContracting := [0]
  lhsNonContracting := [0]
  rhsNonContracting := [1]
  lhsBatch := []
  rhsBatch := []
  wf := dot_S2000x32_S32x6_S2000x6_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S768x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S768x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S5x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S1x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S32x6.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S2000x6.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x768 : Shape := ⟨2, ![100000, 768]⟩
abbrev S100000x5 : Shape := ⟨2, ![100000, 5]⟩
abbrev S100000x1 : Shape := ⟨2, ![100000, 1]⟩
abbrev S2x3200000 : Shape := ⟨2, ![2, 3200000]⟩
abbrev S3200000 : Shape := ⟨1, ![3200000]⟩
abbrev S768x8 : Shape := ⟨2, ![768, 8]⟩
abbrev S8 : Shape := ⟨1, ![8]⟩
abbrev S5x8 : Shape := ⟨2, ![5, 8]⟩
abbrev S1x8 : Shape := ⟨2, ![1, 8]⟩
abbrev S2x32x2 : Shape := ⟨3, ![2, 32, 2]⟩
abbrev S32x2 : Shape := ⟨2, ![32, 2]⟩
abbrev S100000x8 : Shape := ⟨2, ![100000, 8]⟩
abbrev S_ : Shape := ⟨0, ![]⟩
abbrev S100000x32 : Shape := ⟨2, ![100000, 32]⟩
abbrev S1x3200000 : Shape := ⟨2, ![1, 3200000]⟩
abbrev S100000x2 : Shape := ⟨2, ![100000, 2]⟩
abbrev S3200000x1 : Shape := ⟨2, ![3200000, 1]⟩
abbrev S3200000x32 : Shape := ⟨2, ![3200000, 32]⟩
abbrev S1x32x2 : Shape := ⟨3, ![1, 32, 2]⟩
abbrev S3200000x2 : Shape := ⟨2, ![3200000, 2]⟩
abbrev S100000 : Shape := ⟨1, ![100000]⟩

abbrev nBuf : Space → Nat
  | .hbm => 129
  | .vmem => 0
  | .smem => 0
  | _ => 0

abbrev hbmTy0_0 (i : Nat) : BufTy := match i % 128 with
  | 0 => ⟨S100000x768, .f32⟩
  | 1 => ⟨S100000x768, .f32⟩
  | 2 => ⟨S100000x5, .f32⟩
  | 3 => ⟨S100000x1, .f32⟩
  | 4 => ⟨S2x3200000, .i32⟩
  | 5 => ⟨S3200000, .i32⟩
  | 6 => ⟨S768x8, .f32⟩
  | 7 => ⟨S8, .f32⟩
  | 8 => ⟨S768x8, .f32⟩
  | 9 => ⟨S8, .f32⟩
  | 10 => ⟨S5x8, .f32⟩
  | 11 => ⟨S8, .f32⟩
  | 12 => ⟨S1x8, .f32⟩
  | 13 => ⟨S8, .f32⟩
  | 14 => ⟨S2x32x2, .f32⟩
  | 15 => ⟨S32x2, .f32⟩
  | 16 => ⟨S100000x8, .f32⟩
  | 17 => ⟨S1x8, .f32⟩
  | 18 => ⟨S100000x8, .f32⟩
  | 19 => ⟨S100000x8, .f32⟩
  | 20 => ⟨S_, .f32⟩
  | 21 => ⟨S_, .f32⟩
  | 22 => ⟨S100000x8, .f32⟩
  | 23 => ⟨S100000x8, .i1⟩
  | 24 => ⟨S_, .f32⟩
  | 25 => ⟨S100000x8, .f32⟩
  | 26 => ⟨S100000x8, .f32⟩
  | 27 => ⟨S100000x8, .f32⟩
  | 28 => ⟨S100000x8, .f32⟩
  | 29 => ⟨S1x8, .f32⟩
  | 30 => ⟨S100000x8, .f32⟩
  | 31 => ⟨S100000x8, .f32⟩
  | 32 => ⟨S_, .f32⟩
  | 33 => ⟨S_, .f32⟩
  | 34 => ⟨S100000x8, .f32⟩
  | 35 => ⟨S100000x8, .i1⟩
  | 36 => ⟨S_, .f32⟩
  | 37 => ⟨S100000x8, .f32⟩
  | 38 => ⟨S100000x8, .f32⟩
  | 39 => ⟨S100000x8, .f32⟩
  | 40 => ⟨S100000x8, .f32⟩
  | 41 => ⟨S1x8, .f32⟩
  | 42 => ⟨S100000x8, .f32⟩
  | 43 => ⟨S100000x8, .f32⟩
  | 44 => ⟨S_, .f32⟩
  | 45 => ⟨S_, .f32⟩
  | 46 => ⟨S100000x8, .f32⟩
  | 47 => ⟨S100000x8, .i1⟩
  | 48 => ⟨S_, .f32⟩
  | 49 => ⟨S100000x8, .f32⟩
  | 50 => ⟨S100000x8, .f32⟩
  | 51 => ⟨S100000x8, .f32⟩
  | 52 => ⟨S100000x8, .f32⟩
  | 53 => ⟨S1x8, .f32⟩
  | 54 => ⟨S100000x8, .f32⟩
  | 55 => ⟨S100000x8, .f32⟩
  | 56 => ⟨S_, .f32⟩
  | 57 => ⟨S_, .f32⟩
  | 58 => ⟨S100000x8, .f32⟩
  | 59 => ⟨S100000x8, .i1⟩
  | 60 => ⟨S_, .f32⟩
  | 61 => ⟨S100000x8, .f32⟩
  | 62 => ⟨S100000x8, .f32⟩
  | 63 => ⟨S100000x8, .f32⟩
  | 64 => ⟨S100000x32, .f32⟩
  | 65 => ⟨S1x3200000, .i32⟩
  | 66 => ⟨S3200000, .i32⟩
  | 67 => ⟨S1x3200000, .i32⟩
  | 68 => ⟨S3200000, .i32⟩
  | 69 => ⟨S100000x2, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000x32, .f32⟩
  | 79 => ⟨S_, .i32⟩
  | 80 => ⟨S3200000, .i32⟩
  | 81 => ⟨S3200000, .i1⟩
  | 82 => ⟨S3200000, .f32⟩
  | 83 => ⟨S1x32x2, .f32⟩
  | 84 => ⟨S32x2, .f32⟩
  | 85 => ⟨S3200000x2, .f32⟩
  | 86 => ⟨S3200000x1, .f32⟩
  | 87 => ⟨S3200000x2, .f32⟩
  | 88 => ⟨S3200000x2, .f32⟩
  | 89 => ⟨S_, .f32⟩
  | 90 => ⟨S100000x2, .f32⟩
  | 91 => ⟨S3200000x1, .i32⟩
  | 92 => ⟨S100000x2, .f32⟩
  | 93 => ⟨S_, .f32⟩
  | 94 => ⟨S100000, .f32⟩
  | 95 => ⟨S3200000x1, .i32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x2, .f32⟩
  | 102 => ⟨S100000x2, .f32⟩
  | 103 => ⟨S100000x2, .f32⟩
  | 104 => ⟨S_, .i32⟩
  | 105 => ⟨S3200000, .i32⟩
  | 106 => ⟨S3200000, .i1⟩
  | 107 => ⟨S3200000, .f32⟩
  | 108 => ⟨S1x32x2, .f32⟩
  | 109 => ⟨S32x2, .f32⟩
  | 110 => ⟨S3200000x2, .f32⟩
  | 111 => ⟨S3200000x1, .f32⟩
  | 112 => ⟨S3200000x2, .f32⟩
  | 113 => ⟨S3200000x2, .f32⟩
  | 114 => ⟨S_, .f32⟩
  | 115 => ⟨S100000x2, .f32⟩
  | 116 => ⟨S3200000x1, .i32⟩
  | 117 => ⟨S100000x2, .f32⟩
  | 118 => ⟨S_, .f32⟩
  | 119 => ⟨S100000, .f32⟩
  | 120 => ⟨S3200000x1, .i32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x2, .f32⟩
  | 127 => ⟨S100000x2, .f32⟩
  | _ => ⟨S100000x768, .f32⟩

abbrev hbmTy0_1 (i : Nat) : BufTy := match i % 128 with
  | 0 => ⟨S100000x2, .f32⟩
  | _ => ⟨S100000x768, .f32⟩

abbrev hbmTy (i : Nat) : BufTy := match i / 128 with
  | 0 => hbmTy0_0 i
  | 1 => hbmTy0_1 i
  | _ => ⟨S100000x768, .f32⟩

abbrev bufTy : (tb : Table) → Fin (tcTables nBuf tb) → BufTy
  | .hbm, ⟨i, _⟩ => hbmTy i
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_0 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_1 : Ref sig .tc := ⟨.hbm, 44, rfl⟩
abbrev main_call2_cst : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst_2 : Ref sig .tc := ⟨.hbm, 56, rfl⟩
abbrev main_call3_cst : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_c : Ref sig .tc := ⟨.hbm, 70, rfl⟩
abbrev main_v26 : Ref sig .tc := ⟨.hbm, 71, rfl⟩
abbrev main_v27 : Ref sig .tc := ⟨.hbm, 72, rfl⟩
abbrev main_c_3 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_c_4 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_5 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_6 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_7 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_c_8 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_9 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_10 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst_11 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x8 : S_.BroadcastsInDim S100000x8 (![] : Fin 0 → Fin S100000x8.rank)
  concatenates_S100000x8_S100000x8_S100000x8_S100000x8_S100000x32_d1 : Shape.Concatenates [S100000x8, S100000x8, S100000x8, S100000x8] S100000x32 1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x32x2_S1x32x2_0_0_0 : S2x32x2.Slices ![0, 0, 0] S1x32x2
  shapeCasts_S1x32x2_S32x2 : S1x32x2.ShapeCasts S32x2
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  slices_S2x32x2_S1x32x2_1_0_0 : S2x32x2.Slices ![1, 0, 0] S1x32x2
  dot_S100000x768_S768x8_S100000x8_1_0_0_1_n_n_wf : DotDims.WF S100000x768 S768x8 S100000x8 [1] [0] [0] [1] [] []
  dot_S100000x5_S5x8_S100000x8_1_0_0_1_n_n_wf : DotDims.WF S100000x5 S5x8 S100000x8 [1] [0] [0] [1] [] []
  dot_S100000x1_S1x8_S100000x8_1_0_0_1_n_n_wf : DotDims.WF S100000x1 S1x8 S100000x8 [1] [0] [0] [1] [] []
  dot_S100000x32_S32x2_S100000x2_1_0_0_1_n_n_wf : DotDims.WF S100000x32 S32x2 S100000x2 [1] [0] [0] [1] [] []
  gather_S100000x32_S3200000x1_S3200000x32_1_0_n_n_0_1_132_wf : GatherDims.WF S100000x32 S3200000x1 S3200000x32 [1] [0] [] [0] [] 1 ![1, 32]
  dot_S3200000x32_S32x2_S3200000x2_1_0_0_1_n_n_wf : DotDims.WF S3200000x32 S32x2 S3200000x2 [1] [0] [0] [1] [] []
  scatter_S100000x2_S3200000x1_S3200000x2_1_0_0_1_wf : ScatterDims.WF S100000x2 S3200000x1 S3200000x2 [1] [0] [0] 1
  scatter_S100000_S3200000x1_S3200000_n_0_0_1_wf : ScatterDims.WF S100000 S3200000x1 S3200000 [] [0] [0] 1

variable [Facts₀]

def dot_S100000x768_S768x8_S100000x8_1_0_0_1_n_n : DotDims S100000x768 S768x8 S100000x8 where
  lhsContracting := [1]
  rhsContracting := [0]
  lhsNonContracting := [0]
  rhsNonContracting := [1]
  lhsBatch := []
  rhsBatch := []
  wf := dot_S100000x768_S768x8_S100000x8_1_0_0_1_n_n_wf
def dot_S100000x5_S5x8_S100000x8_1_0_0_1_n_n : DotDims S100000x5 S5x8 S100000x8 where
  lhsContracting := [1]
  rhsContracting := [0]
  lhsNonContracting := [0]
  rhsNonContracting := [1]
  lhsBatch := []
  rhsBatch := []
  wf := dot_S100000x5_S5x8_S100000x8_1_0_0_1_n_n_wf
def dot_S100000x1_S1x8_S100000x8_1_0_0_1_n_n : DotDims S100000x1 S1x8 S100000x8 where
  lhsContracting := [1]
  rhsContracting := [0]
  lhsNonContracting := [0]
  rhsNonContracting := [1]
  lhsBatch := []
  rhsBatch := []
  wf := dot_S100000x1_S1x8_S100000x8_1_0_0_1_n_n_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S3200000x32_S32x2_S3200000x2_1_0_0_1_n_n : DotDims S3200000x32 S32x2 S3200000x2 where
  lhsContracting := [1]
  rhsContracting := [0]
  lhsNonContracting := [0]
  rhsNonContracting := [1]
  lhsBatch := []
  rhsBatch := []
  wf := dot_S3200000x32_S32x2_S3200000x2_1_0_0_1_n_n_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.KBlock.lean ====
/-
  What one grid point of the node-feature kernel stores into its block of the 100000 x 6 result: for the 2000 rows of the
  block, the four leaky-rectified affine features (description, tweet, numeric and categorical properties, eight columns
  each) laid side by side as a 2000 x 32 matrix and multiplied by the 32 x 6 matrix of the root and the two relation
  weights. Stated once, generic in the float instance, over the point's input blocks and the resident weights.
-/
import proofs.«123657_j12738873000206_1_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The block one grid point writes back, as a function of the point's four row blocks (`x0 … x3`: descriptions, tweets,
    numeric and categorical properties of 2000 nodes) and of the nine resident arrays (four weight matrices with their
    biases, and the 32 x 6 combined matrix `w12`): the third feature's rectifier is spelt through its three parts
    (the affine map, its sign test and its scaled copy), as the body computes it. -/
def outBlk (x0 x1 : Vec F S2000x768 .f32) (x2 : Vec F S2000x5 .f32) (x3 : Vec F S2000x1 .f32)
    (w4 : Vec F S768x8 .f32) (b5 : Vec F S8 .f32) (w6 : Vec F S768x8 .f32) (b7 : Vec F S8 .f32)
    (w8 : Vec F S5x8 .f32) (b9 : Vec F S8 .f32) (w10 : Vec F S1x8 .f32) (b11 : Vec F S8 .f32)
    (w12 : Vec F S32x6 .f32) : Vec F S2000x6 .f32 :=
  k0_pay1 (k0_pay2 x0 w4 b5) (k0_pay3 x1 w6 b7) (k0_pay4 x2 w8 b9) (k0_pay5 x2 w8 b9) (k0_pay6 x2 w8 b9) x3 w10 b11 w12

end Cert.KernelIdeal.Hand

end
-- ==== Proof.KFrame.lean ====
/-
  The frame run of the node-feature program: @main slices the relation weights and lays the 32 x 6 combined matrix out
  (five host operations), runs its one region over the fifty row blocks of 2000 nodes, and ends with sixty-nine host
  operations (the two masked segment means over the edges and their sum with the root term). Here: the contents the
  region finds (the valuation after the five operations), each window's block at a grid point, what the body leaves in
  the output window's buffer (the block `outBlk` of the point's thirteen input blocks), the run of the whole of @main to
  the library's frame post, and from it that all sixteen argument arrays end as launched. Generic in the float instance.
-/
import proofs.«123657_j12738873000206_1_alg».proof.Proof.Gen.KernelIdeal.Launch
import proofs.«123657_j12738873000206_1_alg».proof.Proof.Gen.KernelIdeal.Skeleton
import proofs.«123657_j12738873000206_1_alg».proof.Proof.Gen.KernelIdeal.Points
import proofs.«123657_j12738873000206_1_alg».proof.Proof.KBlock
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffer contents when the region is entered: the launch contents after the five host operations that
    build the combined 32 x 6 matrix. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data of the pipeline -/

/-- On core `c`: the arrays as the region finds them; after the body at point `t` each of the thirteen input windows'
    buffers still at its block, and the output window's at `outBlk` of those thirteen blocks; the invariant the scoped
    rest and the generator register, untouched; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

/-- The proof data's arrays are the region-entry contents (the definition projected, the valuation never unfolded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
/-- What the body leaves in the output window's buffer at point `t`. -/
theorem after13 (c : Dev nD) (t : Fin cfg0.N) : (dats m 0 c).after 13 t = outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  dsimp only [dats]

/-! ## The host lines around the region -/

theorem prefix_fresh : (hostOps0 : List (HloOp τ sig (Elt F))).Forall fun op => op.fresh = ∅ := by
  simp only [List.Forall]; repeat' constructor
theorem tail_fresh : (hostOps1 : List (HloOp τ sig (Elt F))).Forall fun op => op.fresh = ∅ := by
  simp only [List.Forall]; repeat' constructor

set_option maxHeartbeats 40000000 in
/-- @main is the five operations, the region, and the sixty-nine operations: run from the launch contents it reduces to
    the region, entered at `V`, continued by the sixty-nine. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The buffers the five operations before the region write: the two relation slices, their 32 x 2 reshapes, and the
    combined matrix. -/
abbrev prefixResults : List (Ref sig .tc) := [main_v0, main_v1, main_v2, main_v3, main_v4]

/-- The buffers the sixty-nine operations after the region write, in order: each operation's own result. -/
abbrev tailResults : List (Ref sig .tc) :=
  [main_v6, main_v7, main_v8, main_v9, main_v10, main_v11, main_v12, main_c, main_v13, main_v14, main_v15, main_c_0, main_v16, main_v17, main_c_1, main_v18, main_v19, main_v20, main_v21, main_v22, main_v23, main_v24, main_v25, main_cst, main_v26, main_v27, main_v28, main_cst_2, main_v29, main_v30, main_v31, main_cst_3, main_v32, main_v33, main_v34, main_v35, main_v36, main_v37, main_c_4, main_v38, main_v39, main_v40, main_c_5, main_v41, main_v42, main_c_6, main_v43, main_v44, main_v45, main_v46, main_v47, main_v48, main_v49, main_v50, main_cst_7, main_v51, main_v52, main_v53, main_cst_8, main_v54, main_v55, main_v56, main_cst_9, main_v57, main_v58, main_v59, main_v60, main_v61, main_v62]

/-- Each operation before the region writes its own result buffer, one of the five listed. -/
theorem prefix_writes : (hostOps0 : List (HloOp τ sig (Elt F))).Forall fun op =>
    op.writes ⊆ (prefixResults.map (Proc.devRef (τ := τ) .tc)).toFinset := by
  simp only [hostOps0, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

set_option maxHeartbeats 4000000 in
/-- Each operation after the region writes its own result buffer, one of the sixty-nine listed. -/
theorem tail_writes : (hostOps1 : List (HloOp τ sig (Elt F))).Forall fun op =>
    op.writes ⊆ (tailResults.map (Proc.devRef (τ := τ) .tc)).toFinset := by
  simp only [hostOps1, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

/-- So a reference that is none of the sixty-nine is written by no operation after the region. -/
theorem tail_keeps_ref {r : Ref sig .tc} (hr : r ∉ tailResults) :
    ∀ op ∈ (hostOps1 : List (HloOp τ sig (Elt F))), Proc.devRef (τ := τ) .tc r ∉ op.writes := by
  intro op hop hb
  obtain ⟨y, hy, he⟩ := List.mem_map.mp (List.mem_toFinset.mp ((List.forall_iff_forall_mem.mp tail_writes) op hop hb))
  exact hr (Proc.devRef_injective _ he ▸ hy)

/-- The operations after the region touch unscoped TensorCore buffers only: the pipeline's arrays and the buffers
    that bypass it (nothing is prefetched, so these are all the unscoped references). -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)
/-- They allocate nothing. -/
theorem tail_fresh' : ∀ ops ∈ ([hostOps1] : List (List (HloOp τ sig (Elt F)))), ∀ op ∈ ops, op.fresh = ∅ := by
  intro ops hops op hop
  obtain rfl : ops = hostOps1 := by simpa using hops
  exact (List.forall_iff_forall_mem.mp tail_fresh) op hop
/-- And none writes an array of the pipeline: the fourteen arrays are twelve arguments, the combined matrix and the
    region's result, none among the sixty-nine results. -/
theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := by simpa using hops
  exact tail_keeps_ref ((by decide : ∀ w, Pipeline.arrRef spec0 w ∉ tailResults) w) op hop

/-! ## The argument arrays at the region's entry and after the last operation -/

/-- No operation before the region writes `main_arg0`: the region finds it as launched. -/
theorem V_arg0 (c : Dev nD) : V m c main_arg0 = m ((c : Thread nD τ).loc main_arg0) :=
  StableHlo.after_of_writes_sub (r := main_arg0) hostOps0 _ prefix_writes (by decide)
/-- No operation before the region writes `main_arg1`: the region finds it as launched. -/
theorem V_arg1 (c : Dev nD) : V m c main_arg1 = m ((c : Thread nD τ).loc main_arg1) :=
  StableHlo.after_of_writes_sub (r := main_arg1) hostOps0 _ prefix_writes (by decide)
/-- No operation before the region writes `main_arg2`: the region finds it as launched. -/
theorem V_arg2 (c : Dev nD) : V m c main_arg2 = m ((c : Thread nD τ).loc main_arg2) :=
  StableHlo.after_of_writes_sub (r := main_arg2) hostOps0 _ prefix_writes (by decide)
/-- No operation before the region writes `main_arg3`: the region finds it as launched. -/
theorem V_arg3 (c : Dev nD) : V m c main_arg3 = m ((c : Thread nD τ).loc main_arg3) :=
  StableHlo.after_of_writes_sub (r := main_arg3) hostOps0 _ prefix_writes (by decide)
/-- No operation before the region writes `main_arg4`: the region finds it as launched. -/
theorem V_arg4 (c : Dev nD) : V m c main_arg4 = m ((c : Thread nD τ).loc main_arg4) :=
  StableHlo.after_of_writes_sub (r := main_arg4) hostOps0 _ prefix_writes (by decide)
/-- No operation before the region writes `main_arg5`: the region finds it as launched. -/
theorem V_arg5 (c : Dev nD) : V m c main_arg5 = m ((c : Thread nD τ).loc main_arg5) :=
  StableHlo.after_of_writes_sub (r := main_arg5) hostOps0 _ prefix_writes (by decide)
/-- No operation before the region writes `main_arg6`: the region finds it as launched. -/
theorem V_arg6 (c : Dev nD) : V m c main_arg6 = m ((c : Thread nD τ).loc main_arg6) :=
  StableHlo.after_of_writes_sub (r := main_arg6) hostOps0 _ prefix_writes (by decide)
/-- No operation before the region writes `main_arg7`: the region finds it as launched. -/
theorem V_arg7 (c : Dev nD) : V m c main_arg7 = m ((c : Thread nD τ).loc main_arg7) :=
  StableHlo.after_of_writes_sub (r := main_arg7) hostOps0 _ prefix_writes (by decide)
/-- No operation before the region writes `main_arg8`: the region finds it as launched. -/
theorem V_arg8 (c : Dev nD) : V m c main_arg8 = m ((c : Thread nD τ).loc main_arg8) :=
  StableHlo.after_of_writes_sub (r := main_arg8) hostOps0 _ prefix_writes (by decide)
/-- No operation before the region writes `main_arg9`: the region finds it as launched. -/
theorem V_arg9 (c : Dev nD) : V m c main_arg9 = m ((c : Thread nD τ).loc main_arg9) :=
  StableHlo.after_of_writes_sub (r := main_arg9) hostOps0 _ prefix_writes (by decide)
/-- No operation before the region writes `main_arg10`: the region finds it as launched. -/
theorem V_arg10 (c : Dev nD) : V m c main_arg10 = m ((c : Thread nD τ).loc main_arg10) :=
  StableHlo.after_of_writes_sub (r := main_arg10) hostOps0 _ prefix_writes (by decide)
/-- No operation before the region writes `main_arg11`: the region finds it as launched. -/
theorem V_arg11 (c : Dev nD) : V m c main_arg11 = m ((c : Thread nD τ).loc main_arg11) :=
  StableHlo.after_of_writes_sub (r := main_arg11) hostOps0 _ prefix_writes (by decide)
/-- No operation before the region writes `main_arg12`: the region finds it as launched. -/
theorem V_arg12 (c : Dev nD) : V m c main_arg12 = m ((c : Thread nD τ).loc main_arg12) :=
  StableHlo.after_of_writes_sub (r := main_arg12) hostOps0 _ prefix_writes (by decide)
/-- No operation before the region writes `main_arg13`: the region finds it as launched. -/
theorem V_arg13 (c : Dev nD) : V m c main_arg13 = m ((c : Thread nD τ).loc main_arg13) :=
  StableHlo.after_of_writes_sub (r := main_arg13) hostOps0 _ prefix_writes (by decide)
/-- No operation before the region writes `main_arg14`: the region finds it as launched. -/
theorem V_arg14 (c : Dev nD) : V m c main_arg14 = m ((c : Thread nD τ).loc main_arg14) :=
  StableHlo.after_of_writes_sub (r := main_arg14) hostOps0 _ prefix_writes (by decide)
/-- No operation before the region writes `main_arg15`: the region finds it as launched. -/
theorem V_arg15 (c : Dev nD) : V m c main_arg15 = m ((c : Thread nD τ).loc main_arg15) :=
  StableHlo.after_of_writes_sub (r := main_arg15) hostOps0 _ prefix_writes (by decide)

/-- `main_arg4` is no array of the pipeline and no operation after the region writes it: it ends as launched. -/
theorem tail_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _
      (by simpa using tail_keeps_ref (F := F) (r := main_arg4) (by decide)),
    Pipeline.withArrays_of_ne _ c (V0 m c) _ main_arg4 (by exact (by decide : ∀ w, Pipeline.arrRef spec0 w ≠ main_arg4))]
  exact V_arg4 m c
/-- `main_arg5` is no array of the pipeline and no operation after the region writes it: it ends as launched. -/
theorem tail_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _
      (by simpa using tail_keeps_ref (F := F) (r := main_arg5) (by decide)),
    Pipeline.withArrays_of_ne _ c (V0 m c) _ main_arg5 (by exact (by decide : ∀ w, Pipeline.arrRef spec0 w ≠ main_arg5))]
  exact V_arg5 m c
/-- `main_arg14` is no array of the pipeline and no operation after the region writes it: it ends as launched. -/
theorem tail_arg14 (c : Dev nD) :
    Pipeline.afterTail₀ cfgs (dats m) 0 (V0 m) [hostOps1] c main_arg14 = m ((c : Thread nD τ).loc main_arg14) := by
  unfold Pipeline.afterTail₀
  rw [StableHlo.after_of_forall_not_mem (b := Proc.devRef .tc main_arg14) _ _
      (by simpa using tail_keeps_ref (F := F) (r := main_arg14) (by decide)),
    Pipeline.withArrays_of_ne _ c (V0 m c) _ main_arg14 (by exact (by decide : ∀ w, Pipeline.arrRef spec0 w ≠ main_arg14))]
  exact V_arg14 m c
/-- `main_arg15` is no array of the pipeline and no operation after the region writes it: it ends as launched. -/
theorem tail_arg15 (c : Dev nD) :
    Pipeline.afterTail₀ cfgs (dats m) 0 (V0 m) [hostOps1] c main_arg15 = m ((c : Thread nD τ).loc main_arg15) := by
  unfold Pipeline.afterTail₀
  rw [StableHlo.after_of_forall_not_mem (b := Proc.devRef .tc main_arg15) _ _
      (by simpa using tail_keeps_ref (F := F) (r := main_arg15) (by decide)),
    Pipeline.withArrays_of_ne _ c (V0 m c) _ main_arg15 (by exact (by decide : ∀ w, Pipeline.arrRef spec0 w ≠ main_arg15))]
  exact V_arg15 m c

/-! ## The arguments at the end of the run -/

/-- From the library's frame post to the sixteen arguments: twelve are input windows' arrays, which the post's first
    clause holds at what the proof data compute — for an input, its entry contents —, and four bypass the region, which
    the second clause holds at what the sixty-nine operations leave; either way the launch contents. -/
theorem args_of_post (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  obtain ⟨harr, hrest⟩ := h c
  have key : ∀ w : Fin cfg0.W, (cfg0.win w).isOut = false →
      r.2.mem ((spec0 w).arr.view.loc (c.tc : Thread nD τ)) = V m c (Pipeline.arrRef spec0 w) := fun w hw =>
    (harr w).trans (((dats m 0 c).arrAt_in w hw _).trans (A_eq m c w))
  exact ⟨(key 0 rfl).trans (V_arg0 m c),
    (key 1 rfl).trans (V_arg1 m c),
    (key 2 rfl).trans (V_arg2 m c),
    (key 3 rfl).trans (V_arg3 m c),
    (hrest main_arg4 (Pipeline.mem_restRefs_of main_arg4 (by decide) (by decide))).trans (tail_arg4 m c),
    (hrest main_arg5 (Pipeline.mem_restRefs_of main_arg5 (by decide) (by decide))).trans (tail_arg5 m c),
    (key 4 rfl).trans (V_arg6 m c),
    (key 5 rfl).trans (V_arg7 m c),
    (key 6 rfl).trans (V_arg8 m c),
    (key 7 rfl).trans (V_arg9 m c),
    (key 8 rfl).trans (V_arg10 m c),
    (key 9 rfl).trans (V_arg11 m c),
    (key 10 rfl).trans (V_arg12 m c),
    (key 11 rfl).trans (V_arg13 m c),
    (hrest main_arg14 (Pipeline.mem_restRefs_of main_arg14 (by decide) (by decide))).trans (tail_arg14 m c),
    (hrest main_arg15 (Pipeline.mem_restRefs_of main_arg15 (by decide) (by decide))).trans (tail_arg15 m c)⟩

/-! ## The input windows' staging buffers -/

/-- Input window 0's current staging buffer holds its block at every point, fetched there or not (unfetched, the block
    index has not moved); the window is uncut and never idle. -/
theorem staged0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
/-- Input window 1's current staging buffer holds its block at every point, fetched there or not (unfetched, the block
    index has not moved); the window is uncut and never idle. -/
theorem staged1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
/-- Input window 2's current staging buffer holds its block at every point, fetched there or not (unfetched, the block
    index has not moved); the window is uncut and never idle. -/
theorem staged2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
/-- Input window 3's current staging buffer holds its block at every point, fetched there or not (unfetched, the block
    index has not moved); the window is uncut and never idle. -/
theorem staged3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
/-- Input window 4's current staging buffer holds its block at every point, fetched there or not (unfetched, the block
    index has not moved); the window is uncut and never idle. -/
theorem staged4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)
/-- Input window 5's current staging buffer holds its block at every point, fetched there or not (unfetched, the block
    index has not moved); the window is uncut and never idle. -/
theorem staged5 (c : Dev nD) (t : Fin cfg0.N) (d) : (dats m 0 c).before 5 t d = iblk m c 5 t :=
  ((dats m 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)
/-- Input window 6's current staging buffer holds its block at every point, fetched there or not (unfetched, the block
    index has not moved); the window is uncut and never idle. -/
theorem staged6 (c : Dev nD) (t : Fin cfg0.N) (d) : (dats m 0 c).before 6 t d = iblk m c 6 t :=
  ((dats m 0 c).before_in_eq_fetched 6 rfl (fun _ => rfl) (fun _ _ _ => rfl)
      (fun t => by rw [after6]; unfold Dat.blockOf iblk; rw [A_eq]; try rfl) t d).trans
    (by unfold Dat.fetched Dat.blockOf iblk; rw [A_eq]; try rfl)
/-- Input window 7's current staging buffer holds its block at every point, fetched there or not (unfetched, the block
    index has not moved); the window is uncut and never idle. -/
theorem staged7 (c : Dev nD) (t : Fin cfg0.N) (d) : (dats m 0 c).before 7 t d = iblk m c 7 t :=
  ((dats m 0 c).before_in_eq_fetched 7 rfl (fun _ => rfl) (fun _ _ _ => rfl)
      (fun t => by rw [after7]; unfold Dat.blockOf iblk; rw [A_eq]; try rfl) t d).trans
    (by unfold Dat.fetched Dat.blockOf iblk; rw [A_eq]; try rfl)
/-- Input window 8's current staging buffer holds its block at every point, fetched there or not (unfetched, the block
    index has not moved); the window is uncut and never idle. -/
theorem staged8 (c : Dev nD) (t : Fin cfg0.N) (d) : (dats m 0 c).before 8 t d = iblk m c 8 t :=
  ((dats m 0 c).before_in_eq_fetched 8 rfl (fun _ => rfl) (fun _ _ _ => rfl)
      (fun t => by rw [after8]; unfold Dat.blockOf iblk; rw [A_eq]; try rfl) t d).trans
    (by unfold Dat.fetched Dat.blockOf iblk; rw [A_eq]; try rfl)
/-- Input window 9's current staging buffer holds its block at every point, fetched there or not (unfetched, the block
    index has not moved); the window is uncut and never idle. -/
theorem staged9 (c : Dev nD) (t : Fin cfg0.N) (d) : (dats m 0 c).before 9 t d = iblk m c 9 t :=
  ((dats m 0 c).before_in_eq_fetched 9 rfl (fun _ => rfl) (fun _ _ _ => rfl)
      (fun t => by rw [after9]; unfold Dat.blockOf iblk; rw [A_eq]; try rfl) t d).trans
    (by unfold Dat.fetched Dat.blockOf iblk; rw [A_eq]; try rfl)
/-- Input window 10's current staging buffer holds its block at every point, fetched there or not (unfetched, the block
    index has not moved); the window is uncut and never idle. -/
theorem staged10 (c : Dev nD) (t : Fin cfg0.N) (d) : (dats m 0 c).before 10 t d = iblk m c 10 t :=
  ((dats m 0 c).before_in_eq_fetched 10 rfl (fun _ => rfl) (fun _ _ _ => rfl)
      (fun t => by rw [after10]; unfold Dat.blockOf iblk; rw [A_eq]; try rfl) t d).trans
    (by unfold Dat.fetched Dat.blockOf iblk; rw [A_eq]; try rfl)
/-- Input window 11's current staging buffer holds its block at every point, fetched there or not (unfetched, the block
    index has not moved); the window is uncut and never idle. -/
theorem staged11 (c : Dev nD) (t : Fin cfg0.N) (d) : (dats m 0 c).before 11 t d = iblk m c 11 t :=
  ((dats m 0 c).before_in_eq_fetched 11 rfl (fun _ => rfl) (fun _ _ _ => rfl)
      (fun t => by rw [after11]; unfold Dat.blockOf iblk; rw [A_eq]; try rfl) t d).trans
    (by unfold Dat.fetched Dat.blockOf iblk; rw [A_eq]; try rfl)
/-- Input window 12's current staging buffer holds its block at every point, fetched there or not (unfetched, the block
    index has not moved); the window is uncut and never idle. -/
theorem staged12 (c : Dev nD) (t : Fin cfg0.N) (d) : (dats m 0 c).before 12 t d = iblk m c 12 t :=
  ((dats m 0 c).before_in_eq_fetched 12 rfl (fun _ => rfl) (fun _ _ _ => rfl)
      (fun t => by rw [after12]; unfold Dat.blockOf iblk; rw [A_eq]; try rfl) t d).trans
    (by unfold Dat.fetched Dat.blockOf iblk; rw [A_eq]; try rfl)

/-! ## Loads and stores through the rectangle of a whole block -/

/-- The zero offsets of a rank-1 and of a rank-2 block, as the body spells them. -/
theorem zeros1 : (![0] : Fin 1 → ℕ) = fun _ => 0 := by funext a; fin_cases a; rfl
theorem zeros2 : (![0, 0] : Fin 2 → ℕ) = fun _ => 0 := by funext a; fin_cases a <;> rfl

/-- A load through the rectangle of the whole block (zero offsets, the block's own sizes) reads the buffer's contents. -/
theorem whole_load {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- One store through that rectangle covers the block, so the buffer then reads the payload, whatever it held. -/
theorem whole_store {κ : Kind} {sp : Space} {S : Shape} {e : EltTy} (v : View sig κ sp S e) (f : v.ty.Contents (Elt F))
    {off : Fin S.rank → ℕ} (h : off = fun _ => 0) (inb : ∀ a, off a + S.size a ≤ S.size a) (P : S.Idx → Elt F e) :
    v.read (Elt F) (v.writes (Elt F) f [⟨Rect.unit off S.size inb, P⟩]) = P := by
  rw [View.read_writes_eq_canon v f _ (fun y => ⟨_, List.mem_singleton_self _, View.mem_set_unit_zero h inb y⟩),
    View.canon_unit_zero h]

/-! ## The body's triple -/

set_option maxHeartbeats 4000000 in
/-- The body on whole staging memrefs, the thirteen inputs' at read contents `x0 … x12` and the output's at anything:
    it loads each input block whole, computes, and stores once through the rectangle of the whole output block; so it
    runs to the continuation holding the inputs' as they were and the output's at `outBlk x0 … x12` — the one store
    covers the buffer, and what a covering store leaves is its payload. -/
theorem sound_mlp (c : Dev nD) (E : Set ℕ) (i : grid0.Coords)
    (a0 : Memref sig .tc .vmem S2000x768 .f32) (h0 : a0.IsWhole)
    (a1 : Memref sig .tc .vmem S2000x768 .f32) (h1 : a1.IsWhole)
    (a2 : Memref sig .tc .vmem S2000x5 .f32) (h2 : a2.IsWhole)
    (a3 : Memref sig .tc .vmem S2000x1 .f32) (h3 : a3.IsWhole)
    (a4 : Memref sig .tc .vmem S768x8 .f32) (h4 : a4.IsWhole)
    (a5 : Memref sig .tc .vmem S8 .f32) (h5 : a5.IsWhole)
    (a6 : Memref sig .tc .vmem S768x8 .f32) (h6 : a6.IsWhole)
    (a7 : Memref sig .tc .vmem S8 .f32) (h7 : a7.IsWhole)
    (a8 : Memref sig .tc .vmem S5x8 .f32) (h8 : a8.IsWhole)
    (a9 : Memref sig .tc .vmem S8 .f32) (h9 : a9.IsWhole)
    (a10 : Memref sig .tc .vmem S1x8 .f32) (h10 : a10.IsWhole)
    (a11 : Memref sig .tc .vmem S8 .f32) (h11 : a11.IsWhole)
    (a12 : Memref sig .tc .vmem S32x6 .f32) (h12 : a12.IsWhole)
    (a13 : Memref sig .tc .vmem S2000x6 .f32) (h13 : a13.IsWhole)
    (x0 : Vec F S2000x768 .f32) (x1 : Vec F S2000x768 .f32) (x2 : Vec F S2000x5 .f32) (x3 : Vec F S2000x1 .f32) (x4 : Vec F S768x8 .f32) (x5 : Vec F S8 .f32) (x6 : Vec F S768x8 .f32) (x7 : Vec F S8 .f32) (x8 : Vec F S5x8 .f32) (x9 : Vec F S8 .f32) (x10 : Vec F S1x8 .f32) (x11 : Vec F S8 .f32) (x12 : Vec F S32x6 .f32)
    (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12
        ∗ (∃ d, owns (c : Thread nD τ) a13 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12
            ∗ owns (c : Thread nD τ) a13 fullShare (outBlk x0 x1 x2 x3 x4 x5 x6 x7 x8 x9 x10 x11 x12)) -∗ K ⟨⟩))
      ⊢ wp frame (wpE (defs₀ (F := F)) Variants.none c none) E
          (cc0__mlp_kernel i a0 h0 a1 h1 a2 h2 a3 h3 a4 h4 a5 h5 a6 h6 a7 h7 a8 h8 a9 h9 a10 h10 a11 h11 a12 h12 a13 h13) K := by
  simp only [cc0__mlp_kernel_eq_skeleton]; unfold cc0__mlp_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%d13, %f13, -, H13⟩, Hk⟩
  subst e0 e1 e2 e3 e4 e5 e6 e7 e8 e9 e10 e11 e12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  rw [whole_store a13.view f13 zeros2 inb_S2000x6_S2000x6_0_0]
  unfold sound_mlp.sl.r sound_mlp.sl.r_1 sound_mlp.sl.r_2 sound_mlp.sl.r_3 sound_mlp.sl.r_4 outBlk
  rw [whole_load a0.view f0 zeros2 inb_S2000x768_S2000x768_0_0,
    whole_load a1.view f1 zeros2 inb_S2000x768_S2000x768_0_0,
    whole_load a2.view f2 zeros2 inb_S2000x5_S2000x5_0_0,
    whole_load a3.view f3 zeros2 inb_S2000x1_S2000x1_0_0,
    whole_load a4.view f4 zeros2 inb_S768x8_S768x8_0_0,
    whole_load a5.view f5 zeros1 inb_S8_S8_0,
    whole_load a6.view f6 zeros2 inb_S768x8_S768x8_0_0,
    whole_load a7.view f7 zeros1 inb_S8_S8_0,
    whole_load a8.view f8 zeros2 inb_S5x8_S5x8_0_0,
    whole_load a9.view f9 zeros1 inb_S8_S8_0,
    whole_load a10.view f10 zeros2 inb_S1x8_S1x8_0_0,
    whole_load a11.view f11 zeros1 inb_S8_S8_0,
    whole_load a12.view f12 zeros2 inb_S32x6_S32x6_0_0]

/-! ## The body obligation, at a generic point -/

/-- What the body is called with at point `t`: the invariant, the core's debt, and each window's current staging
    buffer at what the pipeline put there, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns: each buffer at what the proof data say the body leaves. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: the thirteen inputs' memrefs hold their blocks, so the body's triple applies; the invariant
    and the core's debt pass through unread. -/
theorem sound_point (c : Dev nD) (t : Fin cfg0.N) :
    pointPre m c t ⊢ wp frame (wpE (defs₀ (F := F)) Variants.none c none) Set.univ (bodyAt0 t) (fun _ => pointPost m c t) := by
  unfold pointPre pointPost bodyAt0
  simp only [staged0, staged1, staged2, staged3, staged4, staged5, staged6, staged7, staged8, staged9, staged10, staged11, staged12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_mlp c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point (its fourteen windows conjoined one by one). -/
theorem body_obligation (c : Dev nD) : BodyObligation (dats (F := F) m 0 c) (defs₀ (F := F)) Variants.none () Set.univ := fun t => by
  rw [bigSep_W0, bigSep_W0]
  exact sound_point m c t

/-! ## The run -/

set_option backward.isDefEq.respectTransparency.types false in
set_option maxHeartbeats 40000000 in
/-- At the compiled mesh, for any values, from any memory with zero counters: every weakly fair execution of @main on the
    TensorCores terminates, and every final state has each array of the pipeline at what the library computes from the
    proof data and every other unscoped buffer as the sixty-nine operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh') (hkeep := tail_keeps)
    (hmain := main_around m Variants.none) (hA := A_eq m) (hΦ := fun _ _ => rfl)

/-- THE FRAME: every weakly fair execution of @main from any memory with zero counters terminates, and all sixteen
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => args_of_post m r h c) (run_main m ρ)

end Cert.KernelIdeal.Hand

end
-- ==== Proof.KBlockBits.lean ====
/-
  What one grid point of the node-feature kernel stores into its block of the 100000 x 6 result: for the 2000 rows of the
  block, the four leaky-rectified affine features (description, tweet, numeric and categorical properties, eight columns
  each) laid side by side as a 2000 x 32 matrix and multiplied by the 32 x 6 matrix of the root and the two relation
  weights. Stated once, generic in the float instance, over the point's input blocks and the resident weights.
-/
import proofs.«123657_j12738873000206_1_alg».proof.Proof.Gen.Kernel.Skeleton

noncomputable section

namespace Cert.Kernel.Hand

open Idealize.ShloMosaic Idealize.SL.Sem Cert.Kernel Cert.Kernel.Gen

variable {F : FTy → Type} [FloatOps F]

/-- The block one grid point writes back, as a function of the point's four row blocks (`x0 … x3`: descriptions, tweets,
    numeric and categorical properties of 2000 nodes) and of the nine resident arrays (four weight matrices with their
    biases, and the 32 x 6 combined matrix `w12`): the third feature's rectifier is spelt through its three parts
    (the affine map, its sign test and its scaled copy), as the body computes it. -/
def outBlk (x0 x1 : Vec F S2000x768 .f32) (x2 : Vec F S2000x5 .f32) (x3 : Vec F S2000x1 .f32)
    (w4 : Vec F S768x8 .f32) (b5 : Vec F S8 .f32) (w6 : Vec F S768x8 .f32) (b7 : Vec F S8 .f32)
    (w8 : Vec F S5x8 .f32) (b9 : Vec F S8 .f32) (w10 : Vec F S1x8 .f32) (b11 : Vec F S8 .f32)
    (w12 : Vec F S32x6 .f32) : Vec F S2000x6 .f32 :=
  k0_pay1 (k0_pay2 x0 w4 b5) (k0_pay3 x1 w6 b7) (k0_pay4 x2 w8 b9) (k0_pay5 x2 w8 b9) (k0_pay6 x2 w8 b9) x3 w10 b11 w12

end Cert.Kernel.Hand

end
-- ==== Proof.KFrameBits.lean ====
/-
  The frame run of the node-feature program: @main slices the relation weights and lays the 32 x 6 combined matrix out
  (five host operations), runs its one region over the fifty row blocks of 2000 nodes, and ends with sixty-nine host
  operations (the two masked segment means over the edges and their sum with the root term). Here: the contents the
  region finds (the valuation after the five operations), each window's block at a grid point, what the body leaves in
  the output window's buffer (the block `outBlk` of the point's thirteen input blocks), the run of the whole of @main to
  the library's frame post, and from it that all sixteen argument arrays end as launched. Generic in the float instance.
-/
import proofs.«123657_j12738873000206_1_alg».proof.Proof.Gen.Kernel.Launch
import proofs.«123657_j12738873000206_1_alg».proof.Proof.Gen.Kernel.Skeleton
import proofs.«123657_j12738873000206_1_alg».proof.Proof.Gen.Kernel.Points
import proofs.«123657_j12738873000206_1_alg».proof.Proof.KBlockBits
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffer contents when the region is entered: the launch contents after the five host operations that
    build the combined 32 x 6 matrix. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data of the pipeline -/

/-- On core `c`: the arrays as the region finds them; after the body at point `t` each of the thirteen input windows'
    buffers still at its block, and the output window's at `outBlk` of those thirteen blocks; the invariant the scoped
    rest and the generator register, untouched; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

/-- The proof data's arrays are the region-entry contents (the definition projected, the valuation never unfolded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
/-- What the body leaves in the output window's buffer at point `t`. -/
theorem after13 (c : Dev nD) (t : Fin cfg0.N) : (dats m 0 c).after 13 t = outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  dsimp only [dats]

/-! ## The host lines around the region -/

theorem prefix_fresh : (hostOps0 : List (HloOp τ sig (Elt F))).Forall fun op => op.fresh = ∅ := by
  simp only [List.Forall]; repeat' constructor
theorem tail_fresh : (hostOps1 : List (HloOp τ sig (Elt F))).Forall fun op => op.fresh = ∅ := by
  simp only [List.Forall]; repeat' constructor

set_option maxHeartbeats 40000000 in
/-- @main is the five operations, the region, and the sixty-nine operations: run from the launch contents it reduces to
    the region, entered at `V`, continued by the sixty-nine. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The buffers the five operations before the region write: the two relation slices, their 32 x 2 reshapes, and the
    combined matrix. -/
abbrev prefixResults : List (Ref sig .tc) := [main_v0, main_v1, main_v2, main_v3, main_v4]

/-- The buffers the sixty-nine operations after the region write, in order: each operation's own result. -/
abbrev tailResults : List (Ref sig .tc) :=
  [main_v6, main_v7, main_v8, main_v9, main_v10, main_v11, main_v12, main_c, main_v13, main_v14, main_v15, main_c_0, main_v16, main_v17, main_c_1, main_v18, main_v19, main_v20, main_v21, main_v22, main_v23, main_v24, main_v25, main_cst, main_v26, main_v27, main_v28, main_cst_2, main_v29, main_v30, main_v31, main_cst_3, main_v32, main_v33, main_v34, main_v35, main_v36, main_v37, main_c_4, main_v38, main_v39, main_v40, main_c_5, main_v41, main_v42, main_c_6, main_v43, main_v44, main_v45, main_v46, main_v47, main_v48, main_v49, main_v50, main_cst_7, main_v51, main_v52, main_v53, main_cst_8, main_v54, main_v55, main_v56, main_cst_9, main_v57, main_v58, main_v59, main_v60, main_v61, main_v62]

/-- Each operation before the region writes its own result buffer, one of the five listed. -/
theorem prefix_writes : (hostOps0 : List (HloOp τ sig (Elt F))).Forall fun op =>
    op.writes ⊆ (prefixResults.map (Proc.devRef (τ := τ) .tc)).toFinset := by
  simp only [hostOps0, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

set_option maxHeartbeats 4000000 in
/-- Each operation after the region writes its own result buffer, one of the sixty-nine listed. -/
theorem tail_writes : (hostOps1 : List (HloOp τ sig (Elt F))).Forall fun op =>
    op.writes ⊆ (tailResults.map (Proc.devRef (τ := τ) .tc)).toFinset := by
  simp only [hostOps1, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

/-- So a reference that is none of the sixty-nine is written by no operation after the region. -/
theorem tail_keeps_ref {r : Ref sig .tc} (hr : r ∉ tailResults) :
    ∀ op ∈ (hostOps1 : List (HloOp τ sig (Elt F))), Proc.devRef (τ := τ) .tc r ∉ op.writes := by
  intro op hop hb
  obtain ⟨y, hy, he⟩ := List.mem_map.mp (List.mem_toFinset.mp ((List.forall_iff_forall_mem.mp tail_writes) op hop hb))
  exact hr (Proc.devRef_injective _ he ▸ hy)

/-- The operations after the region touch unscoped TensorCore buffers only: the pipeline's arrays and the buffers
    that bypass it (nothing is prefetched, so these are all the unscoped references). -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)
/-- They allocate nothing. -/
theorem tail_fresh' : ∀ ops ∈ ([hostOps1] : List (List (HloOp τ sig (Elt F)))), ∀ op ∈ ops, op.fresh = ∅ := by
  intro ops hops op hop
  obtain rfl : ops = hostOps1 := by simpa using hops
  exact (List.forall_iff_forall_mem.mp tail_fresh) op hop
/-- And none writes an array of the pipeline: the fourteen arrays are twelve arguments, the combined matrix and the
    region's result, none among the sixty-nine results. -/
theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := by simpa using hops
  exact tail_keeps_ref ((by decide : ∀ w, Pipeline.arrRef spec0 w ∉ tailResults) w) op hop

/-! ## The argument arrays at the region's entry and after the last operation -/

/-- No operation before the region writes `main_arg0`: the region finds it as launched. -/
theorem V_arg0 (c : Dev nD) : V m c main_arg0 = m ((c : Thread nD τ).loc main_arg0) :=
  StableHlo.after_of_writes_sub (r := main_arg0) hostOps0 _ prefix_writes (by decide)
/-- No operation before the region writes `main_arg1`: the region finds it as launched. -/
theorem V_arg1 (c : Dev nD) : V m c main_arg1 = m ((c : Thread nD τ).loc main_arg1) :=
  StableHlo.after_of_writes_sub (r := main_arg1) hostOps0 _ prefix_writes (by decide)
/-- No operation before the region writes `main_arg2`: the region finds it as launched. -/
theorem V_arg2 (c : Dev nD) : V m c main_arg2 = m ((c : Thread nD τ).loc main_arg2) :=
  StableHlo.after_of_writes_sub (r := main_arg2) hostOps0 _ prefix_writes (by decide)
/-- No operation before the region writes `main_arg3`: the region finds it as launched. -/
theorem V_arg3 (c : Dev nD) : V m c main_arg3 = m ((c : Thread nD τ).loc main_arg3) :=
  StableHlo.after_of_writes_sub (r := main_arg3) hostOps0 _ prefix_writes (by decide)
/-- No operation before the region writes `main_arg4`: the region finds it as launched. -/
theorem V_arg4 (c : Dev nD) : V m c main_arg4 = m ((c : Thread nD τ).loc main_arg4) :=
  StableHlo.after_of_writes_sub (r := main_arg4) hostOps0 _ prefix_writes (by decide)
/-- No operation before the region writes `main_arg5`: the region finds it as launched. -/
theorem V_arg5 (c : Dev nD) : V m c main_arg5 = m ((c : Thread nD τ).loc main_arg5) :=
  StableHlo.after_of_writes_sub (r := main_arg5) hostOps0 _ prefix_writes (by decide)
/-- No operation before the region writes `main_arg6`: the region finds it as launched. -/
theorem V_arg6 (c : Dev nD) : V m c main_arg6 = m ((c : Thread nD τ).loc main_arg6) :=
  StableHlo.after_of_writes_sub (r := main_arg6) hostOps0 _ prefix_writes (by decide)
/-- No operation before the region writes `main_arg7`: the region finds it as launched. -/
theorem V_arg7 (c : Dev nD) : V m c main_arg7 = m ((c : Thread nD τ).loc main_arg7) :=
  StableHlo.after_of_writes_sub (r := main_arg7) hostOps0 _ prefix_writes (by decide)
/-- No operation before the region writes `main_arg8`: the region finds it as launched. -/
theorem V_arg8 (c : Dev nD) : V m c main_arg8 = m ((c : Thread nD τ).loc main_arg8) :=
  StableHlo.after_of_writes_sub (r := main_arg8) hostOps0 _ prefix_writes (by decide)
/-- No operation before the region writes `main_arg9`: the region finds it as launched. -/
theorem V_arg9 (c : Dev nD) : V m c main_arg9 = m ((c : Thread nD τ).loc main_arg9) :=
  StableHlo.after_of_writes_sub (r := main_arg9) hostOps0 _ prefix_writes (by decide)
/-- No operation before the region writes `main_arg10`: the region finds it as launched. -/
theorem V_arg10 (c : Dev nD) : V m c main_arg10 = m ((c : Thread nD τ).loc main_arg10) :=
  StableHlo.after_of_writes_sub (r := main_arg10) hostOps0 _ prefix_writes (by decide)
/-- No operation before the region writes `main_arg11`: the region finds it as launched. -/
theorem V_arg11 (c : Dev nD) : V m c main_arg11 = m ((c : Thread nD τ).loc main_arg11) :=
  StableHlo.after_of_writes_sub (r := main_arg11) hostOps0 _ prefix_writes (by decide)
/-- No operation before the region writes `main_arg12`: the region finds it as launched. -/
theorem V_arg12 (c : Dev nD) : V m c main_arg12 = m ((c : Thread nD τ).loc main_arg12) :=
  StableHlo.after_of_writes_sub (r := main_arg12) hostOps0 _ prefix_writes (by decide)
/-- No operation before the region writes `main_arg13`: the region finds it as launched. -/
theorem V_arg13 (c : Dev nD) : V m c main_arg13 = m ((c : Thread nD τ).loc main_arg13) :=
  StableHlo.after_of_writes_sub (r := main_arg13) hostOps0 _ prefix_writes (by decide)
/-- No operation before the region writes `main_arg14`: the region finds it as launched. -/
theorem V_arg14 (c : Dev nD) : V m c main_arg14 = m ((c : Thread nD τ).loc main_arg14) :=
  StableHlo.after_of_writes_sub (r := main_arg14) hostOps0 _ prefix_writes (by decide)
/-- No operation before the region writes `main_arg15`: the region finds it as launched. -/
theorem V_arg15 (c : Dev nD) : V m c main_arg15 = m ((c : Thread nD τ).loc main_arg15) :=
  StableHlo.after_of_writes_sub (r := main_arg15) hostOps0 _ prefix_writes (by decide)

/-- `main_arg4` is no array of the pipeline and no operation after the region writes it: it ends as launched. -/
theorem tail_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _
      (by simpa using tail_keeps_ref (F := F) (r := main_arg4) (by decide)),
    Pipeline.withArrays_of_ne _ c (V0 m c) _ main_arg4 (by exact (by decide : ∀ w, Pipeline.arrRef spec0 w ≠ main_arg4))]
  exact V_arg4 m c
/-- `main_arg5` is no array of the pipeline and no operation after the region writes it: it ends as launched. -/
theorem tail_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _
      (by simpa using tail_keeps_ref (F := F) (r := main_arg5) (by decide)),
    Pipeline.withArrays_of_ne _ c (V0 m c) _ main_arg5 (by exact (by decide : ∀ w, Pipeline.arrRef spec0 w ≠ main_arg5))]
  exact V_arg5 m c
/-- `main_arg14` is no array of the pipeline and no operation after the region writes it: it ends as launched. -/
theorem tail_arg14 (c : Dev nD) :
    Pipeline.afterTail₀ cfgs (dats m) 0 (V0 m) [hostOps1] c main_arg14 = m ((c : Thread nD τ).loc main_arg14) := by
  unfold Pipeline.afterTail₀
  rw [StableHlo.after_of_forall_not_mem (b := Proc.devRef .tc main_arg14) _ _
      (by simpa using tail_keeps_ref (F := F) (r := main_arg14) (by decide)),
    Pipeline.withArrays_of_ne _ c (V0 m c) _ main_arg14 (by exact (by decide : ∀ w, Pipeline.arrRef spec0 w ≠ main_arg14))]
  exact V_arg14 m c
/-- `main_arg15` is no array of the pipeline and no operation after the region writes it: it ends as launched. -/
theorem tail_arg15 (c : Dev nD) :
    Pipeline.afterTail₀ cfgs (dats m) 0 (V0 m) [hostOps1] c main_arg15 = m ((c : Thread nD τ).loc main_arg15) := by
  unfold Pipeline.afterTail₀
  rw [StableHlo.after_of_forall_not_mem (b := Proc.devRef .tc main_arg15) _ _
      (by simpa using tail_keeps_ref (F := F) (r := main_arg15) (by decide)),
    Pipeline.withArrays_of_ne _ c (V0 m c) _ main_arg15 (by exact (by decide : ∀ w, Pipeline.arrRef spec0 w ≠ main_arg15))]
  exact V_arg15 m c

/-! ## The arguments at the end of the run -/

/-- From the library's frame post to the sixteen arguments: twelve are input windows' arrays, which the post's first
    clause holds at what the proof data compute — for an input, its entry contents —, and four bypass the region, which
    the second clause holds at what the sixty-nine operations leave; either way the launch contents. -/
theorem args_of_post (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  obtain ⟨harr, hrest⟩ := h c
  have key : ∀ w : Fin cfg0.W, (cfg0.win w).isOut = false →
      r.2.mem ((spec0 w).arr.view.loc (c.tc : Thread nD τ)) = V m c (Pipeline.arrRef spec0 w) := fun w hw =>
    (harr w).trans (((dats m 0 c).arrAt_in w hw _).trans (A_eq m c w))
  exact ⟨(key 0 rfl).trans (V_arg0 m c),
    (key 1 rfl).trans (V_arg1 m c),
    (key 2 rfl).trans (V_arg2 m c),
    (key 3 rfl).trans (V_arg3 m c),
    (hrest main_arg4 (Pipeline.mem_restRefs_of main_arg4 (by decide) (by decide))).trans (tail_arg4 m c),
    (hrest main_arg5 (Pipeline.mem_restRefs_of main_arg5 (by decide) (by decide))).trans (tail_arg5 m c),
    (key 4 rfl).trans (V_arg6 m c),
    (key 5 rfl).trans (V_arg7 m c),
    (key 6 rfl).trans (V_arg8 m c),
    (key 7 rfl).trans (V_arg9 m c),
    (key 8 rfl).trans (V_arg10 m c),
    (key 9 rfl).trans (V_arg11 m c),
    (key 10 rfl).trans (V_arg12 m c),
    (key 11 rfl).trans (V_arg13 m c),
    (hrest main_arg14 (Pipeline.mem_restRefs_of main_arg14 (by decide) (by decide))).trans (tail_arg14 m c),
    (hrest main_arg15 (Pipeline.mem_restRefs_of main_arg15 (by decide) (by decide))).trans (tail_arg15 m c)⟩

/-! ## The input windows' staging buffers -/

/-- Input window 0's current staging buffer holds its block at every point, fetched there or not (unfetched, the block
    index has not moved); the window is uncut and never idle. -/
theorem staged0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
/-- Input window 1's current staging buffer holds its block at every point, fetched there or not (unfetched, the block
    index has not moved); the window is uncut and never idle. -/
theorem staged1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
/-- Input window 2's current staging buffer holds its block at every point, fetched there or not (unfetched, the block
    index has not moved); the window is uncut and never idle. -/
theorem staged2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
/-- Input window 3's current staging buffer holds its block at every point, fetched there or not (unfetched, the block
    index has not moved); the window is uncut and never idle. -/
theorem staged3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
/-- Input window 4's current staging buffer holds its block at every point, fetched there or not (unfetched, the block
    index has not moved); the window is uncut and never idle. -/
theorem staged4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)
/-- Input window 5's current staging buffer holds its block at every point, fetched there or not (unfetched, the block
    index has not moved); the window is uncut and never idle. -/
theorem staged5 (c : Dev nD) (t : Fin cfg0.N) (d) : (dats m 0 c).before 5 t d = iblk m c 5 t :=
  ((dats m 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)
/-- Input window 6's current staging buffer holds its block at every point, fetched there or not (unfetched, the block
    index has not moved); the window is uncut and never idle. -/
theorem staged6 (c : Dev nD) (t : Fin cfg0.N) (d) : (dats m 0 c).before 6 t d = iblk m c 6 t :=
  ((dats m 0 c).before_in_eq_fetched 6 rfl (fun _ => rfl) (fun _ _ _ => rfl)
      (fun t => by rw [after6]; unfold Dat.blockOf iblk; rw [A_eq]; try rfl) t d).trans
    (by unfold Dat.fetched Dat.blockOf iblk; rw [A_eq]; try rfl)
/-- Input window 7's current staging buffer holds its block at every point, fetched there or not (unfetched, the block
    index has not moved); the window is uncut and never idle. -/
theorem staged7 (c : Dev nD) (t : Fin cfg0.N) (d) : (dats m 0 c).before 7 t d = iblk m c 7 t :=
  ((dats m 0 c).before_in_eq_fetched 7 rfl (fun _ => rfl) (fun _ _ _ => rfl)
      (fun t => by rw [after7]; unfold Dat.blockOf iblk; rw [A_eq]; try rfl) t d).trans
    (by unfold Dat.fetched Dat.blockOf iblk; rw [A_eq]; try rfl)
/-- Input window 8's current staging buffer holds its block at every point, fetched there or not (unfetched, the block
    index has not moved); the window is uncut and never idle. -/
theorem staged8 (c : Dev nD) (t : Fin cfg0.N) (d) : (dats m 0 c).before 8 t d = iblk m c 8 t :=
  ((dats m 0 c).before_in_eq_fetched 8 rfl (fun _ => rfl) (fun _ _ _ => rfl)
      (fun t => by rw [after8]; unfold Dat.blockOf iblk; rw [A_eq]; try rfl) t d).trans
    (by unfold Dat.fetched Dat.blockOf iblk; rw [A_eq]; try rfl)
/-- Input window 9's current staging buffer holds its block at every point, fetched there or not (unfetched, the block
    index has not moved); the window is uncut and never idle. -/
theorem staged9 (c : Dev nD) (t : Fin cfg0.N) (d) : (dats m 0 c).before 9 t d = iblk m c 9 t :=
  ((dats m 0 c).before_in_eq_fetched 9 rfl (fun _ => rfl) (fun _ _ _ => rfl)
      (fun t => by rw [after9]; unfold Dat.blockOf iblk; rw [A_eq]; try rfl) t d).trans
    (by unfold Dat.fetched Dat.blockOf iblk; rw [A_eq]; try rfl)
/-- Input window 10's current staging buffer holds its block at every point, fetched there or not (unfetched, the block
    index has not moved); the window is uncut and never idle. -/
theorem staged10 (c : Dev nD) (t : Fin cfg0.N) (d) : (dats m 0 c).before 10 t d = iblk m c 10 t :=
  ((dats m 0 c).before_in_eq_fetched 10 rfl (fun _ => rfl) (fun _ _ _ => rfl)
      (fun t => by rw [after10]; unfold Dat.blockOf iblk; rw [A_eq]; try rfl) t d).trans
    (by unfold Dat.fetched Dat.blockOf iblk; rw [A_eq]; try rfl)
/-- Input window 11's current staging buffer holds its block at every point, fetched there or not (unfetched, the block
    index has not moved); the window is uncut and never idle. -/
theorem staged11 (c : Dev nD) (t : Fin cfg0.N) (d) : (dats m 0 c).before 11 t d = iblk m c 11 t :=
  ((dats m 0 c).before_in_eq_fetched 11 rfl (fun _ => rfl) (fun _ _ _ => rfl)
      (fun t => by rw [after11]; unfold Dat.blockOf iblk; rw [A_eq]; try rfl) t d).trans
    (by unfold Dat.fetched Dat.blockOf iblk; rw [A_eq]; try rfl)
/-- Input window 12's current staging buffer holds its block at every point, fetched there or not (unfetched, the block
    index has not moved); the window is uncut and never idle. -/
theorem staged12 (c : Dev nD) (t : Fin cfg0.N) (d) : (dats m 0 c).before 12 t d = iblk m c 12 t :=
  ((dats m 0 c).before_in_eq_fetched 12 rfl (fun _ => rfl) (fun _ _ _ => rfl)
      (fun t => by rw [after12]; unfold Dat.blockOf iblk; rw [A_eq]; try rfl) t d).trans
    (by unfold Dat.fetched Dat.blockOf iblk; rw [A_eq]; try rfl)

/-! ## Loads and stores through the rectangle of a whole block -/

/-- The zero offsets of a rank-1 and of a rank-2 block, as the body spells them. -/
theorem zeros1 : (![0] : Fin 1 → ℕ) = fun _ => 0 := by funext a; fin_cases a; rfl
theorem zeros2 : (![0, 0] : Fin 2 → ℕ) = fun _ => 0 := by funext a; fin_cases a <;> rfl

/-- A load through the rectangle of the whole block (zero offsets, the block's own sizes) reads the buffer's contents. -/
theorem whole_load {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- One store through that rectangle covers the block, so the buffer then reads the payload, whatever it held. -/
theorem whole_store {κ : Kind} {sp : Space} {S : Shape} {e : EltTy} (v : View sig κ sp S e) (f : v.ty.Contents (Elt F))
    {off : Fin S.rank → ℕ} (h : off = fun _ => 0) (inb : ∀ a, off a + S.size a ≤ S.size a) (P : S.Idx → Elt F e) :
    v.read (Elt F) (v.writes (Elt F) f [⟨Rect.unit off S.size inb, P⟩]) = P := by
  rw [View.read_writes_eq_canon v f _ (fun y => ⟨_, List.mem_singleton_self _, View.mem_set_unit_zero h inb y⟩),
    View.canon_unit_zero h]

/-! ## The body's triple -/

set_option maxHeartbeats 4000000 in
/-- The body on whole staging memrefs, the thirteen inputs' at read contents `x0 … x12` and the output's at anything:
    it loads each input block whole, computes, and stores once through the rectangle of the whole output block; so it
    runs to the continuation holding the inputs' as they were and the output's at `outBlk x0 … x12` — the one store
    covers the buffer, and what a covering store leaves is its payload. -/
theorem sound_mlp (c : Dev nD) (E : Set ℕ) (i : grid0.Coords)
    (a0 : Memref sig .tc .vmem S2000x768 .f32) (h0 : a0.IsWhole)
    (a1 : Memref sig .tc .vmem S2000x768 .f32) (h1 : a1.IsWhole)
    (a2 : Memref sig .tc .vmem S2000x5 .f32) (h2 : a2.IsWhole)
    (a3 : Memref sig .tc .vmem S2000x1 .f32) (h3 : a3.IsWhole)
    (a4 : Memref sig .tc .vmem S768x8 .f32) (h4 : a4.IsWhole)
    (a5 : Memref sig .tc .vmem S8 .f32) (h5 : a5.IsWhole)
    (a6 : Memref sig .tc .vmem S768x8 .f32) (h6 : a6.IsWhole)
    (a7 : Memref sig .tc .vmem S8 .f32) (h7 : a7.IsWhole)
    (a8 : Memref sig .tc .vmem S5x8 .f32) (h8 : a8.IsWhole)
    (a9 : Memref sig .tc .vmem S8 .f32) (h9 : a9.IsWhole)
    (a10 : Memref sig .tc .vmem S1x8 .f32) (h10 : a10.IsWhole)
    (a11 : Memref sig .tc .vmem S8 .f32) (h11 : a11.IsWhole)
    (a12 : Memref sig .tc .vmem S32x6 .f32) (h12 : a12.IsWhole)
    (a13 : Memref sig .tc .vmem S2000x6 .f32) (h13 : a13.IsWhole)
    (x0 : Vec F S2000x768 .f32) (x1 : Vec F S2000x768 .f32) (x2 : Vec F S2000x5 .f32) (x3 : Vec F S2000x1 .f32) (x4 : Vec F S768x8 .f32) (x5 : Vec F S8 .f32) (x6 : Vec F S768x8 .f32) (x7 : Vec F S8 .f32) (x8 : Vec F S5x8 .f32) (x9 : Vec F S8 .f32) (x10 : Vec F S1x8 .f32) (x11 : Vec F S8 .f32) (x12 : Vec F S32x6 .f32)
    (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12
        ∗ (∃ d, owns (c : Thread nD τ) a13 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12
            ∗ owns (c : Thread nD τ) a13 fullShare (outBlk x0 x1 x2 x3 x4 x5 x6 x7 x8 x9 x10 x11 x12)) -∗ K ⟨⟩))
      ⊢ wp frame (wpE (defs₀ (F := F)) Variants.none c none) E
          (cc0__mlp_kernel i a0 h0 a1 h1 a2 h2 a3 h3 a4 h4 a5 h5 a6 h6 a7 h7 a8 h8 a9 h9 a10 h10 a11 h11 a12 h12 a13 h13) K := by
  simp only [cc0__mlp_kernel_eq_skeleton]; unfold cc0__mlp_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%d13, %f13, -, H13⟩, Hk⟩
  subst e0 e1 e2 e3 e4 e5 e6 e7 e8 e9 e10 e11 e12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  rw [whole_store a13.view f13 zeros2 inb_S2000x6_S2000x6_0_0]
  unfold sound_mlp.sl.r sound_mlp.sl.r_1 sound_mlp.sl.r_2 sound_mlp.sl.r_3 sound_mlp.sl.r_4 outBlk
  rw [whole_load a0.view f0 zeros2 inb_S2000x768_S2000x768_0_0,
    whole_load a1.view f1 zeros2 inb_S2000x768_S2000x768_0_0,
    whole_load a2.view f2 zeros2 inb_S2000x5_S2000x5_0_0,
    whole_load a3.view f3 zeros2 inb_S2000x1_S2000x1_0_0,
    whole_load a4.view f4 zeros2 inb_S768x8_S768x8_0_0,
    whole_load a5.view f5 zeros1 inb_S8_S8_0,
    whole_load a6.view f6 zeros2 inb_S768x8_S768x8_0_0,
    whole_load a7.view f7 zeros1 inb_S8_S8_0,
    whole_load a8.view f8 zeros2 inb_S5x8_S5x8_0_0,
    whole_load a9.view f9 zeros1 inb_S8_S8_0,
    whole_load a10.view f10 zeros2 inb_S1x8_S1x8_0_0,
    whole_load a11.view f11 zeros1 inb_S8_S8_0,
    whole_load a12.view f12 zeros2 inb_S32x6_S32x6_0_0]

/-! ## The body obligation, at a generic point -/

/-- What the body is called with at point `t`: the invariant, the core's debt, and each window's current staging
    buffer at what the pipeline put there, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns: each buffer at what the proof data say the body leaves. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: the thirteen inputs' memrefs hold their blocks, so the body's triple applies; the invariant
    and the core's debt pass through unread. -/
theorem sound_point (c : Dev nD) (t : Fin cfg0.N) :
    pointPre m c t ⊢ wp frame (wpE (defs₀ (F := F)) Variants.none c none) Set.univ (bodyAt0 t) (fun _ => pointPost m c t) := by
  unfold pointPre pointPost bodyAt0
  simp only [staged0, staged1, staged2, staged3, staged4, staged5, staged6, staged7, staged8, staged9, staged10, staged11, staged12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_mlp c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point (its fourteen windows conjoined one by one). -/
theorem body_obligation (c : Dev nD) : BodyObligation (dats (F := F) m 0 c) (defs₀ (F := F)) Variants.none () Set.univ := fun t => by
  rw [bigSep_W0, bigSep_W0]
  exact sound_point m c t

/-! ## The run -/

set_option backward.isDefEq.respectTransparency.types false in
set_option maxHeartbeats 40000000 in
/-- At the compiled mesh, for any values, from any memory with zero counters: every weakly fair execution of @main on the
    TensorCores terminates, and every final state has each array of the pipeline at what the library computes from the
    proof data and every other unscoped buffer as the sixty-nine operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh') (hkeep := tail_keeps)
    (hmain := main_around m Variants.none) (hA := A_eq m) (hΦ := fun _ _ => rfl)

/-- THE FRAME: every weakly fair execution of @main from any memory with zero counters terminates, and all sixteen
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => args_of_post m r h c) (run_main m ρ)

end Cert.Kernel.Hand

end
-- ==== Proof.KCover.lean ====
/-
  Where the blocks of the node-feature kernel sit. At grid point t (of fifty) the four row-block windows and the output
  window are at block (t, 0): rows 2000 t … 2000 t + 1999, all columns; the nine resident windows are at block 0, the
  whole array. So a row block read at (p, a) is the array at (2000 t + p, a), a resident window's block IS its array, and
  every index (n, j) of the 100000 x 6 result lies in the block of point n / 2000.
-/
import proofs.«123657_j12738873000206_1_alg».proof.Proof.KFrame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- A grid point is one of fifty. -/
theorem pt_lt (t : Fin cfg0.N) : t.val < 50 := lt_of_lt_of_eq t.isLt N_0

/-- The printed index maps over the grid: the row-block windows and the output at block (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_13.index t (0 : Fin 2) = t.val ∧ win0_13.index t (1 : Fin 2) = 0 :=
  (by decide +kernel : ∀ t : Fin grid0.N, _)

/-- The resident windows at block 0 on every axis. -/
theorem idx_res : ∀ t : Fin cfg0.N,
    win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0
    ∧ win0_12.index t (0 : Fin 2) = 0 ∧ win0_12.index t (1 : Fin 2) = 0 :=
  (by decide +kernel : ∀ t : Fin grid0.N, _)

/-- Row 2000 t + p of the arrays of 100000 rows. -/
abbrev rowOf (t : Fin cfg0.N) (p : Fin 2000) : Fin 100000 := ⟨t.val * 2000 + p.val, by have := pt_lt t; have := p.isLt; omega⟩

/-! ## The row blocks -/

theorem rows0_apply (c : Dev nD) (t : Fin cfg0.N) (p : Fin 2000) (a : Fin 768) :
    (iblk m c 0 t : Vec F S2000x768 .f32) (ix2 p a) = (V m c main_arg0 : Vec F S100000x768 .f32) (ix2 (rowOf t p) a) := by
  show V m c main_arg0 (((cfg0.win 0).blk t).view.emb (ix2 p a)) = _
  congr 1; funext d; apply Fin.ext
  obtain ⟨e0, e1, -⟩ := idx_rows t
  match d with
  | ⟨0, _⟩ => show win0_0.index t (0 : Fin 2) * 2000 + 1 * p.val = t.val * 2000 + p.val; omega
  | ⟨1, _⟩ => show win0_0.index t (1 : Fin 2) * 768 + 1 * a.val = a.val; omega

theorem rows1_apply (c : Dev nD) (t : Fin cfg0.N) (p : Fin 2000) (a : Fin 768) :
    (iblk m c 1 t : Vec F S2000x768 .f32) (ix2 p a) = (V m c main_arg1 : Vec F S100000x768 .f32) (ix2 (rowOf t p) a) := by
  show V m c main_arg1 (((cfg0.win 1).blk t).view.emb (ix2 p a)) = _
  congr 1; funext d; apply Fin.ext
  obtain ⟨-, -, e0, e1, -⟩ := idx_rows t
  match d with
  | ⟨0, _⟩ => show win0_1.index t (0 : Fin 2) * 2000 + 1 * p.val = t.val * 2000 + p.val; omega
  | ⟨1, _⟩ => show win0_1.index t (1 : Fin 2) * 768 + 1 * a.val = a.val; omega

theorem rows2_apply (c : Dev nD) (t : Fin cfg0.N) (p : Fin 2000) (a : Fin 5) :
    (iblk m c 2 t : Vec F S2000x5 .f32) (ix2 p a) = (V m c main_arg2 : Vec F S100000x5 .f32) (ix2 (rowOf t p) a) := by
  show V m c main_arg2 (((cfg0.win 2).blk t).view.emb (ix2 p a)) = _
  congr 1; funext d; apply Fin.ext
  obtain ⟨-, -, -, -, e0, e1, -⟩ := idx_rows t
  match d with
  | ⟨0, _⟩ => show win0_2.index t (0 : Fin 2) * 2000 + 1 * p.val = t.val * 2000 + p.val; omega
  | ⟨1, _⟩ => show win0_2.index t (1 : Fin 2) * 5 + 1 * a.val = a.val; omega

theorem rows3_apply (c : Dev nD) (t : Fin cfg0.N) (p : Fin 2000) (a : Fin 1) :
    (iblk m c 3 t : Vec F S2000x1 .f32) (ix2 p a) = (V m c main_arg3 : Vec F S100000x1 .f32) (ix2 (rowOf t p) a) := by
  show V m c main_arg3 (((cfg0.win 3).blk t).view.emb (ix2 p a)) = _
  congr 1; funext d; apply Fin.ext
  obtain ⟨-, -, -, -, -, -, e0, e1, -⟩ := idx_rows t
  match d with
  | ⟨0, _⟩ => show win0_3.index t (0 : Fin 2) * 2000 + 1 * p.val = t.val * 2000 + p.val; omega
  | ⟨1, _⟩ => show win0_3.index t (1 : Fin 2) * 1 + 1 * a.val = a.val; omega

/-- The output block's index (p, j) is index (2000 t + p, j) of the array. -/
theorem emb13 (t : Fin cfg0.N) (p : Fin 2000) (j : Fin 6) :
    (((cfg0.win 13).blk t).view.emb (ix2 p j) : S100000x6.Idx) = ix2 (rowOf t p) j := by
  funext d; apply Fin.ext
  obtain ⟨-, -, -, -, -, -, -, -, e0, e1⟩ := idx_rows t
  match d with
  | ⟨0, _⟩ => show win0_13.index t (0 : Fin 2) * 2000 + 1 * p.val = t.val * 2000 + p.val; omega
  | ⟨1, _⟩ => show win0_13.index t (1 : Fin 2) * 6 + 1 * j.val = j.val; omega

/-! ## The resident windows: the block is the array -/

theorem res4_eq (c : Dev nD) (t : Fin cfg0.N) : (iblk m c 4 t : Vec F S768x8 .f32) = (V m c main_arg6 : Vec F S768x8 .f32) := by
  funext y
  show V m c main_arg6 (((cfg0.win 4).blk t).view.emb y) = _
  congr 1; funext d; apply Fin.ext
  obtain ⟨e0, e1, -⟩ := idx_res t
  match d with
  | ⟨0, _⟩ => show win0_4.index t (0 : Fin 2) * 768 + 1 * (y 0).val = (y 0).val; omega
  | ⟨1, _⟩ => show win0_4.index t (1 : Fin 2) * 8 + 1 * (y 1).val = (y 1).val; omega

theorem res5_eq (c : Dev nD) (t : Fin cfg0.N) : (iblk m c 5 t : Vec F S8 .f32) = (V m c main_arg7 : Vec F S8 .f32) := by
  funext y
  show V m c main_arg7 (((cfg0.win 5).blk t).view.emb y) = _
  congr 1; funext d; apply Fin.ext
  obtain ⟨-, -, e0, -⟩ := idx_res t
  match d with
  | ⟨0, _⟩ => show win0_5.index t (0 : Fin 1) * 8 + 1 * (y 0).val = (y 0).val; omega

theorem res6_eq (c : Dev nD) (t : Fin cfg0.N) : (iblk m c 6 t : Vec F S768x8 .f32) = (V m c main_arg8 : Vec F S768x8 .f32) := by
  funext y
  show V m c main_arg8 (((cfg0.win 6).blk t).view.emb y) = _
  congr 1; funext d; apply Fin.ext
  obtain ⟨-, -, -, e0, e1, -⟩ := idx_res t
  match d with
  | ⟨0, _⟩ => show win0_6.index t (0 : Fin 2) * 768 + 1 * (y 0).val = (y 0).val; omega
  | ⟨1, _⟩ => show win0_6.index t (1 : Fin 2) * 8 + 1 * (y 1).val = (y 1).val; omega

theorem res7_eq (c : Dev nD) (t : Fin cfg0.N) : (iblk m c 7 t : Vec F S8 .f32) = (V m c main_arg9 : Vec F S8 .f32) := by
  funext y
  show V m c main_arg9 (((cfg0.win 7).blk t).view.emb y) = _
  congr 1; funext d; apply Fin.ext
  obtain ⟨-, -, -, -, -, e0, -⟩ := idx_res t
  match d with
  | ⟨0, _⟩ => show win0_7.index t (0 : Fin 1) * 8 + 1 * (y 0).val = (y 0).val; omega

theorem res8_eq (c : Dev nD) (t : Fin cfg0.N) : (iblk m c 8 t : Vec F S5x8 .f32) = (V m c main_arg10 : Vec F S5x8 .f32) := by
  funext y
  show V m c main_arg10 (((cfg0.win 8).blk t).view.emb y) = _
  congr 1; funext d; apply Fin.ext
  obtain ⟨-, -, -, -, -, -, e0, e1, -⟩ := idx_res t
  match d with
  | ⟨0, _⟩ => show win0_8.index t (0 : Fin 2) * 5 + 1 * (y 0).val = (y 0).val; omega
  | ⟨1, _⟩ => show win0_8.index t (1 : Fin 2) * 8 + 1 * (y 1).val = (y 1).val; omega

theorem res9_eq (c : Dev nD) (t : Fin cfg0.N) : (iblk m c 9 t : Vec F S8 .f32) = (V m c main_arg11 : Vec F S8 .f32) := by
  funext y
  show V m c main_arg11 (((cfg0.win 9).blk t).view.emb y) = _
  congr 1; funext d; apply Fin.ext
  obtain ⟨-, -, -, -, -, -, -, -, e0, -⟩ := idx_res t
  match d with
  | ⟨0, _⟩ => show win0_9.index t (0 : Fin 1) * 8 + 1 * (y 0).val = (y 0).val; omega

theorem res10_eq (c : Dev nD) (t : Fin cfg0.N) : (iblk m c 10 t : Vec F S1x8 .f32) = (V m c main_arg12 : Vec F S1x8 .f32) := by
  funext y
  show V m c main_arg12 (((cfg0.win 10).blk t).view.emb y) = _
  congr 1; funext d; apply Fin.ext
  obtain ⟨-, -, -, -, -, -, -, -, -, e0, e1, -⟩ := idx_res t
  match d with
  | ⟨0, _⟩ => show win0_10.index t (0 : Fin 2) * 1 + 1 * (y 0).val = (y 0).val; omega
  | ⟨1, _⟩ => show win0_10.index t (1 : Fin 2) * 8 + 1 * (y 1).val = (y 1).val; omega

theorem res11_eq (c : Dev nD) (t : Fin cfg0.N) : (iblk m c 11 t : Vec F S8 .f32) = (V m c main_arg13 : Vec F S8 .f32) := by
  funext y
  show V m c main_arg13 (((cfg0.win 11).blk t).view.emb y) = _
  congr 1; funext d; apply Fin.ext
  obtain ⟨-, -, -, -, -, -, -, -, -, -, -, e0, -⟩ := idx_res t
  match d with
  | ⟨0, _⟩ => show win0_11.index t (0 : Fin 1) * 8 + 1 * (y 0).val = (y 0).val; omega

theorem res12_eq (c : Dev nD) (t : Fin cfg0.N) : (iblk m c 12 t : Vec F S32x6 .f32) = (V m c main_v4 : Vec F S32x6 .f32) := by
  funext y
  show V m c main_v4 (((cfg0.win 12).blk t).view.emb y) = _
  congr 1; funext d; apply Fin.ext
  obtain ⟨-, -, -, -, -, -, -, -, -, -, -, -, e0, e1⟩ := idx_res t
  match d with
  | ⟨0, _⟩ => show win0_12.index t (0 : Fin 2) * 32 + 1 * (y 0).val = (y 0).val; omega
  | ⟨1, _⟩ => show win0_12.index t (1 : Fin 2) * 6 + 1 * (y 1).val = (y 1).val; omega

/-! ## The output's blocks tile the array -/

/-- An index of the result array is in point `t`'s block iff each coordinate is in the block's range on its axis. -/
theorem mem_blk13 (t : Fin cfg0.N) (i : S100000x6.Idx) :
    i ∈ ((cfg0.win 13).blk t).view.set ↔ ∀ a : Fin 2, win0_13.index t a * S2000x6.size a ≤ (i a).val ∧ (i a).val < win0_13.index t a * S2000x6.size a + S2000x6.size a := by
  show i ∈ ((View.whole main_v5).slice (win0_13.rect t)).set ↔ _
  rw [View.set_slice_whole, Rect.mem_set_unit]
  exact Iff.rfl

/-- Index (n, j) lies in the block of point n / 2000, which is written back. -/
theorem cover13 (i : S100000x6.Idx) : ∃ t : Fin cfg0.N, (cfg0.win 13).flush t = true ∧ i ∈ ((cfg0.win 13).blk t).view.set := by
  have hi0 : (i 0).val < 100000 := (i 0).isLt
  have hi1 : (i 1).val < 6 := (i 1).isLt
  have hN : cfg0.N = 50 := N_0
  let t : Fin cfg0.N := ⟨(i 0).val / 2000, by rw [hN]; omega⟩
  have htv : t.val = (i 0).val / 2000 := rfl
  refine ⟨t, flush0_13 t, ?_⟩
  rw [mem_blk13]
  obtain ⟨-, -, -, -, -, -, -, -, e0, e1⟩ := idx_rows t
  intro a
  match a with
  | ⟨0, _⟩ => show win0_13.index t (0 : Fin 2) * 2000 ≤ (i 0).val ∧ (i 0).val < win0_13.index t (0 : Fin 2) * 2000 + 2000; omega
  | ⟨1, _⟩ => show win0_13.index t (1 : Fin 2) * 6 ≤ (i 1).val ∧ (i 1).val < win0_13.index t (1 : Fin 2) * 6 + 6; omega

end Cert.KernelIdeal.Hand

end
-- ==== Proof.Feat.lean ====
/-
  One node's 32 features, as a function of the node's four rows and of the four weight matrices with their biases:
  four groups of eight columns, each group the leaky rectifier of an affine map of one of the node's rows
  (description, tweet, numeric properties, categorical property). Column `k` lies in group `k / 8` and is that
  group's column `k % 8`: entry `q` of `x W + b`, that is `∑ a, x a * W (a, q) + b q`, passed through
  `z ↦ z` for `0 ≤ z` and `z ↦ c z` otherwise, with `c` the slope the single-precision word 0x3C23D70A denotes.
  `featArr` is the 100000 x 32 array whose row `n` is `featRow` of the rows `n` of the four inputs.
-/
import Idealize.ShloMosaic.PureOps.Ideal
import Idealize.ShloMosaic.PureOps.Ideal.Laws
import Idealize.ShloMosaic.Lib.ValueIdx

noncomputable section

open scoped BigOperators

namespace Cert.Feat

open Idealize.ShloMosaic Idealize.ShloMosaic.ValueIdx

/-- The leaky rectifier on one extended real: `z` itself where `0 ≤ z`, the slope times `z` elsewhere; written as the
    choice on the comparison's bit, which is what a comparison followed by a select is on one entry. -/
def leaky (z : EReal) : EReal :=
  Scalar.select (Ideal.cmp .oge z 0) z (Ideal.ofBits .f32 0x3C23D70A#32 * z)

/-- The same as a plain case distinction on `0 ≤ z`. -/
theorem leaky_eq (z : EReal) : leaky z = if 0 ≤ z then z else Ideal.ofBits .f32 0x3C23D70A#32 * z := by
  unfold leaky Ideal.cmp Scalar.select
  by_cases h : 0 ≤ z
  · simp [h]
  · simp [h]

/-- Column `q` of one group: the rectified entry `q` of `x W + b` for a row `x` of length `n`. -/
def unit {n : Nat} (x : Fin n → EReal) (W : FVec Ideal ⟨2, ![n, 8]⟩ .f32) (b : FVec Ideal ⟨1, ![8]⟩ .f32) (q : Fin 8) : EReal :=
  leaky (∑ a : Fin n, x a * W (ix2 a q) + b (ix1 q))

/-- One node's 32 features: columns 0-7 from the description row, 8-15 from the tweet row, 16-23 from the numeric
    properties, 24-31 from the categorical property. -/
def featRow (d tw : Fin 768 → EReal) (nu : Fin 5 → EReal) (ca : Fin 1 → EReal)
    (Wd : FVec Ideal ⟨2, ![768, 8]⟩ .f32) (bd : FVec Ideal ⟨1, ![8]⟩ .f32)
    (Wt : FVec Ideal ⟨2, ![768, 8]⟩ .f32) (bt : FVec Ideal ⟨1, ![8]⟩ .f32)
    (Wn : FVec Ideal ⟨2, ![5, 8]⟩ .f32) (bn : FVec Ideal ⟨1, ![8]⟩ .f32)
    (Wc : FVec Ideal ⟨2, ![1, 8]⟩ .f32) (bc : FVec Ideal ⟨1, ![8]⟩ .f32) : Fin 32 → EReal := fun k =>
  if h0 : k.val < 8 then unit d Wd bd ⟨k.val, h0⟩
  else if h1 : k.val < 16 then unit tw Wt bt ⟨k.val - 8, by omega⟩
  else if h2 : k.val < 24 then unit nu Wn bn ⟨k.val - 16, by omega⟩
  else unit ca Wc bc ⟨k.val - 24, by omega⟩

/-- In the first group, column `q`. -/
theorem featRow_g0 (d tw : Fin 768 → EReal) (nu : Fin 5 → EReal) (ca : Fin 1 → EReal)
    (Wd : FVec Ideal ⟨2, ![768, 8]⟩ .f32) (bd : FVec Ideal ⟨1, ![8]⟩ .f32)
    (Wt : FVec Ideal ⟨2, ![768, 8]⟩ .f32) (bt : FVec Ideal ⟨1, ![8]⟩ .f32)
    (Wn : FVec Ideal ⟨2, ![5, 8]⟩ .f32) (bn : FVec Ideal ⟨1, ![8]⟩ .f32)
    (Wc : FVec Ideal ⟨2, ![1, 8]⟩ .f32) (bc : FVec Ideal ⟨1, ![8]⟩ .f32) (k : Fin 32) (q : Fin 8) (h : k.val = q.val) :
    featRow d tw nu ca Wd bd Wt bt Wn bn Wc bc k = unit d Wd bd q := by
  have hq := q.isLt
  unfold featRow
  rw [dif_pos (by omega)]
  exact congrArg _ (Fin.ext h)

/-- In the second group, column `q`. -/
theorem featRow_g1 (d tw : Fin 768 → EReal) (nu : Fin 5 → EReal) (ca : Fin 1 → EReal)
    (Wd : FVec Ideal ⟨2, ![768, 8]⟩ .f32) (bd : FVec Ideal ⟨1, ![8]⟩ .f32)
    (Wt : FVec Ideal ⟨2, ![768, 8]⟩ .f32) (bt : FVec Ideal ⟨1, ![8]⟩ .f32)
    (Wn : FVec Ideal ⟨2, ![5, 8]⟩ .f32) (bn : FVec Ideal ⟨1, ![8]⟩ .f32)
    (Wc : FVec Ideal ⟨2, ![1, 8]⟩ .f32) (bc : FVec Ideal ⟨1, ![8]⟩ .f32) (k : Fin 32) (q : Fin 8) (h : k.val = 8 + q.val) :
    featRow d tw nu ca Wd bd Wt bt Wn bn Wc bc k = unit tw Wt bt q := by
  have hq := q.isLt
  unfold featRow
  rw [dif_neg (by omega), dif_pos (by omega)]
  exact congrArg _ (Fin.ext (by show k.val - 8 = q.val; omega))

/-- In the third group, column `q`. -/
theorem featRow_g2 (d tw : Fin 768 → EReal) (nu : Fin 5 → EReal) (ca : Fin 1 → EReal)
    (Wd : FVec Ideal ⟨2, ![768, 8]⟩ .f32) (bd : FVec Ideal ⟨1, ![8]⟩ .f32)
    (Wt : FVec Ideal ⟨2, ![768, 8]⟩ .f32) (bt : FVec Ideal ⟨1, ![8]⟩ .f32)
    (Wn : FVec Ideal ⟨2, ![5, 8]⟩ .f32) (bn : FVec Ideal ⟨1, ![8]⟩ .f32)
    (Wc : FVec Ideal ⟨2, ![1, 8]⟩ .f32) (bc : FVec Ideal ⟨1, ![8]⟩ .f32) (k : Fin 32) (q : Fin 8) (h : k.val = 16 + q.val) :
    featRow d tw nu ca Wd bd Wt bt Wn bn Wc bc k = unit nu Wn bn q := by
  have hq := q.isLt
  unfold featRow
  rw [dif_neg (by omega), dif_neg (by omega), dif_pos (by omega)]
  exact congrArg _ (Fin.ext (by show k.val - 16 = q.val; omega))

/-- In the fourth group, column `q`. -/
theorem featRow_g3 (d tw : Fin 768 → EReal) (nu : Fin 5 → EReal) (ca : Fin 1 → EReal)
    (Wd : FVec Ideal ⟨2, ![768, 8]⟩ .f32) (bd : FVec Ideal ⟨1, ![8]⟩ .f32)
    (Wt : FVec Ideal ⟨2, ![768, 8]⟩ .f32) (bt : FVec Ideal ⟨1, ![8]⟩ .f32)
    (Wn : FVec Ideal ⟨2, ![5, 8]⟩ .f32) (bn : FVec Ideal ⟨1, ![8]⟩ .f32)
    (Wc : FVec Ideal ⟨2, ![1, 8]⟩ .f32) (bc : FVec Ideal ⟨1, ![8]⟩ .f32) (k : Fin 32) (q : Fin 8) (h : k.val = 24 + q.val) :
    featRow d tw nu ca Wd bd Wt bt Wn bn Wc bc k = unit ca Wc bc q := by
  have hq := q.isLt
  unfold featRow
  rw [dif_neg (by omega), dif_neg (by omega), dif_neg (by omega)]
  exact congrArg _ (Fin.ext (by show k.val - 24 = q.val; omega))

/-- The feature matrix of all 100000 nodes: row `n` is `featRow` of the four inputs' rows `n`. -/
def featArr (D T : FVec Ideal ⟨2, ![100000, 768]⟩ .f32) (Nu : FVec Ideal ⟨2, ![100000, 5]⟩ .f32)
    (Ca : FVec Ideal ⟨2, ![100000, 1]⟩ .f32)
    (Wd : FVec Ideal ⟨2, ![768, 8]⟩ .f32) (bd : FVec Ideal ⟨1, ![8]⟩ .f32)
    (Wt : FVec Ideal ⟨2, ![768, 8]⟩ .f32) (bt : FVec Ideal ⟨1, ![8]⟩ .f32)
    (Wn : FVec Ideal ⟨2, ![5, 8]⟩ .f32) (bn : FVec Ideal ⟨1, ![8]⟩ .f32)
    (Wc : FVec Ideal ⟨2, ![1, 8]⟩ .f32) (bc : FVec Ideal ⟨1, ![8]⟩ .f32) : FVec Ideal ⟨2, ![100000, 32]⟩ .f32 := fun i =>
  featRow (fun a => D (ix2 (⟨(i 0).val, idx2_lt0 i⟩ : Fin 100000) a)) (fun a => T (ix2 (⟨(i 0).val, idx2_lt0 i⟩ : Fin 100000) a))
    (fun a => Nu (ix2 (⟨(i 0).val, idx2_lt0 i⟩ : Fin 100000) a)) (fun a => Ca (ix2 (⟨(i 0).val, idx2_lt0 i⟩ : Fin 100000) a))
    Wd bd Wt bt Wn bn Wc bc (⟨(i 1).val, idx2_lt1 i⟩ : Fin 32)

/-- Entry `(n, k)` of the feature matrix is feature `k` of node `n`. -/
theorem featArr_apply (D T : FVec Ideal ⟨2, ![100000, 768]⟩ .f32) (Nu : FVec Ideal ⟨2, ![100000, 5]⟩ .f32)
    (Ca : FVec Ideal ⟨2, ![100000, 1]⟩ .f32)
    (Wd : FVec Ideal ⟨2, ![768, 8]⟩ .f32) (bd : FVec Ideal ⟨1, ![8]⟩ .f32)
    (Wt : FVec Ideal ⟨2, ![768, 8]⟩ .f32) (bt : FVec Ideal ⟨1, ![8]⟩ .f32)
    (Wn : FVec Ideal ⟨2, ![5, 8]⟩ .f32) (bn : FVec Ideal ⟨1, ![8]⟩ .f32)
    (Wc : FVec Ideal ⟨2, ![1, 8]⟩ .f32) (bc : FVec Ideal ⟨1, ![8]⟩ .f32) (n : Fin 100000) (k : Fin 32) :
    featArr D T Nu Ca Wd bd Wt bt Wn bn Wc bc (ix2 n k)
      = featRow (fun a => D (ix2 n a)) (fun a => T (ix2 n a)) (fun a => Nu (ix2 n a)) (fun a => Ca (ix2 n a))
          Wd bd Wt bt Wn bn Wc bc k := rfl

end Cert.Feat

end
-- ==== Proof.Entry.lean ====
/-
  Three operations read at one entry, for matrices of any number of rows.

  A plain matrix product: for the dimension numbers of an `M x K` by `K x N` product (contract the left operand's
  second axis with the right operand's first, no batch axis) the contraction index is one coordinate `a < K`, the left
  operand is read at `(p, a)` and the right one at `(a, q)`, so the contraction's sum at the result entry `(p, q)` is
  `∑ a, x (p, a) * w (a, q)`. Stated once for the standard record of these dimension numbers at arbitrary extents,
  then for any record equal to it, for the two operations that are this sum on the extended reals: a product
  accumulated into a zero matrix, and the host's product.

  The leaky rectifier spelt as a comparison with zero, a product with the slope and a choice between the two: at one
  entry it is `Cert.Feat.leaky` of the entry.

  Four matrices of eight columns laid side by side: column `8 g + q` of the result is column `q` of piece `g`.
-/
import proofs.«123657_j12738873000206_1_alg».proof.Proof.Feat
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Entry

open Idealize.ShloMosaic Idealize.ShloMosaic.ValueIdx

/-! ## A plain matrix product -/

/-- The left operand's index at result entry `(p, q)` and contraction coordinate `a` is `(p, a)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact Eq.trans rfl hk

/-- The right operand's index there is `(a, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact Eq.trans rfl hk
  | ⟨1, _⟩ => rfl

/-- The contraction's sum at entry `(p, q)`, re-indexed by the one contracted coordinate. -/
theorem plain_sum (M K N : Nat) (x : (⟨2, ![M, K]⟩ : Shape).Idx → EReal) (w : (⟨2, ![K, N]⟩ : Shape).Idx → EReal)
    (p : Fin M) (q : Fin N) :
    ∑ k : (DotDims.plain M K N).contr.Idx, x ((DotDims.plain M K N).lhsIdx (ix2 p q) k) * w ((DotDims.plain M K N).rhsIdx (ix2 p q) k)
      = ∑ a : Fin K, x (ix2 p a) * w (ix2 a q) := by
  rw [← Equiv.sum_comp (contrEquiv1 (DotDims.plain M K N) K rfl rfl).symm]
  refine Finset.sum_congr rfl fun k _ => ?_
  rw [plain_lhsIdx, plain_rhsIdx]

/-- A product accumulated into the zero matrix, read at `(p, q)`. -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (p : Fin M) (q : Fin N) :
    matmul d prec x w (constant (F := Ideal) ⟨2, ![M, N]⟩ .f32 0x00000000#32) (ix2 p q) = ∑ a : Fin K, x (ix2 p a) * w (ix2 a q) := by
  subst hd
  refine (Ideal.matmul_constant_zero_apply (DotDims.plain M K N) prec x w (ix2 p q)).trans ?_
  exact plain_sum M K N x w p q

/-- The host's product, read at `(p, q)`. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (p : Fin M) (q : Fin N) :
    Host.dotGeneral (F := Ideal) d prec x w (ix2 p q) = ∑ a : Fin K, x (ix2 p a) * w (ix2 a q) := by
  subst hd
  refine (Ideal.dotGeneral_apply (DotDims.plain M K N) prec _ x w (ix2 p q)).trans ?_
  exact plain_sum M K N x w p q

/-! ## The leaky rectifier, entry by entry -/

/-- Comparison with the zero word, product with the slope word, and the choice between the entry and the product:
    at an index this is the rectifier of the entry there. -/
theorem leaky_at {s : Shape} (z zero slope : FVec Ideal s .f32) (i : s.Idx)
    (hz : zero i = Ideal.ofBits .f32 0x00000000#32) (hs : slope i = Ideal.ofBits .f32 0x3C23D70A#32) :
    select (cmpf .oge z zero) z (mulf slope z) i = Cert.Feat.leaky (z i) := by
  show Scalar.select (Ideal.cmp .oge (z i) (zero i)) (z i) (slope i * z i) = _
  rw [hz, hs, Ideal.ofBits_zero_f32]
  rfl

/-! ## Four eight-column matrices side by side -/

section Cat4
variable {α : Type} {R : Nat}

/-- Column `q` of the first piece is column `q` of the whole. -/
theorem cat4_g0 (y0 y1 y2 y3 : (⟨2, ![R, 8]⟩ : Shape).Idx → α)
    (h : Shape.Concatenates [⟨2, ![R, 8]⟩, ⟨2, ![R, 8]⟩, ⟨2, ![R, 8]⟩, ⟨2, ![R, 8]⟩] ⟨2, ![R, 32]⟩ 1)
    (p : Fin R) (k : Fin 32) (q : Fin 8) (hk : k.val = q.val) :
    concatenate ⟨2, ![R, 32]⟩ 1 [⟨⟨2, ![R, 8]⟩, y0⟩, ⟨⟨2, ![R, 8]⟩, y1⟩, ⟨⟨2, ![R, 8]⟩, y2⟩, ⟨⟨2, ![R, 8]⟩, y3⟩] h (ix2 p k)
      = y0 (ix2 p q) := by
  refine concatenate_apply_piece (t := ⟨2, ![R, 32]⟩) (1 : Fin 2)
    [⟨⟨2, ![R, 8]⟩, y0⟩, ⟨⟨2, ![R, 8]⟩, y1⟩, ⟨⟨2, ![R, 8]⟩, y2⟩, ⟨⟨2, ![R, 8]⟩, y3⟩] h (ix2 p k) 0 (by show 0 < 4; omega) ⟨2, ![R, 8]⟩ y0 rfl rfl 0 rfl (ix2 p q) ?_ ?_
  · intro b hb
    match b with
    | ⟨0, _⟩ => rfl
    | ⟨1, _⟩ => exact absurd rfl hb
  · show 0 + q.val = k.val
    omega

/-- Column `q` of the second piece is column `8 + q` of the whole. -/
theorem cat4_g1 (y0 y1 y2 y3 : (⟨2, ![R, 8]⟩ : Shape).Idx → α)
    (h : Shape.Concatenates [⟨2, ![R, 8]⟩, ⟨2, ![R, 8]⟩, ⟨2, ![R, 8]⟩, ⟨2, ![R, 8]⟩] ⟨2, ![R, 32]⟩ 1)
    (p : Fin R) (k : Fin 32) (q : Fin 8) (hk : k.val = 8 + q.val) :
    concatenate ⟨2, ![R, 32]⟩ 1 [⟨⟨2, ![R, 8]⟩, y0⟩, ⟨⟨2, ![R, 8]⟩, y1⟩, ⟨⟨2, ![R, 8]⟩, y2⟩, ⟨⟨2, ![R, 8]⟩, y3⟩] h (ix2 p k)
      = y1 (ix2 p q) := by
  refine concatenate_apply_piece (t := ⟨2, ![R, 32]⟩) (1 : Fin 2)
    [⟨⟨2, ![R, 8]⟩, y0⟩, ⟨⟨2, ![R, 8]⟩, y1⟩, ⟨⟨2, ![R, 8]⟩, y2⟩, ⟨⟨2, ![R, 8]⟩, y3⟩] h (ix2 p k) 1 (by show 1 < 4; omega) ⟨2, ![R, 8]⟩ y1 rfl rfl 8 rfl (ix2 p q) ?_ ?_
  · intro b hb
    match b with
    | ⟨0, _⟩ => rfl
    | ⟨1, _⟩ => exact absurd rfl hb
  · show 8 + q.val = k.val
    omega

/-- Column `q` of the third piece is column `16 + q` of the whole. -/
theorem cat4_g2 (y0 y1 y2 y3 : (⟨2, ![R, 8]⟩ : Shape).Idx → α)
    (h : Shape.Concatenates [⟨2, ![R, 8]⟩, ⟨2, ![R, 8]⟩, ⟨2, ![R, 8]⟩, ⟨2, ![R, 8]⟩] ⟨2, ![R, 32]⟩ 1)
    (p : Fin R) (k : Fin 32) (q : Fin 8) (hk : k.val = 16 + q.val) :
    concatenate ⟨2, ![R, 32]⟩ 1 [⟨⟨2, ![R, 8]⟩, y0⟩, ⟨⟨2, ![R, 8]⟩, y1⟩, ⟨⟨2, ![R, 8]⟩, y2⟩, ⟨⟨2, ![R, 8]⟩, y3⟩] h (ix2 p k)
      = y2 (ix2 p q) := by
  refine concatenate_apply_piece (t := ⟨2, ![R, 32]⟩) (1 : Fin 2)
    [⟨⟨2, ![R, 8]⟩, y0⟩, ⟨⟨2, ![R, 8]⟩, y1⟩, ⟨⟨2, ![R, 8]⟩, y2⟩, ⟨⟨2, ![R, 8]⟩, y3⟩] h (ix2 p k) 2 (by show 2 < 4; omega) ⟨2, ![R, 8]⟩ y2 rfl rfl 16 rfl (ix2 p q) ?_ ?_
  · intro b hb
    match b with
    | ⟨0, _⟩ => rfl
    | ⟨1, _⟩ => exact absurd rfl hb
  · show 16 + q.val = k.val
    omega

/-- Column `q` of the fourth piece is column `24 + q` of the whole. -/
theorem cat4_g3 (y0 y1 y2 y3 : (⟨2, ![R, 8]⟩ : Shape).Idx → α)
    (h : Shape.Concatenates [⟨2, ![R, 8]⟩, ⟨2, ![R, 8]⟩, ⟨2, ![R, 8]⟩, ⟨2, ![R, 8]⟩] ⟨2, ![R, 32]⟩ 1)
    (p : Fin R) (k : Fin 32) (q : Fin 8) (hk : k.val = 24 + q.val) :
    concatenate ⟨2, ![R, 32]⟩ 1 [⟨⟨2, ![R, 8]⟩, y0⟩, ⟨⟨2, ![R, 8]⟩, y1⟩, ⟨⟨2, ![R, 8]⟩, y2⟩, ⟨⟨2, ![R, 8]⟩, y3⟩] h (ix2 p k)
      = y3 (ix2 p q) := by
  refine concatenate_apply_piece (t := ⟨2, ![R, 32]⟩) (1 : Fin 2)
    [⟨⟨2, ![R, 8]⟩, y0⟩, ⟨⟨2, ![R, 8]⟩, y1⟩, ⟨⟨2, ![R, 8]⟩, y2⟩, ⟨⟨2, ![R, 8]⟩, y3⟩] h (ix2 p k) 3 (by show 3 < 4; omega) ⟨2, ![R, 8]⟩ y3 rfl rfl 24 rfl (ix2 p q) ?_ ?_
  · intro b hb
    match b with
    | ⟨0, _⟩ => rfl
    | ⟨1, _⟩ => exact absurd rfl hb
  · show 24 + q.val = k.val
    omega

end Cat4

end Cert.Entry

end
-- ==== Proof.KPayload.lean ====
/-
  What one grid point stores, entry by entry. The block a point writes back is the 2000 x 32 matrix of its 2000 nodes'
  features multiplied by the 32 x 6 matrix of the root and relation weights, so entry `(p, j)` is
  `∑ k, feature k of node p * w (k, j)`. Each of the four groups of eight feature columns is the rectified entry of a
  product accumulated into zero plus a bias row repeated down the 2000 rows; the four groups are laid side by side, and
  column `k` of the result is column `k % 8` of group `k / 8`.
-/
import proofs.«123657_j12738873000206_1_alg».proof.Proof.KBlock
import proofs.«123657_j12738873000206_1_alg».proof.Proof.Feat
import proofs.«123657_j12738873000206_1_alg».proof.Proof.Entry
import Idealize.ShloMosaic.Lib.ValueLayout
import Idealize.ShloMosaic.Lib.Pipeline.Value

noncomputable section

open scoped BigOperators

namespace Cert.KernelIdeal.Hand

open Idealize.ShloMosaic Idealize.ShloMosaic.ValueIdx Cert.KernelIdeal Cert.KernelIdeal.Gen

/-- A bias vector turned into a one-row matrix and repeated down the 2000 rows reads, at `(p, q)`, the bias's entry `q`. -/
theorem bias_apply (b : FVec Ideal S8 .f32) (h1 : S8.ShapeCasts S1x8) (h2 : S1x8.Broadcasts S2000x8) (p : Fin 2000) (q : Fin 8) :
    broadcastTo S2000x8 (shapeCast S1x8 b h1) h2 (ix2 p q) = b (ix1 q) :=
  (broadcastTo_1b_ab_apply (shapeCast S1x8 b h1) h2 p q).trans (shapeCast_a_1a_apply b h1 0 q)

/-- One group of eight feature columns at `(p, q)`: the product of the block `x` with `w` accumulated into zero, plus
    the bias row, rectified, is `Cert.Feat.unit` of row `p` of `x` at column `q`. -/
theorem group_apply {K : Nat} (d : DotDims ⟨2, ![2000, K]⟩ ⟨2, ![K, 8]⟩ ⟨2, ![2000, 8]⟩) (hd : d = DotDims.plain 2000 K 8)
    (x : FVec Ideal ⟨2, ![2000, K]⟩ .f32) (w : FVec Ideal ⟨2, ![K, 8]⟩ .f32) (b : FVec Ideal S8 .f32)
    (h1 : S8.ShapeCasts S1x8) (h2 : S1x8.Broadcasts S2000x8) (p : Fin 2000) (q : Fin 8) :
    select
        (cmpf .oge (addf (matmul d none x w (constant (F := Ideal) S2000x8 .f32 0x00000000#32)) (broadcastTo S2000x8 (shapeCast S1x8 b h1) h2))
          (broadcast S2000x8 (Scalar.ofBits (F := Ideal) .f32 0x00000000#32)))
        (addf (matmul d none x w (constant (F := Ideal) S2000x8 .f32 0x00000000#32)) (broadcastTo S2000x8 (shapeCast S1x8 b h1) h2))
        (mulf (broadcast S2000x8 (Scalar.ofBits (F := Ideal) .f32 0x3C23D70A#32))
          (addf (matmul d none x w (constant (F := Ideal) S2000x8 .f32 0x00000000#32)) (broadcastTo S2000x8 (shapeCast S1x8 b h1) h2)))
        (ix2 p q)
      = Cert.Feat.unit (fun a => x (ix2 p a)) w b q := by
  refine (Cert.Entry.leaky_at _ _ _ (ix2 p q) rfl rfl).trans ?_
  unfold Cert.Feat.unit
  refine congrArg Cert.Feat.leaky ?_
  show matmul d none x w (constant (F := Ideal) S2000x8 .f32 0x00000000#32) (ix2 p q)
      + broadcastTo S2000x8 (shapeCast S1x8 b h1) h2 (ix2 p q) = _
  rw [Cert.Entry.matmul_zero_apply d hd none x w p q, bias_apply b h1 h2 p q]

/-- The description group of the block. -/
theorem pay2_apply (x : Vec Ideal S2000x768 .f32) (w : Vec Ideal S768x8 .f32) (b : Vec Ideal S8 .f32) (p : Fin 2000) (q : Fin 8) :
    k0_pay2 (F := Ideal) x w b (ix2 p q) = Cert.Feat.unit (fun a => x (ix2 p a)) w b q := by
  unfold k0_pay2
  exact group_apply dot_S2000x768_S768x8_S2000x8_1_0_0_1_n_n rfl x w b _ _ p q

/-- The tweet group of the block. -/
theorem pay3_apply (x : Vec Ideal S2000x768 .f32) (w : Vec Ideal S768x8 .f32) (b : Vec Ideal S8 .f32) (p : Fin 2000) (q : Fin 8) :
    k0_pay3 (F := Ideal) x w b (ix2 p q) = Cert.Feat.unit (fun a => x (ix2 p a)) w b q := by
  unfold k0_pay3
  exact group_apply dot_S2000x768_S768x8_S2000x8_1_0_0_1_n_n rfl x w b _ _ p q

/-- The numeric-property group of the block, which the body holds as its three parts: the affine map, its sign test
    and its scaled copy. -/
theorem pay456_apply (x : Vec Ideal S2000x5 .f32) (w : Vec Ideal S5x8 .f32) (b : Vec Ideal S8 .f32) (p : Fin 2000) (q : Fin 8) :
    select (k0_pay5 (F := Ideal) x w b) (k0_pay4 (F := Ideal) x w b) (k0_pay6 (F := Ideal) x w b) (ix2 p q)
      = Cert.Feat.unit (fun a => x (ix2 p a)) w b q := by
  unfold k0_pay5 k0_pay6 k0_pay4
  exact group_apply dot_S2000x5_S5x8_S2000x8_1_0_0_1_n_n rfl x w b _ _ p q

/-- THE BLOCK AT AN ENTRY: the node's 32 features against column `j` of the combined weights. -/
theorem outBlk_apply (x0 x1 : Vec Ideal S2000x768 .f32) (x2 : Vec Ideal S2000x5 .f32) (x3 : Vec Ideal S2000x1 .f32)
    (w4 : Vec Ideal S768x8 .f32) (b5 : Vec Ideal S8 .f32) (w6 : Vec Ideal S768x8 .f32) (b7 : Vec Ideal S8 .f32)
    (w8 : Vec Ideal S5x8 .f32) (b9 : Vec Ideal S8 .f32) (w10 : Vec Ideal S1x8 .f32) (b11 : Vec Ideal S8 .f32)
    (w12 : Vec Ideal S32x6 .f32) (p : Fin 2000) (j : Fin 6) :
    outBlk (F := Ideal) x0 x1 x2 x3 w4 b5 w6 b7 w8 b9 w10 b11 w12 (ix2 p j)
      = ∑ k : Fin 32, Cert.Feat.featRow (fun a => x0 (ix2 p a)) (fun a => x1 (ix2 p a)) (fun a => x2 (ix2 p a))
          (fun a => x3 (ix2 p a)) w4 b5 w6 b7 w8 b9 w10 b11 k * w12 (ix2 k j) := by
  unfold outBlk k0_pay1
  refine (Cert.Entry.matmul_zero_apply dot_S2000x32_S32x6_S2000x6_1_0_0_1_n_n rfl none _ _ p j).trans ?_
  refine Finset.sum_congr rfl fun k _ => ?_
  rw [shapeCast_self]
  refine congrArg (· * w12 (ix2 k j)) ?_
  have hk := k.isLt
  by_cases h0 : k.val < 8
  · refine (Cert.Entry.cat4_g0 _ _ _ _ _ p k ⟨k.val, h0⟩ rfl).trans ?_
    refine (pay2_apply x0 w4 b5 p ⟨k.val, h0⟩).trans ?_
    exact (Cert.Feat.featRow_g0 _ _ _ _ w4 b5 w6 b7 w8 b9 w10 b11 k ⟨k.val, h0⟩ rfl).symm
  · by_cases h1 : k.val < 16
    · refine (Cert.Entry.cat4_g1 _ _ _ _ _ p k ⟨k.val - 8, by omega⟩ (by show k.val = 8 + (k.val - 8); omega)).trans ?_
      refine (pay3_apply x1 w6 b7 p ⟨k.val - 8, by omega⟩).trans ?_
      exact (Cert.Feat.featRow_g1 _ _ _ _ w4 b5 w6 b7 w8 b9 w10 b11 k ⟨k.val - 8, by omega⟩ (by show k.val = 8 + (k.val - 8); omega)).symm
    · by_cases h2 : k.val < 24
      · refine (Cert.Entry.cat4_g2 _ _ _ _ _ p k ⟨k.val - 16, by omega⟩ (by show k.val = 16 + (k.val - 16); omega)).trans ?_
        refine (pay456_apply x2 w8 b9 p ⟨k.val - 16, by omega⟩).trans ?_
        exact (Cert.Feat.featRow_g2 _ _ _ _ w4 b5 w6 b7 w8 b9 w10 b11 k ⟨k.val - 16, by omega⟩ (by show k.val = 16 + (k.val - 16); omega)).symm
      · refine (Cert.Entry.cat4_g3 _ _ _ _ _ p k ⟨k.val - 24, by omega⟩ (by show k.val = 24 + (k.val - 24); omega)).trans ?_
        refine (group_apply dot_S2000x1_S1x8_S2000x8_1_0_0_1_n_n rfl x3 w10 b11 _ _ p ⟨k.val - 24, by omega⟩).trans ?_
        exact (Cert.Feat.featRow_g3 _ _ _ _ w4 b5 w6 b7 w8 b9 w10 b11 k ⟨k.val - 24, by omega⟩ (by show k.val = 24 + (k.val - 24); omega)).symm

end Cert.KernelIdeal.Hand

end
-- ==== Proof.Agg.lean ====
import Idealize.ShloMosaic.PureOps
import Idealize.ShloMosaic.PureOps.Ideal
import Idealize.ShloMosaic.Lib.ValueIdx

/-! # The aggregation tail of the two programs, as plain functions of arrays

Both programs end in the same relational mean aggregation over the edge list: per relation `r`, the rows of a node
array are gathered at the edges' sources, masked by "the edge has type `r`", summed into the edges' destinations and
divided by the number of such edges arriving there (at least one). They differ in WHERE the linear maps are applied:
one program multiplies every node row by the three 32×2 matrices at once (a 32×6 matrix) and gathers the 2-column
products; the other gathers the 32-column rows and multiplies each gathered row. This module names both compositions
over literal shapes; the equality of the two is proved elsewhere. -/

noncomputable section

open scoped BigOperators

namespace Cert.Agg

open Idealize.ShloMosaic Idealize.ShloMosaic.ValueIdx

/-! ## Shapes -/

abbrev S0 : Shape := ⟨0, ![]⟩
abbrev SN : Shape := ⟨1, ![100000]⟩
abbrev SN1 : Shape := ⟨2, ![100000, 1]⟩
abbrev SN2 : Shape := ⟨2, ![100000, 2]⟩
abbrev SN6 : Shape := ⟨2, ![100000, 6]⟩
abbrev SN32 : Shape := ⟨2, ![100000, 32]⟩
abbrev SE : Shape := ⟨1, ![3200000]⟩
abbrev SE1 : Shape := ⟨2, ![3200000, 1]⟩
abbrev SE2 : Shape := ⟨2, ![3200000, 2]⟩
abbrev SE32 : Shape := ⟨2, ![3200000, 32]⟩
abbrev S1E : Shape := ⟨2, ![1, 3200000]⟩
abbrev S2E : Shape := ⟨2, ![2, 3200000]⟩
abbrev SW : Shape := ⟨2, ![32, 2]⟩
abbrev SW1 : Shape := ⟨3, ![1, 32, 2]⟩
abbrev SW3 : Shape := ⟨3, ![2, 32, 2]⟩
abbrev SWc : Shape := ⟨2, ![32, 6]⟩

/-! ## The shape facts the operations ask for, each decided once -/

theorem sl_N6_0 : SN6.Slices ![0, 0] SN2 := by decide
theorem sl_N6_2 : SN6.Slices ![0, 2] SN2 := by decide
theorem sl_N6_4 : SN6.Slices ![0, 4] SN2 := by decide
theorem sl_2E_0 : S2E.Slices ![0, 0] S1E := by decide
theorem sl_2E_1 : S2E.Slices ![1, 0] S1E := by decide
theorem sc_1E : S1E.ShapeCasts SE := by decide
theorem sl_W3_0 : SW3.Slices ![0, 0, 0] SW1 := by decide
theorem sl_W3_1 : SW3.Slices ![1, 0, 0] SW1 := by decide
theorem sc_W1 : SW1.ShapeCasts SW := by decide
theorem cat_W : Shape.Concatenates [SW, SW, SW] SWc 1 := by decide
theorem bc_0_E : S0.BroadcastsInDim SE (![] : Fin 0 → Fin SE.rank) := by decide
theorem bc_E_E1 : SE.BroadcastsInDim SE1 (![0] : Fin 1 → Fin SE1.rank) := by decide
theorem bc_E1_E2 : SE1.BroadcastsInDim SE2 (![0, 1] : Fin 2 → Fin SE2.rank) := by decide
theorem bc_0_N2 : S0.BroadcastsInDim SN2 (![] : Fin 0 → Fin SN2.rank) := by decide
theorem bc_0_N : S0.BroadcastsInDim SN (![] : Fin 0 → Fin SN.rank) := by decide
theorem bc_N_N1 : SN.BroadcastsInDim SN1 (![0] : Fin 1 → Fin SN1.rank) := by decide
theorem bc_N1_N2 : SN1.BroadcastsInDim SN2 (![0, 1] : Fin 2 → Fin SN2.rank) := by decide
theorem gather2_wf : GatherDims.WF SN2 SE1 SE2 [1] [0] [] [0] [] 1 ![1, 2] := by decide
theorem gather32_wf : GatherDims.WF SN32 SE1 SE32 [1] [0] [] [0] [] 1 ![1, 32] := by decide
theorem scatter2_wf : ScatterDims.WF SN2 SE1 SE2 [1] [0] [0] 1 := by decide
theorem scatter1_wf : ScatterDims.WF SN SE1 SE [] [0] [0] 1 := by decide

/-! ## The dimension numbers -/

/-- A row gather: result row `e` is the operand's row at start index `e`, all `C` columns of it. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

abbrev gather2 : GatherDims SN2 SE1 SE2 := rowDims 100000 3200000 2 gather2_wf
abbrev gather32 : GatherDims SN32 SE1 SE32 := rowDims 100000 3200000 32 gather32_wf

/-- Rows of updates added into the rows their indices name. -/
abbrev scatter2 : ScatterDims SN2 SE1 SE2 where
  updateWindowDims := [1]
  insertedWindowDims := [0]
  scatterDimsToOperandDims := [0]
  indexVectorDim := 1
  wf := scatter2_wf

/-- Scalars added into the entries their indices name. -/
abbrev scatter1 : ScatterDims SN SE1 SE where
  updateWindowDims := []
  insertedWindowDims := [0]
  scatterDimsToOperandDims := [0]
  indexVectorDim := 1
  wf := scatter1_wf

/-! ## The node rows times the 32×6 matrix -/

/-- `(n, j) ↦ ∑ k, X (n, k) * Wc (k, j)`. -/
def out6Arr (X : FVec Ideal ⟨2, ![100000, 32]⟩ .f32) (Wc : FVec Ideal ⟨2, ![32, 6]⟩ .f32) :
    FVec Ideal ⟨2, ![100000, 6]⟩ .f32 :=
  fun i => ∑ k : Fin 32, X (ix2 (n0 := 100000) (i 0) k) * Wc (ix2 k (n1 := 6) (i 1))

theorem out6Arr_apply (X : FVec Ideal ⟨2, ![100000, 32]⟩ .f32) (Wc : FVec Ideal ⟨2, ![32, 6]⟩ .f32)
    (n : Fin 100000) (j : Fin 6) :
    out6Arr X Wc (ix2 n j) = ∑ k : Fin 32, X (ix2 n k) * Wc (ix2 k j) := rfl

/-- The 32×6 matrix: the root map's two columns, then each relation's two. -/
def wcombArr (a14 : FVec Ideal ⟨3, ![2, 32, 2]⟩ .f32) (a15 : FVec Ideal ⟨2, ![32, 2]⟩ .f32) :
    FVec Ideal ⟨2, ![32, 6]⟩ .f32 :=
  concatenate SWc 1
    [⟨SW, a15⟩,
     ⟨SW, shapeCast SW (extractStridedSlice SW1 ![0, 0, 0] a14 sl_W3_0) sc_W1⟩,
     ⟨SW, shapeCast SW (extractStridedSlice SW1 ![1, 0, 0] a14 sl_W3_1) sc_W1⟩]
    cat_W

/-- Relation `r`'s 32×2 matrix. -/
def wrel0 (a14 : FVec Ideal ⟨3, ![2, 32, 2]⟩ .f32) : FVec Ideal ⟨2, ![32, 2]⟩ .f32 :=
  shapeCast SW (extractStridedSlice SW1 ![0, 0, 0] a14 sl_W3_0) sc_W1
def wrel1 (a14 : FVec Ideal ⟨3, ![2, 32, 2]⟩ .f32) : FVec Ideal ⟨2, ![32, 2]⟩ .f32 :=
  shapeCast SW (extractStridedSlice SW1 ![1, 0, 0] a14 sl_W3_1) sc_W1

/-! ## The edge list's pieces -/

/-- The edges' sources: row 0 of the edge list. -/
def srcOf (a4 : IVec ⟨2, ![2, 3200000]⟩ 32) : IVec SE 32 :=
  shapeCast SE (extractStridedSlice S1E ![0, 0] a4 sl_2E_0) sc_1E

/-- The edges' destinations: row 1 of the edge list. -/
def dstOf (a4 : IVec ⟨2, ![2, 3200000]⟩ 32) : IVec SE 32 :=
  shapeCast SE (extractStridedSlice S1E ![1, 0] a4 sl_2E_1) sc_1E

/-- A negative source counts from the end; the result as a column of start indices. -/
def wrapIdx (src : IVec SE 32) : IVec SE1 32 :=
  broadcastInDim SE1 ![0] bc_E_E1
    (select (cmpi .slt src (broadcastInDim SE ![] bc_0_E (constantI S0 32 0#32)))
      (addi src (broadcastInDim SE ![] bc_0_E (constantI S0 32 100000#32))) src)

/-- One where the edge's type is `r`, zero elsewhere. -/
def maskOf (r : BitVec 32) (a5 : IVec ⟨1, ![3200000]⟩ 32) : FVec Ideal SE .f32 :=
  uitofp .f32 (cmpi .eq a5 (broadcastInDim SE ![] bc_0_E (constantI S0 32 r)))

/-- The masked mean of the edge rows `Y` over the edges arriving at each node: the masked rows summed into their
    destinations, divided by the number of unmasked edges arriving there, at least one. -/
def agg (dst : IVec SE 32) (mask : FVec Ideal SE .f32) (Y : FVec Ideal SE2 .f32) : FVec Ideal SN2 .f32 :=
  Host.divf
    (Host.scatterAdd scatter2
      (broadcastInDim SN2 ![] bc_0_N2 (constant (F := Ideal) S0 .f32 0x00000000#32))
      (broadcastInDim SE1 ![0] bc_E_E1 dst)
      (mulf Y (broadcastInDim SE2 ![0, 1] bc_E1_E2 (broadcastInDim SE1 ![0] bc_E_E1 mask))))
    (broadcastInDim SN2 ![0, 1] bc_N1_N2 (broadcastInDim SN1 ![0] bc_N_N1
      (maximumf
        (Host.scatterAdd scatter1
          (broadcastInDim SN ![] bc_0_N (constant (F := Ideal) S0 .f32 0x00000000#32))
          (broadcastInDim SE1 ![0] bc_E_E1 dst)
          mask)
        (broadcastInDim SN ![] bc_0_N (constant (F := Ideal) S0 .f32 0x3F800000#32)))))

/-! ## The two tails -/

/-- Products first: the node array already holds the six product columns; columns 0–1 are the root term, columns
    2–3 and 4–5 are gathered at the sources and aggregated per relation. -/
def kernelOut (O6 : FVec Ideal ⟨2, ![100000, 6]⟩ .f32) (a4 : IVec ⟨2, ![2, 3200000]⟩ 32)
    (a5 : IVec ⟨1, ![3200000]⟩ 32) : FVec Ideal ⟨2, ![100000, 2]⟩ .f32 :=
  addf
    (addf (extractStridedSlice SN2 ![0, 0] O6 sl_N6_0)
      (agg (dstOf a4) (maskOf 0#32 a5)
        (Host.gather gather2 (extractStridedSlice SN2 ![0, 2] O6 sl_N6_2) (wrapIdx (srcOf a4)))))
    (agg (dstOf a4) (maskOf 1#32 a5)
      (Host.gather gather2 (extractStridedSlice SN2 ![0, 4] O6 sl_N6_4) (wrapIdx (srcOf a4))))

/-- Gather first: the 32-column node rows are gathered at the sources, each gathered row multiplied by the
    relation's matrix, then aggregated; the root term multiplies the node rows themselves. -/
def refOut (X : FVec Ideal ⟨2, ![100000, 32]⟩ .f32) (a4 : IVec ⟨2, ![2, 3200000]⟩ 32)
    (a5 : IVec ⟨1, ![3200000]⟩ 32) (a14 : FVec Ideal ⟨3, ![2, 32, 2]⟩ .f32)
    (a15 : FVec Ideal ⟨2, ![32, 2]⟩ .f32) : FVec Ideal ⟨2, ![100000, 2]⟩ .f32 :=
  addf
    (addf (Host.dotGeneral (DotDims.plain 100000 32 2) none X a15)
      (agg (dstOf a4) (maskOf 0#32 a5)
        (Host.dotGeneral (DotDims.plain 3200000 32 2) none
          (Host.gather gather32 X (wrapIdx (srcOf a4))) (wrel0 a14))))
    (agg (dstOf a4) (maskOf 1#32 a5)
      (Host.dotGeneral (DotDims.plain 3200000 32 2) none
        (Host.gather gather32 X (wrapIdx (srcOf a4))) (wrel1 a14)))

end Cert.Agg

end
-- ==== Proof.KTail.lean ====
import proofs.«123657_j12738873000206_1_alg».proof.Proof.Gen.KernelIdeal.Launch
import proofs.«123657_j12738873000206_1_alg».proof.Proof.Agg

/-! # The program's host operations around its kernel region are the named compositions

Before the region, five operations build the 32×6 matrix from the root map and the two relation maps; after it, sixty-nine
operations slice the region's 100000×6 result into the root term and the two relations' product columns and aggregate
the latter over the edge list. Run from any contents of the buffers, the first stretch leaves `wcombArr` of the two weight
arrays in the matrix's buffer and the second leaves `kernelOut` of the region's result, the edge list and the edge
types in the result buffer: the fold of the operations' results, read at that buffer, unfolds to the same composition. -/

noncomputable section

namespace Cert.KernelIdeal.Hand

open Cert.KernelIdeal Cert.KernelIdeal.Gen Idealize.ShloMosaic Idealize.ShloMosaic.TcCoe Idealize.ShloMosaic.StableHlo

-- the gather and the two scatter-sums stay folded: the equation never looks inside them
attribute [local irreducible] Host.gather Host.scatterAdd in
set_option maxRecDepth 16384 in
set_option maxHeartbeats 1000000 in
/-- After the sixty-nine operations that follow the region, the result buffer holds `kernelOut` of what the region's
    result buffer, the edge list's and the edge types' held before them. -/
theorem tail_eq (W : Valuation τ sig (Elt Ideal)) :
    after (hostOps1 (F := Ideal)) W (main_v62 : DevRef τ sig)
      = Cert.Agg.kernelOut (W (main_v5 : DevRef τ sig)) (W (main_arg4 : DevRef τ sig)) (W (main_arg5 : DevRef τ sig)) := by
  after_results_simp
  rfl

set_option maxRecDepth 16384 in
/-- After the five operations that precede the region, the matrix's buffer holds `wcombArr` of the two weight arrays. -/
theorem wcomb_eq (V : Valuation τ sig (Elt Ideal)) :
    after (hostOps0 (F := Ideal)) V (main_v4 : DevRef τ sig)
      = Cert.Agg.wcombArr (V (main_arg14 : DevRef τ sig)) (V (main_arg15 : DevRef τ sig)) := by
  simp only [after_cons, after_nil]
  rfl

end Cert.KernelIdeal.Hand

end
-- ==== Proof.KValue.lean ====
/-
  The value of the kernel program at the ideal instance. After its run the result buffer holds the host tail's function
  of the 100000 x 6 array the region wrote, and that array is, row by row, the 32 node features times the combined
  32 x 6 weight matrix: point t of the grid of fifty writes rows 2000 t … 2000 t + 1999 from the same rows of the four
  node arrays and from the nine resident arrays read whole, and the fifty blocks tile the array. The sixteen argument
  arrays end as launched.
-/
import proofs.«123657_j12738873000206_1_alg».proof.Proof.KFrame
import proofs.«123657_j12738873000206_1_alg».proof.Proof.KCover
import proofs.«123657_j12738873000206_1_alg».proof.Proof.KPayload
import proofs.«123657_j12738873000206_1_alg».proof.Proof.KTail
import proofs.«123657_j12738873000206_1_alg».proof.Proof.Agg
import proofs.«123657_j12738873000206_1_alg».proof.Proof.Feat
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (m : (ℓ : Loc nD τ sig) → Buf (Elt Ideal) ℓ) (ρ : Dev nD → PrngReg)

/-- The node features of the launch arrays: 100000 rows of 32. -/
abbrev featOf (c : Dev nD) : FVec Ideal ⟨2, ![100000, 32]⟩ .f32 :=
  Cert.Feat.featArr (m ((c : Thread nD τ).loc main_arg0)) (m ((c : Thread nD τ).loc main_arg1)) (m ((c : Thread nD τ).loc main_arg2)) (m ((c : Thread nD τ).loc main_arg3))
    (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13))

/-- The array the region leaves: the features times the combined weights. -/
abbrev o6Of (c : Dev nD) : FVec Ideal ⟨2, ![100000, 6]⟩ .f32 :=
  Cert.Agg.out6Arr (featOf m c) (Cert.Agg.wcombArr (m ((c : Thread nD τ).loc main_arg14)) (m ((c : Thread nD τ).loc main_arg15)))

/-- The combined 32 x 6 matrix the region finds is the root weights beside the two relation weights. -/
theorem V_wcomb (c : Dev nD) :
    (V m c main_v4 : Vec Ideal S32x6 .f32) = Cert.Agg.wcombArr (m ((c : Thread nD τ).loc main_arg14)) (m ((c : Thread nD τ).loc main_arg15)) := by
  show StableHlo.after (List.flatten [hostOps0]) (fun b => m (c, b)) (Proc.devRef .tc main_v4) = _
  simp only [List.flatten_cons, List.flatten_nil, List.append_nil]
  exact wcomb_eq _

/-- WHAT POINT `t` WRITES BACK is block `t` of the features-times-weights array. -/
theorem flushed13_eq (c : Dev nD) (t : Fin cfg0.N) :
    (dats m 0 c).flushed 13 t = ((cfg0.win 13).blk t).view.read (Elt Ideal) (o6Of m c) := by
  show (cfg0.win 13).cut (grid0.coords t) ((dats m 0 c).after 13 t) = _
  rw [after13]
  funext y
  obtain ⟨p, j, rfl⟩ : ∃ (p : Fin 2000) (j : Fin 6), y = ix2 p j := ⟨y 0, y 1, eq_ix2 y⟩
  show outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p j) = o6Of m c (((cfg0.win 13).blk t).view.emb (ix2 p j))
  rw [emb13]
  refine (outBlk_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p j).trans ?_
  rw [show o6Of m c (ix2 (rowOf t p) j) = _ from Cert.Agg.out6Arr_apply _ _ (rowOf t p) j]
  refine Finset.sum_congr rfl fun k _ => ?_
  rw [show featOf m c (ix2 (rowOf t p) k) = _ from Cert.Feat.featArr_apply _ _ _ _ _ _ _ _ _ _ _ _ (rowOf t p) k]
  have h0 : (fun a => (iblk m c 0 t : Vec Ideal S2000x768 .f32) (ix2 p a)) = fun a => (m ((c : Thread nD τ).loc main_arg0)) (ix2 (rowOf t p) a) :=
    funext fun a => (rows0_apply m c t p a).trans (congrFun (V_arg0 m c) _)
  have h1 : (fun a => (iblk m c 1 t : Vec Ideal S2000x768 .f32) (ix2 p a)) = fun a => (m ((c : Thread nD τ).loc main_arg1)) (ix2 (rowOf t p) a) :=
    funext fun a => (rows1_apply m c t p a).trans (congrFun (V_arg1 m c) _)
  have h2 : (fun a => (iblk m c 2 t : Vec Ideal S2000x5 .f32) (ix2 p a)) = fun a => (m ((c : Thread nD τ).loc main_arg2)) (ix2 (rowOf t p) a) :=
    funext fun a => (rows2_apply m c t p a).trans (congrFun (V_arg2 m c) _)
  have h3 : (fun a => (iblk m c 3 t : Vec Ideal S2000x1 .f32) (ix2 p a)) = fun a => (m ((c : Thread nD τ).loc main_arg3)) (ix2 (rowOf t p) a) :=
    funext fun a => (rows3_apply m c t p a).trans (congrFun (V_arg3 m c) _)
  rw [h0, h1, h2, h3, res4_eq, res5_eq, res6_eq, res7_eq, res8_eq, res9_eq, res10_eq, res11_eq, res12_eq,
    V_arg6, V_arg7, V_arg8, V_arg9, V_arg10, V_arg11, V_arg12, V_arg13, V_wcomb]

/-- THE ARRAY after the run: the features times the combined weights. -/
theorem final13 (c : Dev nD) : (dats m 0 c).arrAt 13 cfg0.N = o6Of m c :=
  (dats m 0 c).arrAt_eq_of_cover 13 (o6Of m c) (fun t _ => flushed13_eq m c t) cover13

/-- The run, read: the result is the host tail of the features-times-weights array, the edge list and the edge types;
    the arguments end as launched. -/
theorem kernel_run : θ_run defs (onTc (τ := τ) (main (F := Ideal))) ⟨m, fun _ => 0, ρ⟩ (fun r => ∀ c : Dev nD,
      r.2.mem ((c.tc : Thread nD τ).loc main_v62)
        = Cert.Agg.kernelOut (o6Of m c) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine (θ_run defs _ _).mono (fun r h c => ⟨?_, args_of_post m r h c⟩) (run_main m ρ)
  refine ((h c).2 main_v62 (Pipeline.mem_restRefs_of main_v62 (by decide) (by decide))).trans ?_
  unfold Pipeline.afterTail₀
  simp only [List.flatten_cons, List.flatten_nil, List.append_nil]
  rw [tail_eq]
  rw [Pipeline.withArrays_arr spec0 launch0.win.arr_inj c _ _ 13, final13,
    Pipeline.withArrays_of_ne _ c (V0 m c) _ main_arg4 (by exact (by decide : ∀ w, Pipeline.arrRef spec0 w ≠ main_arg4)),
    Pipeline.withArrays_of_ne _ c (V0 m c) _ main_arg5 (by exact (by decide : ∀ w, Pipeline.arrRef spec0 w ≠ main_arg5))]
  rw [show V0 m c (Proc.devRef .tc main_arg4) = m ((c : Thread nD τ).loc main_arg4) from V_arg4 m c,
    show V0 m c (Proc.devRef .tc main_arg5) = m ((c : Thread nD τ).loc main_arg5) from V_arg5 m c]

end Cert.KernelIdeal.Hand

end
-- ==== Proof.RRun.lean ====
/-
  The reference program's run, by hand. @main is two windows run in order; with the four calls of the
  leaky-ReLU function (which itself calls the select function) replaced by the callee's operations over the
  call's own buffers, it is one straight line of 113 host operations. The line is cut after the
  concatenation of the four feature blocks (%20): `opsA` computes the node features, `opsB` the root
  product, the two relation-wise gathered products, their masked segment sums and means, and the final sum.
  Read back through the straight-line run: every execution ends with each buffer at the fold of the
  operations over the launch contents, and no operation writes an argument.
-/
import proofs.«123657_j12738873000206_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main from %0 up to and including the concatenation %20, each call's operations inline
    over that call's buffers, in program order. -/
abbrev opsA : List (HloOp τ sig (Elt F)) :=
  [ binary main_arg0 main_arg6 main_v0 ((fun l r => Host.dotGeneral dot_S100000x768_S768x8_S100000x8_1_0_0_1_n_n none l r) : (⟨S100000x768, .f32⟩ : BufTy).Contents (Elt F) → (⟨S768x8, .f32⟩ : BufTy).Contents (Elt F) → (⟨S100000x8, .f32⟩ : BufTy).Contents (Elt F)),
    unary main_arg7 main_v1 (broadcastInDim S1x8 ![1] bcast_S8_S1x8_1 : (⟨S8, .f32⟩ : BufTy).Contents (Elt F) → (⟨S1x8, .f32⟩ : BufTy).Contents (Elt F)),
    unary main_v1 main_v2 (broadcastInDim S100000x8 ![0, 1] bcast_S1x8_S100000x8_0_1 : (⟨S1x8, .f32⟩ : BufTy).Contents (Elt F) → (⟨S100000x8, .f32⟩ : BufTy).Contents (Elt F)),
    binary main_v0 main_v2 main_v3 (addf : (⟨S100000x8, .f32⟩ : BufTy).Contents (Elt F) → (⟨S100000x8, .f32⟩ : BufTy).Contents (Elt F) → (⟨S100000x8, .f32⟩ : BufTy).Contents (Elt F)),
    nullary main_cst (constant S_ .f32 0x3C23D70A#32),
    TRef.nullary main_call0.cst (constant S_ .f32 0x00000000#32),
    TRef.unary main_call0.cst main_call0.v0 (broadcastInDim S100000x8 ![] bcast_S_S100000x8),
    TRef.binary (.of main_v3) main_call0.v0 main_call0.v1 (cmpf .oge),
    TRef.unary (.of main_cst) main_call0.v2 id,
    TRef.unary main_call0.v2 main_call0.v3 (broadcastInDim S100000x8 ![] bcast_S_S100000x8),
    TRef.binary main_call0.v3 (.of main_v3) main_call0.v4 mulf,
    TRef.ternary main_call0.v1 (.of main_v3) main_call0.v4 main_call0.call0.v0 select,
    binary main_arg1 main_arg8 main_v5 ((fun l r => Host.dotGeneral dot_S100000x768_S768x8_S100000x8_1_0_0_1_n_n none l r) : (⟨S100000x768, .f32⟩ : BufTy).Contents (Elt F) → (⟨S768x8, .f32⟩ : BufTy).Contents (Elt F) → (⟨S100000x8, .f32⟩ : BufTy).Contents (Elt F)),
    unary main_arg9 main_v6 (broadcastInDim S1x8 ![1] bcast_S8_S1x8_1 : (⟨S8, .f32⟩ : BufTy).Contents (Elt F) → (⟨S1x8, .f32⟩ : BufTy).Contents (Elt F)),
    unary main_v6 main_v7 (broadcastInDim S100000x8 ![0, 1] bcast_S1x8_S100000x8_0_1 : (⟨S1x8, .f32⟩ : BufTy).Contents (Elt F) → (⟨S100000x8, .f32⟩ : BufTy).Contents (Elt F)),
    binary main_v5 main_v7 main_v8 (addf : (⟨S100000x8, .f32⟩ : BufTy).Contents (Elt F) → (⟨S100000x8, .f32⟩ : BufTy).Contents (Elt F) → (⟨S100000x8, .f32⟩ : BufTy).Contents (Elt F)),
    nullary main_cst_0 (constant S_ .f32 0x3C23D70A#32),
    TRef.nullary main_call1.cst (constant S_ .f32 0x00000000#32),
    TRef.unary main_call1.cst main_call1.v0 (broadcastInDim S100000x8 ![] bcast_S_S100000x8),
    TRef.binary (.of main_v8) main_call1.v0 main_call1.v1 (cmpf .oge),
    TRef.unary (.of main_cst_0) main_call1.v2 id,
    TRef.unary main_call1.v2 main_call1.v3 (broadcastInDim S100000x8 ![] bcast_S_S100000x8),
    TRef.binary main_call1.v3 (.of main_v8) main_call1.v4 mulf,
    TRef.ternary main_call1.v1 (.of main_v8) main_call1.v4 main_call1.call0.v0 select,
    binary main_arg2 main_arg10 main_v10 ((fun l r => Host.dotGeneral dot_S100000x5_S5x8_S100000x8_1_0_0_1_n_n none l r) : (⟨S100000x5, .f32⟩ : BufTy).Contents (Elt F) → (⟨S5x8, .f32⟩ : BufTy).Contents (Elt F) → (⟨S100000x8, .f32⟩ : BufTy).Contents (Elt F)),
    unary main_arg11 main_v11 (broadcastInDim S1x8 ![1] bcast_S8_S1x8_1 : (⟨S8, .f32⟩ : BufTy).Contents (Elt F) → (⟨S1x8, .f32⟩ : BufTy).Contents (Elt F)),
    unary main_v11 main_v12 (broadcastInDim S100000x8 ![0, 1] bcast_S1x8_S100000x8_0_1 : (⟨S1x8, .f32⟩ : BufTy).Contents (Elt F) → (⟨S100000x8, .f32⟩ : BufTy).Contents (Elt F)),
    binary main_v10 main_v12 main_v13 (addf : (⟨S100000x8, .f32⟩ : BufTy).Contents (Elt F) → (⟨S100000x8, .f32⟩ : BufTy).Contents (Elt F) → (⟨S100000x8, .f32⟩ : BufTy).Contents (Elt F)),
    nullary main_cst_1 (constant S_ .f32 0x3C23D70A#32),
    TRef.nullary main_call2.cst (constant S_ .f32 0x00000000#32),
    TRef.unary main_call2.cst main_call2.v0 (broadcastInDim S100000x8 ![] bcast_S_S100000x8),
    TRef.binary (.of main_v13) main_call2.v0 main_call2.v1 (cmpf .oge),
    TRef.unary (.of main_cst_1) main_call2.v2 id,
    TRef.unary main_call2.v2 main_call2.v3 (broadcastInDim S100000x8 ![] bcast_S_S100000x8),
    TRef.binary main_call2.v3 (.of main_v13) main_call2.v4 mulf,
    TRef.ternary main_call2.v1 (.of main_v13) main_call2.v4 main_call2.call0.v0 select,
    binary main_arg3 main_arg12 main_v15 ((fun l r => Host.dotGeneral dot_S100000x1_S1x8_S100000x8_1_0_0_1_n_n none l r) : (⟨S100000x1, .f32⟩ : BufTy).Contents (Elt F) → (⟨S1x8, .f32⟩ : BufTy).Contents (Elt F) → (⟨S100000x8, .f32⟩ : BufTy).Contents (Elt F)),
    unary main_arg13 main_v16 (broadcastInDim S1x8 ![1] bcast_S8_S1x8_1 : (⟨S8, .f32⟩ : BufTy).Contents (Elt F) → (⟨S1x8, .f32⟩ : BufTy).Contents (Elt F)),
    unary main_v16 main_v17 (broadcastInDim S100000x8 ![0, 1] bcast_S1x8_S100000x8_0_1 : (⟨S1x8, .f32⟩ : BufTy).Contents (Elt F) → (⟨S100000x8, .f32⟩ : BufTy).Contents (Elt F)),
    binary main_v15 main_v17 main_v18 (addf : (⟨S100000x8, .f32⟩ : BufTy).Contents (Elt F) → (⟨S100000x8, .f32⟩ : BufTy).Contents (Elt F) → (⟨S100000x8, .f32⟩ : BufTy).Contents (Elt F)),
    nullary main_cst_2 (constant S_ .f32 0x3C23D70A#32),
    TRef.nullary main_call3.cst (constant S_ .f32 0x00000000#32),
    TRef.unary main_call3.cst main_call3.v0 (broadcastInDim S100000x8 ![] bcast_S_S100000x8),
    TRef.binary (.of main_v18) main_call3.v0 main_call3.v1 (cmpf .oge),
    TRef.unary (.of main_cst_2) main_call3.v2 id,
    TRef.unary main_call3.v2 main_call3.v3 (broadcastInDim S100000x8 ![] bcast_S_S100000x8),
    TRef.binary main_call3.v3 (.of main_v18) main_call3.v4 mulf,
    TRef.ternary main_call3.v1 (.of main_v18) main_call3.v4 main_call3.call0.v0 select,
    nary ![main_v4, main_v9, main_v14, main_v19] main_v20 (fun u => concatenate S100000x32 1 [⟨S100000x8, u 0⟩, ⟨S100000x8, u 1⟩, ⟨S100000x8, u 2⟩, ⟨S100000x8, u 3⟩] concatenates_S100000x8_S100000x8_S100000x8_S100000x8_S100000x32_d1) ]

/-- The operations of @main after %20, from the slice %21 to the final sum %74, in program order. -/
abbrev opsB : List (HloOp τ sig (Elt F)) :=
  [ unary main_arg4 main_v21 ((extractStridedSlice S1x3200000 ![0, 0] · slices_S2x3200000_S1x3200000_0_0) : (⟨S2x3200000, .i32⟩ : BufTy).Contents (Elt F) → (⟨S1x3200000, .i32⟩ : BufTy).Contents (Elt F)),
    reshape main_v21 main_v22 rfl shapeCasts_S1x3200000_S3200000,
    unary main_arg4 main_v23 ((extractStridedSlice S1x3200000 ![1, 0] · slices_S2x3200000_S1x3200000_1_0) : (⟨S2x3200000, .i32⟩ : BufTy).Contents (Elt F) → (⟨S1x3200000, .i32⟩ : BufTy).Contents (Elt F)),
    reshape main_v23 main_v24 rfl shapeCasts_S1x3200000_S3200000,
    binary main_v20 main_arg15 main_v25 ((fun l r => Host.dotGeneral dot_S100000x32_S32x2_S100000x2_1_0_0_1_n_n none l r) : (⟨S100000x32, .f32⟩ : BufTy).Contents (Elt F) → (⟨S32x2, .f32⟩ : BufTy).Contents (Elt F) → (⟨S100000x2, .f32⟩ : BufTy).Contents (Elt F)),
    nullary main_c (constantI S_ 32 0#32),
    unary main_c main_v26 (broadcastInDim S3200000 ![] bcast_S_S3200000 : (⟨S_, .i32⟩ : BufTy).Contents (Elt F) → (⟨S3200000, .i32⟩ : BufTy).Contents (Elt F)),
    binary main_v22 main_v26 main_v27 (cmpi .slt : (⟨S3200000, .i32⟩ : BufTy).Contents (Elt F) → (⟨S3200000, .i32⟩ : BufTy).Contents (Elt F) → (⟨S3200000, .i1⟩ : BufTy).Contents (Elt F)),
    nullary main_c_3 (constantI S_ 32 100000#32),
    unary main_c_3 main_v28 (broadcastInDim S3200000 ![] bcast_S_S3200000 : (⟨S_, .i32⟩ : BufTy).Contents (Elt F) → (⟨S3200000, .i32⟩ : BufTy).Contents (Elt F)),
    binary main_v22 main_v28 main_v29 (addi : (⟨S3200000, .i32⟩ : BufTy).Contents (Elt F) → (⟨S3200000, .i32⟩ : BufTy).Contents (Elt F) → (⟨S3200000, .i32⟩ : BufTy).Contents (Elt F)),
    ternary main_v27 main_v29 main_v22 main_v30 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v30 main_v31 (broadcastInDim S3200000x1 ![0] bcast_S3200000_S3200000x1_0 : (⟨S3200000, .i32⟩ : BufTy).Contents (Elt F) → (⟨S3200000x1, .i32⟩ : BufTy).Contents (Elt F)),
    binary main_v20 main_v31 main_v32 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    nullary main_c_4 (constantI S_ 32 0#32),
    unary main_c_4 main_v33 (broadcastInDim S3200000 ![] bcast_S_S3200000 : (⟨S_, .i32⟩ : BufTy).Contents (Elt F) → (⟨S3200000, .i32⟩ : BufTy).Contents (Elt F)),
    binary main_arg5 main_v33 main_v34 (cmpi .eq : (⟨S3200000, .i32⟩ : BufTy).Contents (Elt F) → (⟨S3200000, .i32⟩ : BufTy).Contents (Elt F) → (⟨S3200000, .i1⟩ : BufTy).Contents (Elt F)),
    unary main_v34 main_v35 (uitofp .f32 : (⟨S3200000, .i1⟩ : BufTy).Contents (Elt F) → (⟨S3200000, .f32⟩ : BufTy).Contents (Elt F)),
    unary main_arg14 main_v36 ((extractStridedSlice S1x32x2 ![0, 0, 0] · slices_S2x32x2_S1x32x2_0_0_0) : (⟨S2x32x2, .f32⟩ : BufTy).Contents (Elt F) → (⟨S1x32x2, .f32⟩ : BufTy).Contents (Elt F)),
    reshape main_v36 main_v37 rfl shapeCasts_S1x32x2_S32x2,
    binary main_v32 main_v37 main_v38 ((fun l r => Host.dotGeneral dot_S3200000x32_S32x2_S3200000x2_1_0_0_1_n_n none l r) : (⟨S3200000x32, .f32⟩ : BufTy).Contents (Elt F) → (⟨S32x2, .f32⟩ : BufTy).Contents (Elt F) → (⟨S3200000x2, .f32⟩ : BufTy).Contents (Elt F)),
    unary main_v35 main_v39 (broadcastInDim S3200000x1 ![0] bcast_S3200000_S3200000x1_0 : (⟨S3200000, .f32⟩ : BufTy).Contents (Elt F) → (⟨S3200000x1, .f32⟩ : BufTy).Contents (Elt F)),
    unary main_v39 main_v40 (broadcastInDim S3200000x2 ![0, 1] bcast_S3200000x1_S3200000x2_0_1 : (⟨S3200000x1, .f32⟩ : BufTy).Contents (Elt F) → (⟨S3200000x2, .f32⟩ : BufTy).Contents (Elt F)),
    binary main_v38 main_v40 main_v41 (mulf : (⟨S3200000x2, .f32⟩ : BufTy).Contents (Elt F) → (⟨S3200000x2, .f32⟩ : BufTy).Contents (Elt F) → (⟨S3200000x2, .f32⟩ : BufTy).Contents (Elt F)),
    nullary main_cst_5 (constant S_ .f32 0x00000000#32),
    unary main_cst_5 main_v42 (broadcastInDim S100000x2 ![] bcast_S_S100000x2 : (⟨S_, .f32⟩ : BufTy).Contents (Elt F) → (⟨S100000x2, .f32⟩ : BufTy).Contents (Elt F)),
    unary main_v24 main_v43 (broadcastInDim S3200000x1 ![0] bcast_S3200000_S3200000x1_0 : (⟨S3200000, .i32⟩ : BufTy).Contents (Elt F) → (⟨S3200000x1, .i32⟩ : BufTy).Contents (Elt F)),
    ternary main_v42 main_v43 main_v41 main_v44 ((fun x i u => Host.scatterAdd scatter_S100000x2_S3200000x1_S3200000x2_1_0_0_1 x i u) : (⟨S100000x2, .f32⟩ : BufTy).Contents (Elt F) → (⟨S3200000x1, .i32⟩ : BufTy).Contents (Elt F) → (⟨S3200000x2, .f32⟩ : BufTy).Contents (Elt F) → (⟨S100000x2, .f32⟩ : BufTy).Contents (Elt F)),
    nullary main_cst_6 (constant S_ .f32 0x00000000#32),
    unary main_cst_6 main_v45 (broadcastInDim S100000 ![] bcast_S_S100000 : (⟨S_, .f32⟩ : BufTy).Contents (Elt F) → (⟨S100000, .f32⟩ : BufTy).Contents (Elt F)),
    unary main_v24 main_v46 (broadcastInDim S3200000x1 ![0] bcast_S3200000_S3200000x1_0 : (⟨S3200000, .i32⟩ : BufTy).Contents (Elt F) → (⟨S3200000x1, .i32⟩ : BufTy).Contents (Elt F)),
    ternary main_v45 main_v46 main_v35 main_v47 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_7 (constant S_ .f32 0x3F800000#32),
    unary main_cst_7 main_v48 (broadcastInDim S100000 ![] bcast_S_S100000 : (⟨S_, .f32⟩ : BufTy).Contents (Elt F) → (⟨S100000, .f32⟩ : BufTy).Contents (Elt F)),
    binary main_v47 main_v48 main_v49 (maximumf : (⟨S100000, .f32⟩ : BufTy).Contents (Elt F) → (⟨S100000, .f32⟩ : BufTy).Contents (Elt F) → (⟨S100000, .f32⟩ : BufTy).Contents (Elt F)),
    unary main_v49 main_v50 (broadcastInDim S100000x1 ![0] bcast_S100000_S100000x1_0 : (⟨S100000, .f32⟩ : BufTy).Contents (Elt F) → (⟨S100000x1, .f32⟩ : BufTy).Contents (Elt F)),
    unary main_v50 main_v51 (broadcastInDim S100000x2 ![0, 1] bcast_S100000x1_S100000x2_0_1 : (⟨S100000x1, .f32⟩ : BufTy).Contents (Elt F) → (⟨S100000x2, .f32⟩ : BufTy).Contents (Elt F)),
    binary main_v44 main_v51 main_v52 (Host.divf : (⟨S100000x2, .f32⟩ : BufTy).Contents (Elt F) → (⟨S100000x2, .f32⟩ : BufTy).Contents (Elt F) → (⟨S100000x2, .f32⟩ : BufTy).Contents (Elt F)),
    binary main_v25 main_v52 main_v53 (addf : (⟨S100000x2, .f32⟩ : BufTy).Contents (Elt F) → (⟨S100000x2, .f32⟩ : BufTy).Contents (Elt F) → (⟨S100000x2, .f32⟩ : BufTy).Contents (Elt F)),
    nullary main_c_8 (constantI S_ 32 1#32),
    unary main_c_8 main_v54 (broadcastInDim S3200000 ![] bcast_S_S3200000 : (⟨S_, .i32⟩ : BufTy).Contents (Elt F) → (⟨S3200000, .i32⟩ : BufTy).Contents (Elt F)),
    binary main_arg5 main_v54 main_v55 (cmpi .eq : (⟨S3200000, .i32⟩ : BufTy).Contents (Elt F) → (⟨S3200000, .i32⟩ : BufTy).Contents (Elt F) → (⟨S3200000, .i1⟩ : BufTy).Contents (Elt F)),
    unary main_v55 main_v56 (uitofp .f32 : (⟨S3200000, .i1⟩ : BufTy).Contents (Elt F) → (⟨S3200000, .f32⟩ : BufTy).Contents (Elt F)),
    unary main_arg14 main_v57 ((extractStridedSlice S1x32x2 ![1, 0, 0] · slices_S2x32x2_S1x32x2_1_0_0) : (⟨S2x32x2, .f32⟩ : BufTy).Contents (Elt F) → (⟨S1x32x2, .f32⟩ : BufTy).Contents (Elt F)),
    reshape main_v57 main_v58 rfl shapeCasts_S1x32x2_S32x2,
    binary main_v32 main_v58 main_v59 ((fun l r => Host.dotGeneral dot_S3200000x32_S32x2_S3200000x2_1_0_0_1_n_n none l r) : (⟨S3200000x32, .f32⟩ : BufTy).Contents (Elt F) → (⟨S32x2, .f32⟩ : BufTy).Contents (Elt F) → (⟨S3200000x2, .f32⟩ : BufTy).Contents (Elt F)),
    unary main_v56 main_v60 (broadcastInDim S3200000x1 ![0] bcast_S3200000_S3200000x1_0 : (⟨S3200000, .f32⟩ : BufTy).Contents (Elt F) → (⟨S3200000x1, .f32⟩ : BufTy).Contents (Elt F)),
    unary main_v60 main_v61 (broadcastInDim S3200000x2 ![0, 1] bcast_S3200000x1_S3200000x2_0_1 : (⟨S3200000x1, .f32⟩ : BufTy).Contents (Elt F) → (⟨S3200000x2, .f32⟩ : BufTy).Contents (Elt F)),
    binary main_v59 main_v61 main_v62 (mulf : (⟨S3200000x2, .f32⟩ : BufTy).Contents (Elt F) → (⟨S3200000x2, .f32⟩ : BufTy).Contents (Elt F) → (⟨S3200000x2, .f32⟩ : BufTy).Contents (Elt F)),
    nullary main_cst_9 (constant S_ .f32 0x00000000#32),
    unary main_cst_9 main_v63 (broadcastInDim S100000x2 ![] bcast_S_S100000x2 : (⟨S_, .f32⟩ : BufTy).Contents (Elt F) → (⟨S100000x2, .f32⟩ : BufTy).Contents (Elt F)),
    unary main_v24 main_v64 (broadcastInDim S3200000x1 ![0] bcast_S3200000_S3200000x1_0 : (⟨S3200000, .i32⟩ : BufTy).Contents (Elt F) → (⟨S3200000x1, .i32⟩ : BufTy).Contents (Elt F)),
    ternary main_v63 main_v64 main_v62 main_v65 ((fun x i u => Host.scatterAdd scatter_S100000x2_S3200000x1_S3200000x2_1_0_0_1 x i u) : (⟨S100000x2, .f32⟩ : BufTy).Contents (Elt F) → (⟨S3200000x1, .i32⟩ : BufTy).Contents (Elt F) → (⟨S3200000x2, .f32⟩ : BufTy).Contents (Elt F) → (⟨S100000x2, .f32⟩ : BufTy).Contents (Elt F)),
    nullary main_cst_10 (constant S_ .f32 0x00000000#32),
    unary main_cst_10 main_v66 (broadcastInDim S100000 ![] bcast_S_S100000 : (⟨S_, .f32⟩ : BufTy).Contents (Elt F) → (⟨S100000, .f32⟩ : BufTy).Contents (Elt F)),
    unary main_v24 main_v67 (broadcastInDim S3200000x1 ![0] bcast_S3200000_S3200000x1_0 : (⟨S3200000, .i32⟩ : BufTy).Contents (Elt F) → (⟨S3200000x1, .i32⟩ : BufTy).Contents (Elt F)),
    ternary main_v66 main_v67 main_v56 main_v68 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_11 (constant S_ .f32 0x3F800000#32),
    unary main_cst_11 main_v69 (broadcastInDim S100000 ![] bcast_S_S100000 : (⟨S_, .f32⟩ : BufTy).Contents (Elt F) → (⟨S100000, .f32⟩ : BufTy).Contents (Elt F)),
    binary main_v68 main_v69 main_v70 (maximumf : (⟨S100000, .f32⟩ : BufTy).Contents (Elt F) → (⟨S100000, .f32⟩ : BufTy).Contents (Elt F) → (⟨S100000, .f32⟩ : BufTy).Contents (Elt F)),
    unary main_v70 main_v71 (broadcastInDim S100000x1 ![0] bcast_S100000_S100000x1_0 : (⟨S100000, .f32⟩ : BufTy).Contents (Elt F) → (⟨S100000x1, .f32⟩ : BufTy).Contents (Elt F)),
    unary main_v71 main_v72 (broadcastInDim S100000x2 ![0, 1] bcast_S100000x1_S100000x2_0_1 : (⟨S100000x1, .f32⟩ : BufTy).Contents (Elt F) → (⟨S100000x2, .f32⟩ : BufTy).Contents (Elt F)),
    binary main_v65 main_v72 main_v73 (Host.divf : (⟨S100000x2, .f32⟩ : BufTy).Contents (Elt F) → (⟨S100000x2, .f32⟩ : BufTy).Contents (Elt F) → (⟨S100000x2, .f32⟩ : BufTy).Contents (Elt F)),
    binary main_v53 main_v73 main_v74 (addf : (⟨S100000x2, .f32⟩ : BufTy).Contents (Elt F) → (⟨S100000x2, .f32⟩ : BufTy).Contents (Elt F) → (⟨S100000x2, .f32⟩ : BufTy).Contents (Elt F)) ]

-- the two windows' binds and the calls' bodies re-associated into one right-nested chain: the rewriting recurses once per statement
set_option maxRecDepth 4096 in
/-- @main is that straight line: the two windows in order, the callee's definitions unfolded at their calls and the
    call records at their fields; both sides are then the same chain of steps once sequencing is reassociated. -/
theorem main_eq (c : Dev nD) : main (F := F) c = seq (opsA ++ opsB) := by
  rw [seq_append]
  simp only [main, main_part0, main_part1, fn_leaky_relu.body, fn_where.body, seq, bind_assoc, pure_bind]

/-- The signature scopes no buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem opsA_sub : (opsA : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    nary_bufs_sub ..⟩

theorem opsB_sub : (opsB : List (HloOp τ sig (Elt F))).Forall fun op => op.bufs ⊆ tcRefs τ sig :=
  ⟨unary_bufs_sub .., reshape_bufs_sub .., unary_bufs_sub .., reshape_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., unary_bufs_sub ..,
    unary_bufs_sub .., reshape_bufs_sub .., binary_bufs_sub .., unary_bufs_sub .., unary_bufs_sub .., binary_bufs_sub ..,
    nullary_bufs_sub .., unary_bufs_sub .., unary_bufs_sub .., ternary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., nullary_bufs_sub .., unary_bufs_sub .., binary_bufs_sub ..,
    unary_bufs_sub .., unary_bufs_sub .., reshape_bufs_sub .., binary_bufs_sub .., unary_bufs_sub .., unary_bufs_sub ..,
    binary_bufs_sub .., nullary_bufs_sub .., unary_bufs_sub .., unary_bufs_sub .., ternary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub ..⟩

theorem ops_sub : (opsA ++ opsB : List (HloOp τ sig (Elt F))).Forall fun op => op.bufs ⊆ tcRefs τ sig :=
  List.forall_append.2 ⟨opsA_sub, opsB_sub⟩

/-- Every operation determines its result: none leaves a buffer at contents the machine picks. -/
theorem opsA_fresh : (opsA : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem ops_fresh : ∀ op ∈ (opsA ++ opsB : List (HloOp τ sig (Elt F))), op.fresh = ∅ :=
  List.forall_iff_forall_mem.1 (List.forall_append.2 ⟨opsA_fresh, opsB_fresh⟩)

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (opsA ++ opsB) (launchContents m c) (b : DevRef τ sig) :=
  run_seq scopedRefs_eq scopedSems_eq defs main (fun _ => opsA ++ opsB) main_eq (fun _ => ops_sub) m ρ (fun _ => ops_fresh)

/-! ## The arguments are kept

Each operation writes exactly one buffer, its result's; the result buffers of the line are listed, and an argument
is none of them, so the fold leaves it where it was. -/

/-- The buffers `opsA` writes, in order. -/
abbrev wrA : List (Ref sig .tc) :=
  [main_v0, main_v1, main_v2, main_v3, main_cst, main_call0_cst, main_call0_v0, main_call0_v1,
   main_call0_v2, main_call0_v3, main_call0_v4, main_v4, main_v5, main_v6, main_v7, main_v8,
   main_cst_0, main_call1_cst, main_call1_v0, main_call1_v1, main_call1_v2, main_call1_v3, main_call1_v4, main_v9,
   main_v10, main_v11, main_v12, main_v13, main_cst_1, main_call2_cst, main_call2_v0, main_call2_v1,
   main_call2_v2, main_call2_v3, main_call2_v4, main_v14, main_v15, main_v16, main_v17, main_v18,
   main_cst_2, main_call3_cst, main_call3_v0, main_call3_v1, main_call3_v2, main_call3_v3, main_call3_v4, main_v19,
   main_v20]

/-- The buffers `opsB` writes, in order. -/
abbrev wrB : List (Ref sig .tc) :=
  [main_v21, main_v22, main_v23, main_v24, main_v25, main_c, main_v26, main_v27,
   main_c_3, main_v28, main_v29, main_v30, main_v31, main_v32, main_c_4, main_v33,
   main_v34, main_v35, main_v36, main_v37, main_v38, main_v39, main_v40, main_v41,
   main_cst_5, main_v42, main_v43, main_v44, main_cst_6, main_v45, main_v46, main_v47,
   main_cst_7, main_v48, main_v49, main_v50, main_v51, main_v52, main_v53, main_c_8,
   main_v54, main_v55, main_v56, main_v57, main_v58, main_v59, main_v60, main_v61,
   main_v62, main_cst_9, main_v63, main_v64, main_v65, main_cst_10, main_v66, main_v67,
   main_v68, main_cst_11, main_v69, main_v70, main_v71, main_v72, main_v73, main_v74]

/-- @main's sixteen arguments. -/
abbrev argRefs : List (Ref sig .tc) :=
  [main_arg0, main_arg1, main_arg2, main_arg3, main_arg4, main_arg5, main_arg6, main_arg7,
   main_arg8, main_arg9, main_arg10, main_arg11, main_arg12, main_arg13, main_arg14, main_arg15]

/-- An operation that writes the one buffer `y`, a member of the list `W`, writes inside `W`. -/
theorem writes_sub_of {op : HloOp τ sig (Elt F)} {W : List (Ref sig .tc)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

theorem opsA_writes : (opsA : List (HloOp τ sig (Elt F))).Forall fun op => op.writes ⊆ (wrA.map (Proc.devRef (τ := τ) .tc)).toFinset :=
  ⟨writes_sub_of main_v0 rfl (by decide), writes_sub_of main_v1 rfl (by decide), writes_sub_of main_v2 rfl (by decide),
    writes_sub_of main_v3 rfl (by decide), writes_sub_of main_cst rfl (by decide), writes_sub_of main_call0_cst rfl (by decide),
    writes_sub_of main_call0_v0 rfl (by decide), writes_sub_of main_call0_v1 rfl (by decide), writes_sub_of main_call0_v2 rfl (by decide),
    writes_sub_of main_call0_v3 rfl (by decide), writes_sub_of main_call0_v4 rfl (by decide), writes_sub_of main_v4 rfl (by decide),
    writes_sub_of main_v5 rfl (by decide), writes_sub_of main_v6 rfl (by decide), writes_sub_of main_v7 rfl (by decide),
    writes_sub_of main_v8 rfl (by decide), writes_sub_of main_cst_0 rfl (by decide), writes_sub_of main_call1_cst rfl (by decide),
    writes_sub_of main_call1_v0 rfl (by decide), writes_sub_of main_call1_v1 rfl (by decide), writes_sub_of main_call1_v2 rfl (by decide),
    writes_sub_of main_call1_v3 rfl (by decide), writes_sub_of main_call1_v4 rfl (by decide), writes_sub_of main_v9 rfl (by decide),
    writes_sub_of main_v10 rfl (by decide), writes_sub_of main_v11 rfl (by decide), writes_sub_of main_v12 rfl (by decide),
    writes_sub_of main_v13 rfl (by decide), writes_sub_of main_cst_1 rfl (by decide), writes_sub_of main_call2_cst rfl (by decide),
    writes_sub_of main_call2_v0 rfl (by decide), writes_sub_of main_call2_v1 rfl (by decide), writes_sub_of main_call2_v2 rfl (by decide),
    writes_sub_of main_call2_v3 rfl (by decide), writes_sub_of main_call2_v4 rfl (by decide), writes_sub_of main_v14 rfl (by decide),
    writes_sub_of main_v15 rfl (by decide), writes_sub_of main_v16 rfl (by decide), writes_sub_of main_v17 rfl (by decide),
    writes_sub_of main_v18 rfl (by decide), writes_sub_of main_cst_2 rfl (by decide), writes_sub_of main_call3_cst rfl (by decide),
    writes_sub_of main_call3_v0 rfl (by decide), writes_sub_of main_call3_v1 rfl (by decide), writes_sub_of main_call3_v2 rfl (by decide),
    writes_sub_of main_call3_v3 rfl (by decide), writes_sub_of main_call3_v4 rfl (by decide), writes_sub_of main_v19 rfl (by decide),
    writes_sub_of main_v20 rfl (by decide)⟩

theorem opsB_writes : (opsB : List (HloOp τ sig (Elt F))).Forall fun op => op.writes ⊆ (wrB.map (Proc.devRef (τ := τ) .tc)).toFinset :=
  ⟨writes_sub_of main_v21 rfl (by decide), writes_sub_of main_v22 rfl (by decide), writes_sub_of main_v23 rfl (by decide),
    writes_sub_of main_v24 rfl (by decide), writes_sub_of main_v25 rfl (by decide), writes_sub_of main_c rfl (by decide),
    writes_sub_of main_v26 rfl (by decide), writes_sub_of main_v27 rfl (by decide), writes_sub_of main_c_3 rfl (by decide),
    writes_sub_of main_v28 rfl (by decide), writes_sub_of main_v29 rfl (by decide), writes_sub_of main_v30 rfl (by decide),
    writes_sub_of main_v31 rfl (by decide), writes_sub_of main_v32 rfl (by decide), writes_sub_of main_c_4 rfl (by decide),
    writes_sub_of main_v33 rfl (by decide), writes_sub_of main_v34 rfl (by decide), writes_sub_of main_v35 rfl (by decide),
    writes_sub_of main_v36 rfl (by decide), writes_sub_of main_v37 rfl (by decide), writes_sub_of main_v38 rfl (by decide),
    writes_sub_of main_v39 rfl (by decide), writes_sub_of main_v40 rfl (by decide), writes_sub_of main_v41 rfl (by decide),
    writes_sub_of main_cst_5 rfl (by decide), writes_sub_of main_v42 rfl (by decide), writes_sub_of main_v43 rfl (by decide),
    writes_sub_of main_v44 rfl (by decide), writes_sub_of main_cst_6 rfl (by decide), writes_sub_of main_v45 rfl (by decide),
    writes_sub_of main_v46 rfl (by decide), writes_sub_of main_v47 rfl (by decide), writes_sub_of main_cst_7 rfl (by decide),
    writes_sub_of main_v48 rfl (by decide), writes_sub_of main_v49 rfl (by decide), writes_sub_of main_v50 rfl (by decide),
    writes_sub_of main_v51 rfl (by decide), writes_sub_of main_v52 rfl (by decide), writes_sub_of main_v53 rfl (by decide),
    writes_sub_of main_c_8 rfl (by decide), writes_sub_of main_v54 rfl (by decide), writes_sub_of main_v55 rfl (by decide),
    writes_sub_of main_v56 rfl (by decide), writes_sub_of main_v57 rfl (by decide), writes_sub_of main_v58 rfl (by decide),
    writes_sub_of main_v59 rfl (by decide), writes_sub_of main_v60 rfl (by decide), writes_sub_of main_v61 rfl (by decide),
    writes_sub_of main_v62 rfl (by decide), writes_sub_of main_cst_9 rfl (by decide), writes_sub_of main_v63 rfl (by decide),
    writes_sub_of main_v64 rfl (by decide), writes_sub_of main_v65 rfl (by decide), writes_sub_of main_cst_10 rfl (by decide),
    writes_sub_of main_v66 rfl (by decide), writes_sub_of main_v67 rfl (by decide), writes_sub_of main_v68 rfl (by decide),
    writes_sub_of main_cst_11 rfl (by decide), writes_sub_of main_v69 rfl (by decide), writes_sub_of main_v70 rfl (by decide),
    writes_sub_of main_v71 rfl (by decide), writes_sub_of main_v72 rfl (by decide), writes_sub_of main_v73 rfl (by decide),
    writes_sub_of main_v74 rfl (by decide)⟩

/-- No argument is a result buffer of the line. -/
theorem arg_not_written : ∀ b ∈ argRefs, b ∉ wrA ∧ b ∉ wrB := by decide

/-- The fold over two lines run one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The first stretch keeps every argument. -/
theorem keptA (V : Valuation τ sig (Elt F)) (b : Ref sig .tc) (hb : b ∈ argRefs) :
    after opsA V (b : DevRef τ sig) = V (b : DevRef τ sig) :=
  after_of_writes_sub opsA V opsA_writes (arg_not_written b hb).1

/-- The second stretch keeps every argument. -/
theorem keptB (V : Valuation τ sig (Elt F)) (b : Ref sig .tc) (hb : b ∈ argRefs) :
    after opsB V (b : DevRef τ sig) = V (b : DevRef τ sig) :=
  after_of_writes_sub opsB V opsB_writes (arg_not_written b hb).2

/-- No operation of @main writes an argument: the whole line keeps each. -/
theorem kept (V : Valuation τ sig (Elt F)) (b : Ref sig .tc) (hb : b ∈ argRefs) :
    after (opsA ++ opsB) V (b : DevRef τ sig) = V (b : DevRef τ sig) := by
  rw [after_app, keptB _ b hb, keptA _ b hb]

theorem kept_arg0 (V : Valuation τ sig (Elt F)) :
    after (opsA ++ opsB) V (main_arg0 : DevRef τ sig) = V (main_arg0 : DevRef τ sig) := kept V main_arg0 (by decide)
theorem kept_arg1 (V : Valuation τ sig (Elt F)) :
    after (opsA ++ opsB) V (main_arg1 : DevRef τ sig) = V (main_arg1 : DevRef τ sig) := kept V main_arg1 (by decide)
theorem kept_arg2 (V : Valuation τ sig (Elt F)) :
    after (opsA ++ opsB) V (main_arg2 : DevRef τ sig) = V (main_arg2 : DevRef τ sig) := kept V main_arg2 (by decide)
theorem kept_arg3 (V : Valuation τ sig (Elt F)) :
    after (opsA ++ opsB) V (main_arg3 : DevRef τ sig) = V (main_arg3 : DevRef τ sig) := kept V main_arg3 (by decide)
theorem kept_arg4 (V : Valuation τ sig (Elt F)) :
    after (opsA ++ opsB) V (main_arg4 : DevRef τ sig) = V (main_arg4 : DevRef τ sig) := kept V main_arg4 (by decide)
theorem kept_arg5 (V : Valuation τ sig (Elt F)) :
    after (opsA ++ opsB) V (main_arg5 : DevRef τ sig) = V (main_arg5 : DevRef τ sig) := kept V main_arg5 (by decide)
theorem kept_arg6 (V : Valuation τ sig (Elt F)) :
    after (opsA ++ opsB) V (main_arg6 : DevRef τ sig) = V (main_arg6 : DevRef τ sig) := kept V main_arg6 (by decide)
theorem kept_arg7 (V : Valuation τ sig (Elt F)) :
    after (opsA ++ opsB) V (main_arg7 : DevRef τ sig) = V (main_arg7 : DevRef τ sig) := kept V main_arg7 (by decide)
theorem kept_arg8 (V : Valuation τ sig (Elt F)) :
    after (opsA ++ opsB) V (main_arg8 : DevRef τ sig) = V (main_arg8 : DevRef τ sig) := kept V main_arg8 (by decide)
theorem kept_arg9 (V : Valuation τ sig (Elt F)) :
    after (opsA ++ opsB) V (main_arg9 : DevRef τ sig) = V (main_arg9 : DevRef τ sig) := kept V main_arg9 (by decide)
theorem kept_arg10 (V : Valuation τ sig (Elt F)) :
    after (opsA ++ opsB) V (main_arg10 : DevRef τ sig) = V (main_arg10 : DevRef τ sig) := kept V main_arg10 (by decide)
theorem kept_arg11 (V : Valuation τ sig (Elt F)) :
    after (opsA ++ opsB) V (main_arg11 : DevRef τ sig) = V (main_arg11 : DevRef τ sig) := kept V main_arg11 (by decide)
theorem kept_arg12 (V : Valuation τ sig (Elt F)) :
    after (opsA ++ opsB) V (main_arg12 : DevRef τ sig) = V (main_arg12 : DevRef τ sig) := kept V main_arg12 (by decide)
theorem kept_arg13 (V : Valuation τ sig (Elt F)) :
    after (opsA ++ opsB) V (main_arg13 : DevRef τ sig) = V (main_arg13 : DevRef τ sig) := kept V main_arg13 (by decide)
theorem kept_arg14 (V : Valuation τ sig (Elt F)) :
    after (opsA ++ opsB) V (main_arg14 : DevRef τ sig) = V (main_arg14 : DevRef τ sig) := kept V main_arg14 (by decide)
theorem kept_arg15 (V : Valuation τ sig (Elt F)) :
    after (opsA ++ opsB) V (main_arg15 : DevRef τ sig) = V (main_arg15 : DevRef τ sig) := kept V main_arg15 (by decide)

theorem keptA_arg4 (V : Valuation τ sig (Elt F)) :
    after opsA V (main_arg4 : DevRef τ sig) = V (main_arg4 : DevRef τ sig) := keptA V main_arg4 (by decide)
theorem keptA_arg5 (V : Valuation τ sig (Elt F)) :
    after opsA V (main_arg5 : DevRef τ sig) = V (main_arg5 : DevRef τ sig) := keptA V main_arg5 (by decide)
theorem keptA_arg14 (V : Valuation τ sig (Elt F)) :
    after opsA V (main_arg14 : DevRef τ sig) = V (main_arg14 : DevRef τ sig) := keptA V main_arg14 (by decide)
theorem keptA_arg15 (V : Valuation τ sig (Elt F)) :
    after opsA V (main_arg15 : DevRef τ sig) = V (main_arg15 : DevRef τ sig) := keptA V main_arg15 (by decide)

/-- The frame: every weakly fair execution of @main terminates with the sixteen arguments unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨(h c main_arg0).trans (kept_arg0 _),
     (h c main_arg1).trans (kept_arg1 _),
     (h c main_arg2).trans (kept_arg2 _),
     (h c main_arg3).trans (kept_arg3 _),
     (h c main_arg4).trans (kept_arg4 _),
     (h c main_arg5).trans (kept_arg5 _),
     (h c main_arg6).trans (kept_arg6 _),
     (h c main_arg7).trans (kept_arg7 _),
     (h c main_arg8).trans (kept_arg8 _),
     (h c main_arg9).trans (kept_arg9 _),
     (h c main_arg10).trans (kept_arg10 _),
     (h c main_arg11).trans (kept_arg11 _),
     (h c main_arg12).trans (kept_arg12 _),
     (h c main_arg13).trans (kept_arg13 _),
     (h c main_arg14).trans (kept_arg14 _),
     (h c main_arg15).trans (kept_arg15 _)⟩)
    (run_main m ρ)

end Cert.ReferenceIdeal.Hand

end
-- ==== Proof.RTail.lean ====
/-
  The second stretch of the reference at the extended reals, read as one composed array term. After the 64
  operations from the two slices of the edge list to the final sum, the output buffer holds the root product of
  the node features plus, per relation, the masked mean over arriving edges of the gathered feature rows times
  that relation's matrix: the gather-first composition named over plain arrays. Each operation's result is
  substituted at its consumers, the buffers told apart as references; what is left is an equation between two
  spellings of the same array operations, closed by computation with the row gather and the segment sum kept
  folded.
-/
import proofs.«123657_j12738873000206_1_alg».proof.Proof.RRun
import proofs.«123657_j12738873000206_1_alg».proof.Proof.Agg

noncomputable section

namespace Cert.ReferenceIdeal.Hand

open Cert.ReferenceIdeal Cert.ReferenceIdeal.Gen Idealize.ShloMosaic Idealize.ShloMosaic.TcCoe Idealize.SL.Sem Idealize.ShloMosaic.StableHlo

attribute [local irreducible] Host.gather Host.scatterAdd in
set_option maxRecDepth 8192 in
/-- What the output buffer holds after the second stretch, from any contents `V`: the gather-first composition of
    the node features at %20, the edge list, the edge types and the two weight arrays. -/
theorem rtail_eq (V : Valuation τ sig (Elt Ideal)) :
    after (opsB (F := Ideal)) V (main_v74 : DevRef τ sig)
      = Cert.Agg.refOut (V (main_v20 : DevRef τ sig)) (V (main_arg4 : DevRef τ sig)) (V (main_arg5 : DevRef τ sig))
          (V (main_arg14 : DevRef τ sig)) (V (main_arg15 : DevRef τ sig)) := by
  after_results_simp
  rfl

end Cert.ReferenceIdeal.Hand

end
-- ==== Proof.RFeat.lean ====
/-
  The reference's node-feature matrix. The first stretch of the reference's host operations computes, for each of
  the four inputs of a node (description, tweet, numeric properties, categorical property), the affine map
  x W + b on all 100000 rows at once, passes it entry by entry through the leaky rectifier (a comparison with a
  broadcast zero, a product with a broadcast slope, a choice between the two), and lays the four 100000 x 8
  results side by side along the columns. Read at entry (n, k): column k lies in block k / 8 at column k % 8
  there; the rectifier and the bias act on that one entry; the matrix product there is the sum over the
  contracted coordinate of row n of the input times column k % 8 of the weights. That is feature k of node n.
  The run is read block by block: each block's twelve operations write buffers of their own, so the other
  blocks' results and the arguments pass through them unchanged.
-/
import proofs.«123657_j12738873000206_1_alg».proof.Proof.RRun
import proofs.«123657_j12738873000206_1_alg».proof.Proof.Feat
import proofs.«123657_j12738873000206_1_alg».proof.Proof.Entry
import Idealize.ShloMosaic.Lib.Pipeline.Value
import Idealize.ShloMosaic.PureOps.Ideal.Laws
import Idealize.ShloMosaic.Lib.ValueIdx

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The leaky rectifier on a whole 100000 x 8 array, as the reference writes it: the comparison with the broadcast
    zero chooses, entry by entry, between the entry and the broadcast slope times the entry. -/
def lk (z : FVec Ideal S100000x8 .f32) : FVec Ideal S100000x8 .f32 :=
  select (cmpf (F := Ideal) .oge z (broadcastInDim S100000x8 ![] bcast_S_S100000x8 (constant (F := Ideal) S_ .f32 0x00000000#32)))
    z (mulf (broadcastInDim S100000x8 ![] bcast_S_S100000x8 (id (constant (F := Ideal) S_ .f32 0x3C23D70A#32))) z)

/-- The affine map of one group on the whole array: the rows times the weight matrix, plus the bias row broadcast
    down the 100000 rows. -/
def aff {sl sr : Shape} (D : DotDims sl sr S100000x8) (X : FVec Ideal sl .f32) (W : FVec Ideal sr .f32)
    (b : FVec Ideal S8 .f32) : FVec Ideal S100000x8 .f32 :=
  addf (Host.dotGeneral (F := Ideal) D none X W)
    (broadcastInDim S100000x8 ![0, 1] bcast_S1x8_S100000x8_0_1 (broadcastInDim S1x8 ![1] bcast_S8_S1x8_1 b))

/-- The four rectified affine maps laid side by side along the columns. -/
def xTerm (D T : FVec Ideal S100000x768 .f32) (Nu : FVec Ideal S100000x5 .f32) (Ca : FVec Ideal S100000x1 .f32)
    (Wd : FVec Ideal S768x8 .f32) (bd : FVec Ideal S8 .f32) (Wt : FVec Ideal S768x8 .f32) (bt : FVec Ideal S8 .f32)
    (Wn : FVec Ideal S5x8 .f32) (bn : FVec Ideal S8 .f32) (Wc : FVec Ideal S1x8 .f32) (bc : FVec Ideal S8 .f32) :
    FVec Ideal S100000x32 .f32 :=
  concatenate S100000x32 1
    [⟨S100000x8, lk (aff dot_S100000x768_S768x8_S100000x8_1_0_0_1_n_n D Wd bd)⟩,
     ⟨S100000x8, lk (aff dot_S100000x768_S768x8_S100000x8_1_0_0_1_n_n T Wt bt)⟩,
     ⟨S100000x8, lk (aff dot_S100000x5_S5x8_S100000x8_1_0_0_1_n_n Nu Wn bn)⟩,
     ⟨S100000x8, lk (aff dot_S100000x1_S1x8_S100000x8_1_0_0_1_n_n Ca Wc bc)⟩]
    concatenates_S100000x8_S100000x8_S100000x8_S100000x8_S100000x32_d1

/-! ## The first stretch in four groups of twelve operations and the concatenation

Each group computes one of the four feature blocks from three arguments (a node array, a weight matrix, a bias) and
writes twelve buffers of its own; the concatenation then reads the four blocks. -/

section Groups
variable {F : FTy → Type} [FloatOps F]

/-- The twelve operations of the description block, in program order. -/
def opsDes : List (HloOp τ sig (Elt F)) :=
  [ binary main_arg0 main_arg6 main_v0 ((fun l r => Host.dotGeneral dot_S100000x768_S768x8_S100000x8_1_0_0_1_n_n none l r) : (⟨S100000x768, .f32⟩ : BufTy).Contents (Elt F) → (⟨S768x8, .f32⟩ : BufTy).Contents (Elt F) → (⟨S100000x8, .f32⟩ : BufTy).Contents (Elt F)),
    unary main_arg7 main_v1 (broadcastInDim S1x8 ![1] bcast_S8_S1x8_1 : (⟨S8, .f32⟩ : BufTy).Contents (Elt F) → (⟨S1x8, .f32⟩ : BufTy).Contents (Elt F)),
    unary main_v1 main_v2 (broadcastInDim S100000x8 ![0, 1] bcast_S1x8_S100000x8_0_1 : (⟨S1x8, .f32⟩ : BufTy).Contents (Elt F) → (⟨S100000x8, .f32⟩ : BufTy).Contents (Elt F)),
    binary main_v0 main_v2 main_v3 (addf : (⟨S100000x8, .f32⟩ : BufTy).Contents (Elt F) → (⟨S100000x8, .f32⟩ : BufTy).Contents (Elt F) → (⟨S100000x8, .f32⟩ : BufTy).Contents (Elt F)),
    nullary main_cst (constant S_ .f32 0x3C23D70A#32),
    TRef.nullary main_call0.cst (constant S_ .f32 0x00000000#32),
    TRef.unary main_call0.cst main_call0.v0 (broadcastInDim S100000x8 ![] bcast_S_S100000x8),
    TRef.binary (.of main_v3) main_call0.v0 main_call0.v1 (cmpf .oge),
    TRef.unary (.of main_cst) main_call0.v2 id,
    TRef.unary main_call0.v2 main_call0.v3 (broadcastInDim S100000x8 ![] bcast_S_S100000x8),
    TRef.binary main_call0.v3 (.of main_v3) main_call0.v4 mulf,
    TRef.ternary main_call0.v1 (.of main_v3) main_call0.v4 main_call0.call0.v0 select ]

/-- The buffers they write, in order. -/
abbrev wrDes : List (Ref sig .tc) :=
  [main_v0, main_v1, main_v2, main_v3, main_cst, main_call0_cst, main_call0_v0, main_call0_v1, main_call0_v2, main_call0_v3, main_call0_v4, main_v4]

theorem opsDes_writes : (opsDes : List (HloOp τ sig (Elt F))).Forall fun op => op.writes ⊆ (wrDes.map (Proc.devRef (τ := τ) .tc)).toFinset := by
  unfold opsDes
  exact ⟨writes_sub_of main_v0 rfl (by decide),
    writes_sub_of main_v1 rfl (by decide),
    writes_sub_of main_v2 rfl (by decide),
    writes_sub_of main_v3 rfl (by decide),
    writes_sub_of main_cst rfl (by decide),
    writes_sub_of main_call0_cst rfl (by decide),
    writes_sub_of main_call0_v0 rfl (by decide),
    writes_sub_of main_call0_v1 rfl (by decide),
    writes_sub_of main_call0_v2 rfl (by decide),
    writes_sub_of main_call0_v3 rfl (by decide),
    writes_sub_of main_call0_v4 rfl (by decide),
    writes_sub_of main_v4 rfl (by decide)⟩

/-- A buffer outside that list keeps its contents. -/
theorem opsDes_keeps (V : Valuation τ sig (Elt F)) (r : Ref sig .tc) (hr : r ∉ wrDes) :
    after opsDes V (r : DevRef τ sig) = V (r : DevRef τ sig) :=
  after_of_writes_sub opsDes V opsDes_writes hr

/-- The twelve operations of the tweet block, in program order. -/
def opsTweet : List (HloOp τ sig (Elt F)) :=
  [ binary main_arg1 main_arg8 main_v5 ((fun l r => Host.dotGeneral dot_S100000x768_S768x8_S100000x8_1_0_0_1_n_n none l r) : (⟨S100000x768, .f32⟩ : BufTy).Contents (Elt F) → (⟨S768x8, .f32⟩ : BufTy).Contents (Elt F) → (⟨S100000x8, .f32⟩ : BufTy).Contents (Elt F)),
    unary main_arg9 main_v6 (broadcastInDim S1x8 ![1] bcast_S8_S1x8_1 : (⟨S8, .f32⟩ : BufTy).Contents (Elt F) → (⟨S1x8, .f32⟩ : BufTy).Contents (Elt F)),
    unary main_v6 main_v7 (broadcastInDim S100000x8 ![0, 1] bcast_S1x8_S100000x8_0_1 : (⟨S1x8, .f32⟩ : BufTy).Contents (Elt F) → (⟨S100000x8, .f32⟩ : BufTy).Contents (Elt F)),
    binary main_v5 main_v7 main_v8 (addf : (⟨S100000x8, .f32⟩ : BufTy).Contents (Elt F) → (⟨S100000x8, .f32⟩ : BufTy).Contents (Elt F) → (⟨S100000x8, .f32⟩ : BufTy).Contents (Elt F)),
    nullary main_cst_0 (constant S_ .f32 0x3C23D70A#32),
    TRef.nullary main_call1.cst (constant S_ .f32 0x00000000#32),
    TRef.unary main_call1.cst main_call1.v0 (broadcastInDim S100000x8 ![] bcast_S_S100000x8),
    TRef.binary (.of main_v8) main_call1.v0 main_call1.v1 (cmpf .oge),
    TRef.unary (.of main_cst_0) main_call1.v2 id,
    TRef.unary main_call1.v2 main_call1.v3 (broadcastInDim S100000x8 ![] bcast_S_S100000x8),
    TRef.binary main_call1.v3 (.of main_v8) main_call1.v4 mulf,
    TRef.ternary main_call1.v1 (.of main_v8) main_call1.v4 main_call1.call0.v0 select ]

/-- The buffers they write, in order. -/
abbrev wrTweet : List (Ref sig .tc) :=
  [main_v5, main_v6, main_v7, main_v8, main_cst_0, main_call1_cst, main_call1_v0, main_call1_v1, main_call1_v2, main_call1_v3, main_call1_v4, main_v9]

theorem opsTweet_writes : (opsTweet : List (HloOp τ sig (Elt F))).Forall fun op => op.writes ⊆ (wrTweet.map (Proc.devRef (τ := τ) .tc)).toFinset := by
  unfold opsTweet
  exact ⟨writes_sub_of main_v5 rfl (by decide),
    writes_sub_of main_v6 rfl (by decide),
    writes_sub_of main_v7 rfl (by decide),
    writes_sub_of main_v8 rfl (by decide),
    writes_sub_of main_cst_0 rfl (by decide),
    writes_sub_of main_call1_cst rfl (by decide),
    writes_sub_of main_call1_v0 rfl (by decide),
    writes_sub_of main_call1_v1 rfl (by decide),
    writes_sub_of main_call1_v2 rfl (by decide),
    writes_sub_of main_call1_v3 rfl (by decide),
    writes_sub_of main_call1_v4 rfl (by decide),
    writes_sub_of main_v9 rfl (by decide)⟩

/-- A buffer outside that list keeps its contents. -/
theorem opsTweet_keeps (V : Valuation τ sig (Elt F)) (r : Ref sig .tc) (hr : r ∉ wrTweet) :
    after opsTweet V (r : DevRef τ sig) = V (r : DevRef τ sig) :=
  after_of_writes_sub opsTweet V opsTweet_writes hr

/-- The twelve operations of the numeric-property block, in program order. -/
def opsNum : List (HloOp τ sig (Elt F)) :=
  [ binary main_arg2 main_arg10 main_v10 ((fun l r => Host.dotGeneral dot_S100000x5_S5x8_S100000x8_1_0_0_1_n_n none l r) : (⟨S100000x5, .f32⟩ : BufTy).Contents (Elt F) → (⟨S5x8, .f32⟩ : BufTy).Contents (Elt F) → (⟨S100000x8, .f32⟩ : BufTy).Contents (Elt F)),
    unary main_arg11 main_v11 (broadcastInDim S1x8 ![1] bcast_S8_S1x8_1 : (⟨S8, .f32⟩ : BufTy).Contents (Elt F) → (⟨S1x8, .f32⟩ : BufTy).Contents (Elt F)),
    unary main_v11 main_v12 (broadcastInDim S100000x8 ![0, 1] bcast_S1x8_S100000x8_0_1 : (⟨S1x8, .f32⟩ : BufTy).Contents (Elt F) → (⟨S100000x8, .f32⟩ : BufTy).Contents (Elt F)),
    binary main_v10 main_v12 main_v13 (addf : (⟨S100000x8, .f32⟩ : BufTy).Contents (Elt F) → (⟨S100000x8, .f32⟩ : BufTy).Contents (Elt F) → (⟨S100000x8, .f32⟩ : BufTy).Contents (Elt F)),
    nullary main_cst_1 (constant S_ .f32 0x3C23D70A#32),
    TRef.nullary main_call2.cst (constant S_ .f32 0x00000000#32),
    TRef.unary main_call2.cst main_call2.v0 (broadcastInDim S100000x8 ![] bcast_S_S100000x8),
    TRef.binary (.of main_v13) main_call2.v0 main_call2.v1 (cmpf .oge),
    TRef.unary (.of main_cst_1) main_call2.v2 id,
    TRef.unary main_call2.v2 main_call2.v3 (broadcastInDim S100000x8 ![] bcast_S_S100000x8),
    TRef.binary main_call2.v3 (.of main_v13) main_call2.v4 mulf,
    TRef.ternary main_call2.v1 (.of main_v13) main_call2.v4 main_call2.call0.v0 select ]

/-- The buffers they write, in order. -/
abbrev wrNum : List (Ref sig .tc) :=
  [main_v10, main_v11, main_v12, main_v13, main_cst_1, main_call2_cst, main_call2_v0, main_call2_v1, main_call2_v2, main_call2_v3, main_call2_v4, main_v14]

theorem opsNum_writes : (opsNum : List (HloOp τ sig (Elt F))).Forall fun op => op.writes ⊆ (wrNum.map (Proc.devRef (τ := τ) .tc)).toFinset := by
  unfold opsNum
  exact ⟨writes_sub_of main_v10 rfl (by decide),
    writes_sub_of main_v11 rfl (by decide),
    writes_sub_of main_v12 rfl (by decide),
    writes_sub_of main_v13 rfl (by decide),
    writes_sub_of main_cst_1 rfl (by decide),
    writes_sub_of main_call2_cst rfl (by decide),
    writes_sub_of main_call2_v0 rfl (by decide),
    writes_sub_of main_call2_v1 rfl (by decide),
    writes_sub_of main_call2_v2 rfl (by decide),
    writes_sub_of main_call2_v3 rfl (by decide),
    writes_sub_of main_call2_v4 rfl (by decide),
    writes_sub_of main_v14 rfl (by decide)⟩

/-- A buffer outside that list keeps its contents. -/
theorem opsNum_keeps (V : Valuation τ sig (Elt F)) (r : Ref sig .tc) (hr : r ∉ wrNum) :
    after opsNum V (r : DevRef τ sig) = V (r : DevRef τ sig) :=
  after_of_writes_sub opsNum V opsNum_writes hr

/-- The twelve operations of the categorical-property block, in program order. -/
def opsCat : List (HloOp τ sig (Elt F)) :=
  [ binary main_arg3 main_arg12 main_v15 ((fun l r => Host.dotGeneral dot_S100000x1_S1x8_S100000x8_1_0_0_1_n_n none l r) : (⟨S100000x1, .f32⟩ : BufTy).Contents (Elt F) → (⟨S1x8, .f32⟩ : BufTy).Contents (Elt F) → (⟨S100000x8, .f32⟩ : BufTy).Contents (Elt F)),
    unary main_arg13 main_v16 (broadcastInDim S1x8 ![1] bcast_S8_S1x8_1 : (⟨S8, .f32⟩ : BufTy).Contents (Elt F) → (⟨S1x8, .f32⟩ : BufTy).Contents (Elt F)),
    unary main_v16 main_v17 (broadcastInDim S100000x8 ![0, 1] bcast_S1x8_S100000x8_0_1 : (⟨S1x8, .f32⟩ : BufTy).Contents (Elt F) → (⟨S100000x8, .f32⟩ : BufTy).Contents (Elt F)),
    binary main_v15 main_v17 main_v18 (addf : (⟨S100000x8, .f32⟩ : BufTy).Contents (Elt F) → (⟨S100000x8, .f32⟩ : BufTy).Contents (Elt F) → (⟨S100000x8, .f32⟩ : BufTy).Contents (Elt F)),
    nullary main_cst_2 (constant S_ .f32 0x3C23D70A#32),
    TRef.nullary main_call3.cst (constant S_ .f32 0x00000000#32),
    TRef.unary main_call3.cst main_call3.v0 (broadcastInDim S100000x8 ![] bcast_S_S100000x8),
    TRef.binary (.of main_v18) main_call3.v0 main_call3.v1 (cmpf .oge),
    TRef.unary (.of main_cst_2) main_call3.v2 id,
    TRef.unary main_call3.v2 main_call3.v3 (broadcastInDim S100000x8 ![] bcast_S_S100000x8),
    TRef.binary main_call3.v3 (.of main_v18) main_call3.v4 mulf,
    TRef.ternary main_call3.v1 (.of main_v18) main_call3.v4 main_call3.call0.v0 select ]

/-- The buffers they write, in order. -/
abbrev wrCat : List (Ref sig .tc) :=
  [main_v15, main_v16, main_v17, main_v18, main_cst_2, main_call3_cst, main_call3_v0, main_call3_v1, main_call3_v2, main_call3_v3, main_call3_v4, main_v19]

theorem opsCat_writes : (opsCat : List (HloOp τ sig (Elt F))).Forall fun op => op.writes ⊆ (wrCat.map (Proc.devRef (τ := τ) .tc)).toFinset := by
  unfold opsCat
  exact ⟨writes_sub_of main_v15 rfl (by decide),
    writes_sub_of main_v16 rfl (by decide),
    writes_sub_of main_v17 rfl (by decide),
    writes_sub_of main_v18 rfl (by decide),
    writes_sub_of main_cst_2 rfl (by decide),
    writes_sub_of main_call3_cst rfl (by decide),
    writes_sub_of main_call3_v0 rfl (by decide),
    writes_sub_of main_call3_v1 rfl (by decide),
    writes_sub_of main_call3_v2 rfl (by decide),
    writes_sub_of main_call3_v3 rfl (by decide),
    writes_sub_of main_call3_v4 rfl (by decide),
    writes_sub_of main_v19 rfl (by decide)⟩

/-- A buffer outside that list keeps its contents. -/
theorem opsCat_keeps (V : Valuation τ sig (Elt F)) (r : Ref sig .tc) (hr : r ∉ wrCat) :
    after opsCat V (r : DevRef τ sig) = V (r : DevRef τ sig) :=
  after_of_writes_sub opsCat V opsCat_writes hr

/-- The first stretch is the four groups and then the concatenation. -/
theorem opsA_split : (opsA : List (HloOp τ sig (Elt F)))
    = opsDes ++ (opsTweet ++ (opsNum ++ (opsCat ++
        [nary ![main_v4, main_v9, main_v14, main_v19] main_v20 (fun u => concatenate S100000x32 1 [⟨S100000x8, u 0⟩, ⟨S100000x8, u 1⟩, ⟨S100000x8, u 2⟩, ⟨S100000x8, u 3⟩] concatenates_S100000x8_S100000x8_S100000x8_S100000x8_S100000x32_d1)]))) := rfl

end Groups

set_option maxHeartbeats 2000000 in
/-- The description group leaves its rectified affine map in its result buffer. -/
theorem opsDes_val (V : Valuation τ sig (Elt Ideal)) :
    after (opsDes (F := Ideal)) V (main_v4 : DevRef τ sig)
      = lk (aff dot_S100000x768_S768x8_S100000x8_1_0_0_1_n_n (V (main_arg0 : DevRef τ sig)) (V (main_arg6 : DevRef τ sig)) (V (main_arg7 : DevRef τ sig))) := by
  unfold opsDes
  simp only [after_cons, after_nil]
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

set_option maxHeartbeats 2000000 in
/-- The tweet group leaves its rectified affine map in its result buffer. -/
theorem opsTweet_val (V : Valuation τ sig (Elt Ideal)) :
    after (opsTweet (F := Ideal)) V (main_v9 : DevRef τ sig)
      = lk (aff dot_S100000x768_S768x8_S100000x8_1_0_0_1_n_n (V (main_arg1 : DevRef τ sig)) (V (main_arg8 : DevRef τ sig)) (V (main_arg9 : DevRef τ sig))) := by
  unfold opsTweet
  simp only [after_cons, after_nil]
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

set_option maxHeartbeats 2000000 in
/-- The numeric-property group leaves its rectified affine map in its result buffer. -/
theorem opsNum_val (V : Valuation τ sig (Elt Ideal)) :
    after (opsNum (F := Ideal)) V (main_v14 : DevRef τ sig)
      = lk (aff dot_S100000x5_S5x8_S100000x8_1_0_0_1_n_n (V (main_arg2 : DevRef τ sig)) (V (main_arg10 : DevRef τ sig)) (V (main_arg11 : DevRef τ sig))) := by
  unfold opsNum
  simp only [after_cons, after_nil]
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

set_option maxHeartbeats 2000000 in
/-- The categorical-property group leaves its rectified affine map in its result buffer. -/
theorem opsCat_val (V : Valuation τ sig (Elt Ideal)) :
    after (opsCat (F := Ideal)) V (main_v19 : DevRef τ sig)
      = lk (aff dot_S100000x1_S1x8_S100000x8_1_0_0_1_n_n (V (main_arg3 : DevRef τ sig)) (V (main_arg12 : DevRef τ sig)) (V (main_arg13 : DevRef τ sig))) := by
  unfold opsCat
  simp only [after_cons, after_nil]
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

set_option maxHeartbeats 2000000 in
/-- The first stretch's result buffer holds the four rectified affine maps of the launch contents, side by side. -/
theorem run_xTerm (V : Valuation τ sig (Elt Ideal)) :
    StableHlo.after (opsA (F := Ideal)) V (main_v20 : DevRef τ sig)
      = xTerm (V (main_arg0 : DevRef τ sig)) (V (main_arg1 : DevRef τ sig)) (V (main_arg2 : DevRef τ sig)) (V (main_arg3 : DevRef τ sig))
          (V (main_arg6 : DevRef τ sig)) (V (main_arg7 : DevRef τ sig)) (V (main_arg8 : DevRef τ sig)) (V (main_arg9 : DevRef τ sig))
          (V (main_arg10 : DevRef τ sig)) (V (main_arg11 : DevRef τ sig)) (V (main_arg12 : DevRef τ sig)) (V (main_arg13 : DevRef τ sig)) := by
  rw [opsA_split, after_app, after_app, after_app, after_app, after_cons, after_nil, nary4_result]
  rw [opsCat_val, opsCat_keeps _ main_v14 (by decide), opsCat_keeps _ main_v9 (by decide), opsCat_keeps _ main_v4 (by decide)]
  rw [opsNum_val, opsNum_keeps _ main_v9 (by decide), opsNum_keeps _ main_v4 (by decide), opsNum_keeps _ main_arg3 (by decide), opsNum_keeps _ main_arg12 (by decide), opsNum_keeps _ main_arg13 (by decide)]
  rw [opsTweet_val, opsTweet_keeps _ main_v4 (by decide), opsTweet_keeps _ main_arg2 (by decide), opsTweet_keeps _ main_arg10 (by decide), opsTweet_keeps _ main_arg11 (by decide), opsTweet_keeps _ main_arg3 (by decide), opsTweet_keeps _ main_arg12 (by decide), opsTweet_keeps _ main_arg13 (by decide)]
  rw [opsDes_val, opsDes_keeps _ main_arg1 (by decide), opsDes_keeps _ main_arg8 (by decide), opsDes_keeps _ main_arg9 (by decide), opsDes_keeps _ main_arg2 (by decide), opsDes_keeps _ main_arg10 (by decide), opsDes_keeps _ main_arg11 (by decide), opsDes_keeps _ main_arg3 (by decide), opsDes_keeps _ main_arg12 (by decide), opsDes_keeps _ main_arg13 (by decide)]
  rfl

/-- The bias row broadcast down the rows, read at entry (n, q), is entry q of the bias. -/
theorem bias_apply (b : FVec Ideal S8 .f32) (n : Fin 100000) (q : Fin 8) :
    broadcastInDim S100000x8 ![0, 1] bcast_S1x8_S100000x8_0_1 (broadcastInDim S1x8 ![1] bcast_S8_S1x8_1 b) (ix2 n q)
      = b (ix1 q) := by
  refine (broadcastInDim_apply _ _ _ (ix2 n q) (ix2 (0 : Fin 1) q) ?_).trans ?_
  · intro a
    match a with
    | ⟨0, _⟩ => rfl
    | ⟨1, _⟩ => rfl
  · refine broadcastInDim_apply _ _ _ _ (ix1 q) ?_
    intro a
    match a with
    | ⟨0, _⟩ => rfl

/-- Entry (n, q) of one group's rectified affine map is that group's column q for node n. -/
theorem lk_aff_apply {K : Nat} (D : DotDims ⟨2, ![100000, K]⟩ ⟨2, ![K, 8]⟩ ⟨2, ![100000, 8]⟩)
    (hD : D = DotDims.plain 100000 K 8)
    (X : FVec Ideal ⟨2, ![100000, K]⟩ .f32) (W : FVec Ideal ⟨2, ![K, 8]⟩ .f32) (b : FVec Ideal S8 .f32)
    (n : Fin 100000) (q : Fin 8) :
    lk (aff D X W b) (ix2 n q) = Cert.Feat.unit (fun a => X (ix2 n a)) W b q := by
  unfold lk
  refine (Cert.Entry.leaky_at _ _ _ (ix2 n q) rfl rfl).trans ?_
  unfold Cert.Feat.unit
  refine congrArg Cert.Feat.leaky ?_
  show Host.dotGeneral (F := Ideal) D none X W (ix2 n q)
      + broadcastInDim S100000x8 ![0, 1] bcast_S1x8_S100000x8_0_1 (broadcastInDim S1x8 ![1] bcast_S8_S1x8_1 b) (ix2 n q) = _
  rw [Cert.Entry.dotGeneral_apply D hD none X W n q, bias_apply]

/-- The four rectified affine maps side by side are the feature matrix. -/
theorem xTerm_eq (D T : FVec Ideal S100000x768 .f32) (Nu : FVec Ideal S100000x5 .f32) (Ca : FVec Ideal S100000x1 .f32)
    (Wd : FVec Ideal S768x8 .f32) (bd : FVec Ideal S8 .f32) (Wt : FVec Ideal S768x8 .f32) (bt : FVec Ideal S8 .f32)
    (Wn : FVec Ideal S5x8 .f32) (bn : FVec Ideal S8 .f32) (Wc : FVec Ideal S1x8 .f32) (bc : FVec Ideal S8 .f32) :
    xTerm D T Nu Ca Wd bd Wt bt Wn bn Wc bc = Cert.Feat.featArr D T Nu Ca Wd bd Wt bt Wn bn Wc bc := by
  funext i
  obtain ⟨n, k, rfl⟩ : ∃ (n : Fin 100000) (k : Fin 32), i = ix2 n k := ⟨i 0, i 1, eq_ix2 i⟩
  rw [Cert.Feat.featArr_apply]
  unfold xTerm
  by_cases h0 : k.val < 8
  · rw [Cert.Feat.featRow_g0 _ _ _ _ _ _ _ _ _ _ _ _ k ⟨k.val, h0⟩ rfl]
    refine (Cert.Entry.cat4_g0 _ _ _ _ _ n k ⟨k.val, h0⟩ rfl).trans ?_
    exact lk_aff_apply _ rfl D Wd bd n _
  · by_cases h1 : k.val < 16
    · rw [Cert.Feat.featRow_g1 _ _ _ _ _ _ _ _ _ _ _ _ k ⟨k.val - 8, by omega⟩ (by show k.val = 8 + (k.val - 8); omega)]
      refine (Cert.Entry.cat4_g1 _ _ _ _ _ n k ⟨k.val - 8, by omega⟩ (by show k.val = 8 + (k.val - 8); omega)).trans ?_
      exact lk_aff_apply _ rfl T Wt bt n _
    · by_cases h2 : k.val < 24
      · rw [Cert.Feat.featRow_g2 _ _ _ _ _ _ _ _ _ _ _ _ k ⟨k.val - 16, by omega⟩ (by show k.val = 16 + (k.val - 16); omega)]
        refine (Cert.Entry.cat4_g2 _ _ _ _ _ n k ⟨k.val - 16, by omega⟩ (by show k.val = 16 + (k.val - 16); omega)).trans ?_
        exact lk_aff_apply _ rfl Nu Wn bn n _
      · have hk := k.isLt
        rw [Cert.Feat.featRow_g3 _ _ _ _ _ _ _ _ _ _ _ _ k ⟨k.val - 24, by omega⟩ (by show k.val = 24 + (k.val - 24); omega)]
        refine (Cert.Entry.cat4_g3 _ _ _ _ _ n k ⟨k.val - 24, by omega⟩ (by show k.val = 24 + (k.val - 24); omega)).trans ?_
        exact lk_aff_apply _ rfl Ca Wc bc n _

/-- The reference's feature matrix: after the first stretch of host operations, the buffer of the concatenation holds
    the array whose row n is the 32 features of node n. -/
theorem rfeat (V : Valuation τ sig (Elt Ideal)) :
    StableHlo.after (opsA (F := Ideal)) V (main_v20 : DevRef τ sig)
      = Cert.Feat.featArr (V (main_arg0 : DevRef τ sig)) (V (main_arg1 : DevRef τ sig)) (V (main_arg2 : DevRef τ sig)) (V (main_arg3 : DevRef τ sig))
          (V (main_arg6 : DevRef τ sig)) (V (main_arg7 : DevRef τ sig)) (V (main_arg8 : DevRef τ sig)) (V (main_arg9 : DevRef τ sig))
          (V (main_arg10 : DevRef τ sig)) (V (main_arg11 : DevRef τ sig)) (V (main_arg12 : DevRef τ sig)) (V (main_arg13 : DevRef τ sig)) :=
  (run_xTerm V).trans (xTerm_eq _ _ _ _ _ _ _ _ _ _ _ _)

end Cert.ReferenceIdeal.Hand

end
-- ==== Proof.Bridge.lean ====
import proofs.«123657_j12738873000206_1_alg».proof.Proof.Agg
import Idealize.ShloMosaic.Lib.StackMember
import Idealize.ShloMosaic.Lib.Pipeline.Value

/-! # A row gather commutes with a right matrix product

The two tails of `Agg` apply the same aggregation to arguments that are equal: a gather of rows of `X · W` is the product
of the gathered rows of `X` with `W`, because both read, at edge `e` and column `j`, the sum over `k` of
`X (row e, k) * W (k, j)`, where `row e` is the edge's clamped source — the same row whether two or thirty-two columns
are gathered. The 32×6 matrix is the root map and the two relation maps side by side, so its columns 0–1, 2–3 and 4–5
are those maps' columns. Nothing here asks the values to be finite. -/

noncomputable section

open scoped BigOperators

namespace Cert.Agg

open Idealize.ShloMosaic Idealize.ShloMosaic.ValueIdx Idealize.ShloMosaic.StackMember

/-! ## A row gather read at an index -/

/-- The row a start index names: the index read signed, clamped into the operand's rows. -/
def rowAt {N E w : Nat} (hN : 0 < N) (idx : IVec ⟨2, ![E, 1]⟩ w) (e : Fin E) : Fin N :=
  ⟨min (idx (ix2 e (0 : Fin 1))).toInt.toNat (N - 1), by omega⟩

/-- A row gather at `(e, j)` is the operand at `(row e, j)`, whatever the number of columns. -/
theorem gather_row_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j) = x (ix2 (rowAt hN idx e) j) := by
  unfold Host.gather
  congr 1
  funext a
  refine Fin.ext ?_
  show (rowDims N E C wf).start (ix2 e j) idx a + (rowDims N E C wf).batchCoord (ix2 e j) a
    + (rowDims N E C wf).offCoord (ix2 e j) a = _
  rw [GatherDims.batchCoord_eq_zero _ _ _ List.not_mem_nil]
  match a with
  | ⟨0, _⟩ =>
    -- the row axis is collapsed: no offset; its start is the clamped start index
    rw [GatherDims.offCoord_eq_zero _ _ _ (fun h => ((GatherDims.mem_sKept _ _).mp h).1 (List.mem_singleton.mpr rfl))]
    simp only [Nat.add_zero]
    unfold GatherDims.start
    rw [dif_pos (show (⟨0, Nat.zero_lt_two⟩ : Fin 2) ∈ (rowDims N E C wf).startIndexMap from List.mem_singleton.mpr rfl)]
    have hsi : (rowDims N E C wf).siIdx (ix2 e j) ⟨List.idxOf (⟨0, Nat.zero_lt_two⟩ : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis is kept whole: start 0, offset the result's column
    have h1 : (⟨1, Nat.one_lt_two⟩ : Fin 2) ∈ (rowDims N E C wf).sKept :=
      (GatherDims.mem_sKept _ _).mpr
        ⟨(show ¬ ((⟨1, Nat.one_lt_two⟩ : Fin 2) ∈ ([0] : List (Fin 2))) from by decide), List.not_mem_nil⟩
    have h0 : (rowDims N E C wf).start (ix2 e j) idx (⟨1, Nat.one_lt_two⟩ : Fin 2) = 0 := by
      unfold GatherDims.start
      rw [dif_neg (show ¬ ((⟨1, Nat.one_lt_two⟩ : Fin 2) ∈ ([0] : List (Fin 2))) from by decide)]
    rw [h0]
    unfold GatherDims.offCoord
    rw [dif_pos h1]
    simp only [Nat.zero_add]
    rfl

/-! ## Two columns of the six-column product -/

/-- Columns `c0, c0 + 1` of `X · Wc` at `(n, j)`: the sum over `k` of `X (n, k) * Wc (k, c0 + j)`. -/
theorem slice_out6 (X : FVec Ideal SN32 .f32) (Wc : FVec Ideal SWc .f32) (c0 : Nat) (hc : c0 + 2 ≤ 6)
    (h : SN6.Slices ![0, c0] SN2) (n : Fin 100000) (j : Fin 2) :
    extractStridedSlice SN2 ![0, c0] (out6Arr X Wc) h (ix2 n j)
      = ∑ k : Fin 32, X (ix2 n k) * Wc (ix2 k (⟨c0 + j.val, by omega⟩ : Fin 6)) := by
  show out6Arr X Wc _ = _
  refine (congrArg (out6Arr X Wc) ?_).trans (out6Arr_apply X Wc n ⟨c0 + j.val, by omega⟩)
  funext a
  match a with
  | ⟨0, _⟩ => exact Fin.ext (Nat.zero_add _)
  | ⟨1, _⟩ => rfl

/-! ## The columns of the 32×6 matrix -/

private theorem wcomb_hi (k : Fin 32) (j : Fin 2) (c : Fin 6) :
    ∀ b : Fin SW.rank, b.cast (rfl : SW.rank = SWc.rank) ≠ (1 : Fin SWc.rank) →
      ((ix2 k j : SW.Idx) b).val = ((ix2 k c : SWc.Idx) (b.cast (rfl : SW.rank = SWc.rank))).val := by
  intro b hb
  match b with
  | ⟨0, _⟩ => rfl
  | ⟨1, _⟩ => exact absurd rfl hb

/-- Columns 0–1 are the root map's. -/
theorem wcomb_col0 (a14 : FVec Ideal SW3 .f32) (a15 : FVec Ideal SW .f32) (k : Fin 32) (j : Fin 2) :
    wcombArr a14 a15 (ix2 k (⟨0 + j.val, by omega⟩ : Fin 6)) = a15 (ix2 k j) :=
  concatenate_apply_piece (t := SWc) (1 : Fin SWc.rank)
    [⟨SW, a15⟩, ⟨SW, shapeCast SW (extractStridedSlice SW1 ![0, 0, 0] a14 sl_W3_0) sc_W1⟩,
      ⟨SW, shapeCast SW (extractStridedSlice SW1 ![1, 0, 0] a14 sl_W3_1) sc_W1⟩]
    cat_W (ix2 k (⟨0 + j.val, by omega⟩ : Fin 6)) 0 (by show 0 < 3; omega) SW a15 rfl rfl
    0 rfl (ix2 k j) (wcomb_hi k j _) rfl

/-- Columns 2–3 are relation 0's. -/
theorem wcomb_col2 (a14 : FVec Ideal SW3 .f32) (a15 : FVec Ideal SW .f32) (k : Fin 32) (j : Fin 2) :
    wcombArr a14 a15 (ix2 k (⟨2 + j.val, by omega⟩ : Fin 6)) = wrel0 a14 (ix2 k j) :=
  concatenate_apply_piece (t := SWc) (1 : Fin SWc.rank)
    [⟨SW, a15⟩, ⟨SW, shapeCast SW (extractStridedSlice SW1 ![0, 0, 0] a14 sl_W3_0) sc_W1⟩,
      ⟨SW, shapeCast SW (extractStridedSlice SW1 ![1, 0, 0] a14 sl_W3_1) sc_W1⟩]
    cat_W (ix2 k (⟨2 + j.val, by omega⟩ : Fin 6)) 1 (by show 1 < 3; omega) SW (wrel0 a14) rfl rfl
    2 rfl (ix2 k j) (wcomb_hi k j _) rfl

/-- Columns 4–5 are relation 1's. -/
theorem wcomb_col4 (a14 : FVec Ideal SW3 .f32) (a15 : FVec Ideal SW .f32) (k : Fin 32) (j : Fin 2) :
    wcombArr a14 a15 (ix2 k (⟨4 + j.val, by omega⟩ : Fin 6)) = wrel1 a14 (ix2 k j) :=
  concatenate_apply_piece (t := SWc) (1 : Fin SWc.rank)
    [⟨SW, a15⟩, ⟨SW, shapeCast SW (extractStridedSlice SW1 ![0, 0, 0] a14 sl_W3_0) sc_W1⟩,
      ⟨SW, shapeCast SW (extractStridedSlice SW1 ![1, 0, 0] a14 sl_W3_1) sc_W1⟩]
    cat_W (ix2 k (⟨4 + j.val, by omega⟩ : Fin 6)) 2 (by show 2 < 3; omega) SW (wrel1 a14) rfl rfl
    4 rfl (ix2 k j) (wcomb_hi k j _) rfl

/-! ## The three equal arguments -/

/-- The root term: columns 0–1 of the six-column product are `X` times the root map. -/
theorem root_eq (X : FVec Ideal SN32 .f32) (a14 : FVec Ideal SW3 .f32) (a15 : FVec Ideal SW .f32) :
    extractStridedSlice SN2 ![0, 0] (out6Arr X (wcombArr a14 a15)) sl_N6_0
      = Host.dotGeneral (DotDims.plain 100000 32 2) none X a15 := by
  funext i
  obtain ⟨n, j, rfl⟩ : ∃ (n : Fin 100000) (j : Fin 2), i = ix2 n j := ⟨i 0, i 1, eq_ix2 i⟩
  refine Eq.trans ?_ (dotGeneral_plain_apply none X a15 n j).symm
  refine (slice_out6 X _ 0 (by decide) sl_N6_0 n j).trans ?_
  exact Finset.sum_congr rfl fun k _ => congrArg (X (ix2 n k) * ·) (wcomb_col0 a14 a15 k j)

/-- A relation's term: the gathered rows of two columns of the product are the gathered rows of `X` times the map
    those two columns hold. -/
theorem gathered_eq (X : FVec Ideal SN32 .f32) (Wc : FVec Ideal SWc .f32) (Wr : FVec Ideal SW .f32)
    (c0 : Nat) (hc : c0 + 2 ≤ 6) (h : SN6.Slices ![0, c0] SN2)
    (hW : ∀ (k : Fin 32) (j : Fin 2), Wc (ix2 k (⟨c0 + j.val, by omega⟩ : Fin 6)) = Wr (ix2 k j))
    (idx : IVec SE1 32) :
    Host.gather gather2 (extractStridedSlice SN2 ![0, c0] (out6Arr X Wc) h) idx
      = Host.dotGeneral (DotDims.plain 3200000 32 2) none (Host.gather gather32 X idx) Wr := by
  funext i
  obtain ⟨e, j, rfl⟩ : ∃ (e : Fin 3200000) (j : Fin 2), i = ix2 e j := ⟨i 0, i 1, eq_ix2 i⟩
  refine Eq.trans ?_ (dotGeneral_plain_apply none (Host.gather gather32 X idx) Wr e j).symm
  refine (gather_row_apply (by decide : 0 < 100000) gather2_wf _ idx e j).trans ?_
  refine (slice_out6 X Wc c0 hc h _ j).trans ?_
  refine Finset.sum_congr rfl fun k _ => ?_
  rw [hW k j]
  exact congrArg (· * Wr (ix2 k j)) (gather_row_apply (by decide : 0 < 100000) gather32_wf X idx e k).symm

/-! ## The two tails agree -/

/-- Products first or gather first: the same aggregation of equal arguments. -/
theorem bridge (X : FVec Ideal ⟨2, ![100000, 32]⟩ .f32) (a4 : IVec ⟨2, ![2, 3200000]⟩ 32)
    (a5 : IVec ⟨1, ![3200000]⟩ 32) (a14 : FVec Ideal ⟨3, ![2, 32, 2]⟩ .f32)
    (a15 : FVec Ideal ⟨2, ![32, 2]⟩ .f32) :
    kernelOut (out6Arr X (wcombArr a14 a15)) a4 a5 = refOut X a4 a5 a14 a15 := by
  unfold kernelOut refOut
  rw [root_eq X a14 a15,
    gathered_eq X (wcombArr a14 a15) (wrel0 a14) 2 (by decide) sl_N6_2 (wcomb_col2 a14 a15) (wrapIdx (srcOf a4)),
    gathered_eq X (wcombArr a14 a15) (wrel1 a14) 4 (by decide) sl_N6_4 (wcomb_col4 a14 a15) (wrapIdx (srcOf a4))]

end Cert.Agg

end
-- ==== Proof.lean ====
/-
  The certificate of the node-feature kernel against its reference, over the extended reals.
  Both programs compute, for each of 100000 nodes, 32 features x (four leaky-rectified affine maps of the node's description,
  tweet, numeric and categorical properties, eight columns each), then
      out = x · W_root + Σ_r  segsum_dst((x[src] · W_rel r) ⊙ mask_r) / max(segsum_dst(mask_r), 1)        (r = 0, 1)
  over 3200000 edges (src, dst) of type r. The kernel multiplies x by the combined 32 x 6 matrix [W_root | W_rel 0 | W_rel 1]
  inside its region, once per node, and gathers the 2-column products by src afterwards; the reference gathers the 32-column
  rows by src and multiplies per edge. A row gather commutes with a product on the right, and a column block of a product is
  the product with that column block, so the two agree entry by entry as the same finite sums: no finiteness is used.
  The three frames: the kernel program's at both instances from its frame run (fifty row blocks, host operations before and
  after), the reference's from its run as a straight line of host operations. The ideal pass rewrote nothing.
-/
import proofs.«123657_j12738873000206_1_alg».proof.Defs
import proofs.«123657_j12738873000206_1_alg».proof.Proof.Gen.Kernel
import proofs.«123657_j12738873000206_1_alg».proof.Proof.Gen.KernelIdeal
import proofs.«123657_j12738873000206_1_alg».proof.Proof.Gen.ReferenceIdeal
import proofs.«123657_j12738873000206_1_alg».proof.Proof.Gen.Pre_finite_inputs
import proofs.«123657_j12738873000206_1_alg».proof.Proof.KFrame
import proofs.«123657_j12738873000206_1_alg».proof.Proof.KFrameBits
import proofs.«123657_j12738873000206_1_alg».proof.Proof.KValue
import proofs.«123657_j12738873000206_1_alg».proof.Proof.RRun
import proofs.«123657_j12738873000206_1_alg».proof.Proof.RTail
import proofs.«123657_j12738873000206_1_alg».proof.Proof.RFeat
import proofs.«123657_j12738873000206_1_alg».proof.Proof.Bridge

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Hand.frame m ρ

/-- The reference's result, read: its operations after the feature matrix applied to the feature matrix of the
    launch arrays. -/
theorem ref_result (m' : (ℓ : Loc Cert.ReferenceIdeal.nD Cert.ReferenceIdeal.τ Cert.ReferenceIdeal.sig) → Buf (Elt Ideal) ℓ)
    (c : Dev Cert.ReferenceIdeal.nD) :
    StableHlo.after (Cert.ReferenceIdeal.Hand.opsA ++ Cert.ReferenceIdeal.Hand.opsB) (StableHlo.launchContents m' c)
        (Cert.ReferenceIdeal.main_v74 : DevRef Cert.ReferenceIdeal.τ Cert.ReferenceIdeal.sig)
      = Cert.Agg.refOut
          (Cert.Feat.featArr
            (StableHlo.launchContents m' c (Cert.ReferenceIdeal.main_arg0 : DevRef Cert.ReferenceIdeal.τ Cert.ReferenceIdeal.sig))
            (StableHlo.launchContents m' c (Cert.ReferenceIdeal.main_arg1 : DevRef Cert.ReferenceIdeal.τ Cert.ReferenceIdeal.sig))
            (StableHlo.launchContents m' c (Cert.ReferenceIdeal.main_arg2 : DevRef Cert.ReferenceIdeal.τ Cert.ReferenceIdeal.sig))
            (StableHlo.launchContents m' c (Cert.ReferenceIdeal.main_arg3 : DevRef Cert.ReferenceIdeal.τ Cert.ReferenceIdeal.sig))
            (StableHlo.launchContents m' c (Cert.ReferenceIdeal.main_arg6 : DevRef Cert.ReferenceIdeal.τ Cert.ReferenceIdeal.sig))
            (StableHlo.launchContents m' c (Cert.ReferenceIdeal.main_arg7 : DevRef Cert.ReferenceIdeal.τ Cert.ReferenceIdeal.sig))
            (StableHlo.launchContents m' c (Cert.ReferenceIdeal.main_arg8 : DevRef Cert.ReferenceIdeal.τ Cert.ReferenceIdeal.sig))
            (StableHlo.launchContents m' c (Cert.ReferenceIdeal.main_arg9 : DevRef Cert.ReferenceIdeal.τ Cert.ReferenceIdeal.sig))
            (StableHlo.launchContents m' c (Cert.ReferenceIdeal.main_arg10 : DevRef Cert.ReferenceIdeal.τ Cert.ReferenceIdeal.sig))
            (StableHlo.launchContents m' c (Cert.ReferenceIdeal.main_arg11 : DevRef Cert.ReferenceIdeal.τ Cert.ReferenceIdeal.sig))
            (StableHlo.launchContents m' c (Cert.ReferenceIdeal.main_arg12 : DevRef Cert.ReferenceIdeal.τ Cert.ReferenceIdeal.sig))
            (StableHlo.launchContents m' c (Cert.ReferenceIdeal.main_arg13 : DevRef Cert.ReferenceIdeal.τ Cert.ReferenceIdeal.sig)))
          (StableHlo.launchContents m' c (Cert.ReferenceIdeal.main_arg4 : DevRef Cert.ReferenceIdeal.τ Cert.ReferenceIdeal.sig))
          (StableHlo.launchContents m' c (Cert.ReferenceIdeal.main_arg5 : DevRef Cert.ReferenceIdeal.τ Cert.ReferenceIdeal.sig))
          (StableHlo.launchContents m' c (Cert.ReferenceIdeal.main_arg14 : DevRef Cert.ReferenceIdeal.τ Cert.ReferenceIdeal.sig))
          (StableHlo.launchContents m' c (Cert.ReferenceIdeal.main_arg15 : DevRef Cert.ReferenceIdeal.τ Cert.ReferenceIdeal.sig)) := by
  rw [Cert.ReferenceIdeal.Hand.after_app, Cert.ReferenceIdeal.Hand.rtail_eq, Cert.ReferenceIdeal.Hand.rfeat,
    Cert.ReferenceIdeal.Hand.keptA_arg4, Cert.ReferenceIdeal.Hand.keptA_arg5, Cert.ReferenceIdeal.Hand.keptA_arg14,
    Cert.ReferenceIdeal.Hand.keptA_arg15]

/-- Both idealized programs end with the same result: the kernel's tail of features-times-combined-weights is the
    reference's tail of the features (the bridge), at arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Agg.kernelOut (Cert.KernelIdeal.Hand.o6Of m c)
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.kernel_run m ρ, ?_⟩
  refine (θ_run Cert.ReferenceIdeal.defs _ _).mono (fun r h c => ⟨?_, ?_⟩) (Cert.ReferenceIdeal.Hand.run_main m' ρ')
  · refine (h c Cert.ReferenceIdeal.main_v74).trans ?_
    rw [ref_result]
    obtain ⟨e0, e1, e2, e3, e4, e5, e6, e7, e8, e9, e10, e11, e12, e13, e14, e15⟩ := hagree c
    show Cert.Agg.refOut (Cert.Feat.featArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
    rw [e0, e1, e2, e3, e4, e5, e6, e7, e8, e9, e10, e11, e12, e13, e14, e15]
    exact (Cert.Agg.bridge _ _ _ _ _).symm
  · refine ⟨(h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _),
      (h c Cert.ReferenceIdeal.main_arg9).trans (Cert.ReferenceIdeal.Hand.kept_arg9 _),
      (h c Cert.ReferenceIdeal.main_arg10).trans (Cert.ReferenceIdeal.Hand.kept_arg10 _),
      (h c Cert.ReferenceIdeal.main_arg11).trans (Cert.ReferenceIdeal.Hand.kept_arg11 _),
      (h c Cert.ReferenceIdeal.main_arg12).trans (Cert.ReferenceIdeal.Hand.kept_arg12 _),
      (h c Cert.ReferenceIdeal.main_arg13).trans (Cert.ReferenceIdeal.Hand.kept_arg13 _),
      (h c Cert.ReferenceIdeal.main_arg14).trans (Cert.ReferenceIdeal.Hand.kept_arg14 _),
      (h c Cert.ReferenceIdeal.main_arg15).trans (Cert.ReferenceIdeal.Hand.kept_arg15 _)⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
